-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![512, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S512x1024 : Shape := ⟨2, ![512, 1024]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel

variable [Facts]

def fn {F : FTy → Type} [FloatOps F] (main_arg0 : FVec F S512x1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  main_v3
-- ==== Kernel.lean ====
abbrev S512x256 : Shape := ⟨2, ![512, 256]⟩
abbrev S4x2x512 : Shape := ⟨3, ![4, 2, 512]⟩
abbrev S3 : Shape := ⟨1, ![3]⟩
abbrev S_ : Shape := ⟨0, ![]⟩
abbrev S512 : Shape := ⟨1, ![512]⟩
abbrev S512x1 : Shape := ⟨2, ![512, 1]⟩
abbrev S512x2 : Shape := ⟨2, ![512, 2]⟩
abbrev S2x512 : Shape := ⟨2, ![2, 512]⟩
abbrev S1x2x512 : Shape := ⟨3, ![1, 2, 512]⟩
abbrev S1 : Shape := ⟨1, ![1]⟩
abbrev S4x1x512 : Shape := ⟨3, ![4, 1, 512]⟩
abbrev S4x512 : Shape := ⟨2, ![4, 512]⟩
abbrev S1x512 : Shape := ⟨2, ![1, 512]⟩

abbrev nBuf : Space → Nat
  | .hbm => 2
  | .vmem => 3
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S4x2x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_33 : BitVec 32 := 1#32
  let v57 : BitVec 32 := Scalar.addi v2 c1_i32_33
  let c4_i32_34 : BitVec 32 := 4#32
  let c0_i32_35 : BitVec 32 := 0#32
  let v58 : BitVec 1 := Scalar.cmpi .eq c4_i32_34 c0_i32_35
  let c1_i32_36 : BitVec 32 := 1#32
  let v59 : BitVec 32 := Scalar.select v58 c1_i32_36 c4_i32_34
  let v60 : BitVec 32 := Scalar.remsi v57 v59
  let c0_i32_38 : BitVec 32 := 0#32
  let v62 : BitVec 1 := Scalar.cmpi .slt v60 c0_i32_38
  let c0_i32_39 : BitVec 32 := 0#32
  let v63 : BitVec 1 := Scalar.cmpi .slt v59 c0_i32_39
  let v64 : BitVec 1 := Scalar.xori v62 v63
  let c0_i32_37 : BitVec 32 := 0#32
  let v61 : BitVec 1 := Scalar.cmpi .ne v60 c0_i32_37
  let v65 : BitVec 1 := Scalar.andi v64 v61
  let v66 : BitVec 32 := Scalar.addi v60 v59
  let v67 : BitVec 32 := Scalar.select v65 v66 v60
  let c1_i32_44 : BitVec 32 := 1#32
  let v68 : BitVec 32 := Scalar.muli v67 c1_i32_44
  let v69 : BitVec 32 := Scalar.addi c0_i32_45 v68
  v69.toNat
def k0_dev5 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_50 : BitVec 32 := 2#32
  let v78 : BitVec 32 := Scalar.addi v2 c2_i32_50
  let c4_i32_51 : BitVec 32 := 4#32
  let c0_i32_52 : BitVec 32 := 0#32
  let v79 : BitVec 1 := Scalar.cmpi .eq c4_i32_51 c0_i32_52
  let c1_i32_53 : BitVec 32 := 1#32
  let v80 : BitVec 32 := Scalar.select v79 c1_i32_53 c4_i32_51
  let v81 : BitVec 32 := Scalar.remsi v78 v80
  let c0_i32_55 : BitVec 32 := 0#32
  let v83 : BitVec 1 := Scalar.cmpi .slt v81 c0_i32_55
  let c0_i32_56 : BitVec 32 := 0#32
  let v84 : BitVec 1 := Scalar.cmpi .slt v80 c0_i32_56
  let v85 : BitVec 1 := Scalar.xori v83 v84
  let c0_i32_54 : BitVec 32 := 0#32
  let v82 : BitVec 1 := Scalar.cmpi .ne v81 c0_i32_54
  let v86 : BitVec 1 := Scalar.andi v85 v82
  let v87 : BitVec 32 := Scalar.addi v81 v80
  let v88 : BitVec 32 := Scalar.select v86 v87 v81
  let c1_i32_61 : BitVec 32 := 1#32
  let v89 : BitVec 32 := Scalar.muli v88 c1_i32_61
  let v90 : BitVec 32 := Scalar.addi c0_i32_62 v89
  v90.toNat
def k0_dev6 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_67 : BitVec 32 := 3#32
  let v99 : BitVec 32 := Scalar.addi v2 c3_i32_67
  let c4_i32_68 : BitVec 32 := 4#32
  let c0_i32_69 : BitVec 32 := 0#32
  let v100 : BitVec 1 := Scalar.cmpi .eq c4_i32_68 c0_i32_69
  let c1_i32_70 : BitVec 32 := 1#32
  let v101 : BitVec 32 := Scalar.select v100 c1_i32_70 c4_i32_68
  let v102 : BitVec 32 := Scalar.remsi v99 v101
  let c0_i32_72 : BitVec 32 := 0#32
  let v104 : BitVec 1 := Scalar.cmpi .slt v102 c0_i32_72
  let c0_i32_73 : BitVec 32 := 0#32
  let v105 : BitVec 1 := Scalar.cmpi .slt v101 c0_i32_73
  let v106 : BitVec 1 := Scalar.xori v104 v105
  let c0_i32_71 : BitVec 32 := 0#32
  let v103 : BitVec 1 := Scalar.cmpi .ne v102 c0_i32_71
  let v107 : BitVec 1 := Scalar.andi v106 v103
  let v108 : BitVec 32 := Scalar.addi v102 v101
  let v109 : BitVec 32 := Scalar.select v107 v108 v102
  let c1_i32_78 : BitVec 32 := 1#32
  let v110 : BitVec 32 := Scalar.muli v109 c1_i32_78
  let v111 : BitVec 32 := Scalar.addi c0_i32_79 v110
  v111.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S512 : S512x256.Reduces [1] S512
  shapeCasts_S512_S512x1 : S512.ShapeCasts S512x1
  broadcasts_S512x1_S512x256 : S512x1.Broadcasts S512x256
  concatenates_S512x1_S512x1_S512x2_d1 : Shape.Concatenates [S512x1, S512x1] S512x2 1
  transposes_S512x2_p1_0_S2x512 : S512x2.Transposes [1, 0] S2x512
  inb_S4x2x512_S1x2x512_0_0_0 : ∀ a, (![0, 0, 0] : Fin 3 → Nat) a + S1x2x512.size a ≤ S4x2x512.size a
  h_S1x2x512 : 0 < S1x2x512.numel
  shapeCasts_S1x2x512_S2x512 : S1x2x512.ShapeCasts S2x512
  shapeCasts_S2x512_S1x2x512 : S2x512.ShapeCasts S1x2x512
  hamt_3 : (3#32 : BitVec 32).msb = false
  inb_S3_S1_0 : ∀ a, (![0] : Fin 1 → Nat) a + S1.size a ≤ S3.size a
  squeezes_S1_S_ : S1.Squeezes S_
  inb_S4x2x512_S1x2x512_1_0_0 : ∀ a, (![1, 0, 0] : Fin 3 → Nat) a + S1x2x512.size a ≤ S4x2x512.size a
  squeezes_S1x2x512_S2x512 : S1x2x512.Squeezes S2x512
  inb_S3_S1_1 : ∀ a, (![1] : Fin 1 → Nat) a + S1.size a ≤ S3.size a
  inb_S4x2x512_S1x2x512_2_0_0 : ∀ a, (![2, 0, 0] : Fin 3 → Nat) a + S1x2x512.size a ≤ S4x2x512.size a
  inb_S3_S1_2 : ∀ a, (![2] : Fin 1 → Nat) a + S1.size a ≤ S3.size a
  inb_S4x2x512_S1x2x512_3_0_0 : ∀ a, (![3, 0, 0] : Fin 3 → Nat) a + S1x2x512.size a ≤ S4x2x512.size a
  inb_S4x2x512_S4x2x512_0_0_0 : ∀ a, (![0, 0, 0] : Fin 3 → Nat) a + S4x2x512.size a ≤ S4x2x512.size a
  h_S4x2x512 : 0 < S4x2x512.numel
  slices_S4x2x512_o0_0_0_S4x1x512 : S4x2x512.Slices ![0, 0, 0] S4x1x512
  shapeCasts_S4x1x512_S4x512 : S4x1x512.ShapeCasts S4x512
  slices_S4x2x512_o0_1_0_S4x1x512 : S4x2x512.Slices ![0, 1, 0] S4x1x512
  reduces_S4x512_S512 : S4x512.Reduces [0] S512
  shapeCasts_S512_S1x512 : S512.ShapeCasts S1x512
  broadcasts_S1x512_S4x512 : S1x512.Broadcasts S4x512
  transposes_S1x512_p1_0_S512x1 : S1x512.Transposes [1, 0] S512x1
  hcc0_scratch1 : 2 + S3.numel ≤ 8
  hcc0_scratch2 : 5 + S3.numel ≤ 8
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole

variable [Facts₀]

abbrev cc0_scratch1 : DmaSems sig S3 := SemArray.consecutive 2 S3 hcc0_scratch1
abbrev cc0_scratch2 : DmaSems sig S3 := SemArray.consecutive 5 S3 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x1024 : Shape := ⟨2, ![512, 1024]⟩
abbrev S_ : Shape := ⟨0, ![]⟩
abbrev S512 : Shape := ⟨1, ![512]⟩
abbrev S512x1 : Shape := ⟨2, ![512, 1]⟩

abbrev nBuf : Space → Nat
  | .hbm => 12
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S_, .f32⟩
  | .hbm, ⟨2, _⟩ => ⟨S512, .f32⟩
  | .hbm, ⟨3, _⟩ => ⟨S512x1, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S512x1024, .f32⟩
  | .hbm, ⟨11, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  reducesTo_S512x1024_S512_d1 : S512x1024.ReducesTo [1] S512
  h_S_ : 0 < S_.numel
  bcast_S512_S512x1_0 : S512.BroadcastsInDim S512x1 (![0] : Fin 1 → Fin S512x1.rank)
  bcast_S512x1_S512x1024_0_1 : S512x1.BroadcastsInDim S512x1024 (![0, 1] : Fin 2 → Fin S512x1024.rank)

variable [Facts₀]

class Facts : Prop extends Facts₀ where

variable [Facts]
-- ==== Proof.KernelIdealSpec.lean ====
/-
  What each device's buffers hold, as pure terms of the four devices' input blocks.
  Device `c` puts its own row statistics (row maximum, row sum of exponentials) in slot 0 of its exchange buffer and copies
  them into slot `j` of device `c + j` (mod 4), j = 1, 2, 3; so slot `j` of device `c` ends holding the statistics of device
  `c + 4 - j` (mod 4). The result on device `c` is the body's last payload of its own block and of that whole buffer.
-/
import proofs.«901067_g7700000000001068_dist_softmax_colshard_i_m512_n256_v7x_i4_f32_1_alg».proof.Proof.Gen.KernelIdeal.Skeleton
import Idealize.ShloMosaic.Lib.ValueIdx

noncomputable section

namespace Cert.KernelIdealProof

open Cert.KernelIdeal Cert.KernelIdeal.Gen
open Idealize.ShloMosaic Idealize.ShloMosaic.ValueIdx

variable {F : FTy → Type} [FloatOps F]

/-- Device `c + k` modulo the four devices. -/
def pr (c : Dev nD) (k : ℕ) : Dev nD := ⟨(c.val + k) % 4, Nat.mod_lt _ (by decide)⟩

theorem pr_val (c : Dev nD) (k : ℕ) : (pr c k).val = (c.val + k) % 4 := rfl

/-- The exchange buffer of device `c` once every copy has landed: slot `j` holds the row statistics of device `c + 4 - j`. -/
def commOf (xs : Dev nD → Vec F S512x256 .f32) (c : Dev nD) : Vec F S4x2x512 .f32 :=
  fun i => k0_pay3 (xs (pr c (4 - (i 0).val))) (ix3 (0 : Fin 1) (i 1) (i 2))

/-- The result block of device `c`. -/
def outOf (xs : Dev nD → Vec F S512x256 .f32) (c : Dev nD) : FVec F S512x256 .f32 :=
  k0_pay1 (k0_pay2 (xs c)) (k0_pay4 (commOf xs c))

end Cert.KernelIdealProof

end
-- ==== Proof.KernelIdealProto.lean ====
/-
  The exchange protocol of the four devices, as rounds of duties on their semaphores.
  Device c signals the barrier semaphore of each of the three other devices one unit and waits for three units on its own:
  the unit from device c + j hands c slot j of that device's exchange buffer (c copies its statistics there) and the fact
  that the device's receive cell j - 1 stands at round 0. Copy j of device c reads slot 0 of its own buffer and writes slot j
  of device c + j, crediting that device's receive cell j - 1 (payload: the slot, now holding c's statistics) and c's own
  send cell j - 1 (payload: the share of slot 0 the copy was lent). One round per cell.
-/
import proofs.«901067_g7700000000001068_dist_softmax_colshard_i_m512_n256_v7x_i4_f32_1_alg».proof.Proof.KernelIdealSpec
import proofs.«901067_g7700000000001068_dist_softmax_colshard_i_m512_n256_v7x_i4_f32_1_alg».proof.Proof.Gen.KernelIdeal
import proofs.«901067_g7700000000001068_dist_softmax_colshard_i_m512_n256_v7x_i4_f32_1_alg».proof.Proof.Gen.KernelIdeal.Skeleton
import proofs.«901067_g7700000000001068_dist_softmax_colshard_i_m512_n256_v7x_i4_f32_1_alg».proof.Proof.Gen.KernelIdeal.Launch
import proofs.«901067_g7700000000001068_dist_softmax_colshard_i_m512_n256_v7x_i4_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the exchange's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices a device addresses -/

theorem k0_dev1_eq : ∀ c : Dev nD, k0_dev1 c = (c.val + 1) % 4 := by decide +kernel
theorem k0_dev2_eq : ∀ c : Dev nD, k0_dev2 c = (c.val + 2) % 4 := by decide +kernel
theorem k0_dev3_eq : ∀ c : Dev nD, k0_dev3 c = (c.val + 3) % 4 := by decide +kernel
theorem k0_dev4_eq : ∀ c : Dev nD, k0_dev4 c = (c.val + 1) % 4 := by decide +kernel
theorem k0_dev5_eq : ∀ c : Dev nD, k0_dev5 c = (c.val + 2) % 4 := by decide +kernel
theorem k0_dev6_eq : ∀ c : Dev nD, k0_dev6 c = (c.val + 3) % 4 := by decide +kernel

/-- The three signals name devices c + 1, c + 2, c + 3; so do the three copies. -/
theorem dev1_eq (c : Dev nD) : (⟨k0_dev1 c, k0_dev1_lt c⟩ : Dev nD) = pr c 1 := Fin.ext (k0_dev1_eq c)
theorem dev2_eq (c : Dev nD) : (⟨k0_dev2 c, k0_dev2_lt c⟩ : Dev nD) = pr c 2 := Fin.ext (k0_dev2_eq c)
theorem dev3_eq (c : Dev nD) : (⟨k0_dev3 c, k0_dev3_lt c⟩ : Dev nD) = pr c 3 := Fin.ext (k0_dev3_eq c)
theorem dev4_eq (c : Dev nD) : (⟨k0_dev4 c, k0_dev4_lt c⟩ : Dev nD) = pr c 1 := Fin.ext (k0_dev4_eq c)
theorem dev5_eq (c : Dev nD) : (⟨k0_dev5 c, k0_dev5_lt c⟩ : Dev nD) = pr c 2 := Fin.ext (k0_dev5_eq c)
theorem dev6_eq (c : Dev nD) : (⟨k0_dev6 c, k0_dev6_lt c⟩ : Dev nD) = pr c 3 := Fin.ext (k0_dev6_eq c)

theorem pr_pr (c : Dev nD) (a b : ℕ) : pr (pr c a) b = pr c (a + b) := Fin.ext (by simp only [pr_val]; omega)
theorem pr_four (c : Dev nD) : pr c 4 = c := Fin.ext (by simp only [pr_val]; have h : c.val < 4 := c.isLt; omega)
theorem pr_zero (c : Dev nD) : pr c 0 = c := Fin.ext (by simp only [pr_val]; have h : c.val < 4 := c.isLt; omega)
theorem pr_inj (k : ℕ) : Function.Injective (fun c : Dev nD => pr c k) := fun a b h => by
  have h' : (a.val + k) % 4 = (b.val + k) % 4 := congrArg Fin.val h
  have ha : a.val < 4 := a.isLt
  have hb : b.val < 4 := b.isLt
  exact Fin.ext (by omega)

/-- Adding `k` to every device, a permutation of the devices (its inverse adds `4 - k % 4`). -/
def shift (k : ℕ) : Dev nD ≃ Dev nD where
  toFun c := pr c k
  invFun c := pr c (4 - k % 4)
  left_inv c := by
    show pr (pr c k) (4 - k % 4) = c
    rw [pr_pr]; exact Fin.ext (by simp only [pr_val]; have h : c.val < 4 := c.isLt; omega)
  right_inv c := by
    show pr (pr c (4 - k % 4)) k = c
    rw [pr_pr]; exact Fin.ext (by simp only [pr_val]; have h : c.val < 4 := c.isLt; omega)

/-! ## The memrefs and the cells -/

abbrev xM : Memref sig .tc .vmem S512x256 .f32 := Memref.whole cc0_stg0_0
abbrev oM : Memref sig .tc .vmem S512x256 .f32 := Memref.whole cc0_stg1_0
abbrev cM : Memref sig .tc .vmem S4x2x512 .f32 := Memref.whole cc0_scratch0

/-- Slot `j` of the exchange buffer, as the body names it for a copy: the [1,2,512] slice at row j, squeezed to [2,512]. -/
abbrev slot0 : Memref sig .tc .vmem S2x512 .f32 :=
  (cM.slice (Rect.unit (s := S4x2x512) ![0, 0, 0] S1x2x512.size inb_S4x2x512_S1x2x512_0_0_0) (fun _ => rfl)).squeeze S2x512 squeezes_S1x2x512_S2x512
abbrev slot1 : Memref sig .tc .vmem S2x512 .f32 :=
  (cM.slice (Rect.unit (s := S4x2x512) ![1, 0, 0] S1x2x512.size inb_S4x2x512_S1x2x512_1_0_0) (fun _ => rfl)).squeeze S2x512 squeezes_S1x2x512_S2x512
abbrev slot2 : Memref sig .tc .vmem S2x512 .f32 :=
  (cM.slice (Rect.unit (s := S4x2x512) ![2, 0, 0] S1x2x512.size inb_S4x2x512_S1x2x512_2_0_0) (fun _ => rfl)).squeeze S2x512 squeezes_S1x2x512_S2x512
abbrev slot3 : Memref sig .tc .vmem S2x512 .f32 :=
  (cM.slice (Rect.unit (s := S4x2x512) ![3, 0, 0] S1x2x512.size inb_S4x2x512_S1x2x512_3_0_0) (fun _ => rfl)).squeeze S2x512 squeezes_S1x2x512_S2x512
/-- Slots 1, 2, 3 by the copy's number less one. -/
abbrev slotR : Fin 3 → Memref sig .tc .vmem S2x512 .f32 := fun | 0 => slot1 | 1 => slot2 | 2 => slot3

/-- The barrier semaphore of collective id 0 (the runtime's, not scoped to the launch); the three send and the three
    receive DMA semaphores (scoped scratch), as the body names them. -/
abbrev barS : Sem sig := (SemArray.scalar (sig.barrier 0 rfl) : Sems sig S_).sem
abbrev sendS : Fin 3 → DmaSem sig := fun
  | 0 => ((cc0_scratch1.slice (Rect.unit (s := S3) ![0] S1.size inb_S3_S1_0)).squeeze S_ squeezes_S1_S_).sem
  | 1 => ((cc0_scratch1.slice (Rect.unit (s := S3) ![1] S1.size inb_S3_S1_1)).squeeze S_ squeezes_S1_S_).sem
  | 2 => ((cc0_scratch1.slice (Rect.unit (s := S3) ![2] S1.size inb_S3_S1_2)).squeeze S_ squeezes_S1_S_).sem
abbrev recvS : Fin 3 → DmaSem sig := fun
  | 0 => ((cc0_scratch2.slice (Rect.unit (s := S3) ![0] S1.size inb_S3_S1_0)).squeeze S_ squeezes_S1_S_).sem
  | 1 => ((cc0_scratch2.slice (Rect.unit (s := S3) ![1] S1.size inb_S3_S1_1)).squeeze S_ squeezes_S1_S_).sem
  | 2 => ((cc0_scratch2.slice (Rect.unit (s := S3) ![2] S1.size inb_S3_S1_2)).squeeze S_ squeezes_S1_S_).sem

theorem sendS_val : ∀ k : Fin 3, (sendS k).val = 2 + k.val := by decide
theorem recvS_val : ∀ k : Fin 3, (recvS k).val = 5 + k.val := by decide

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

/-- What one copy credits: the same for the three slots. -/
abbrev N : ℕ := (slot1 : Memref sig .tc .vmem S2x512 .f32).view.dmaCredit
theorem N_pos : 0 < N := View.dmaCredit_pos _ (by decide)

/-! ## Contents -/

/-- Device `c`'s input block as the region finds it. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s exchange buffer once every copy into it has landed. -/
def comm (c : Dev nD) : Buf (Elt F) ((cM : Memref sig .tc .vmem S4x2x512 .f32).view.loc (c : Thread nD τ)) := commOf (xstg m ρ) c

/-- Device `c`'s result block. -/
def outAt (c : Dev nD) : (cc0_stg1_0 : Ref sig .tc).ty.Contents (Elt F) := outOf (xstg m ρ) c

/-! ## The four slots as regions of the buffer -/

abbrev r0 : Rect S4x2x512 := Rect.unit (s := S4x2x512) ![0, 0, 0] S1x2x512.size inb_S4x2x512_S1x2x512_0_0_0
abbrev r1 : Rect S4x2x512 := Rect.unit (s := S4x2x512) ![1, 0, 0] S1x2x512.size inb_S4x2x512_S1x2x512_1_0_0
abbrev r2 : Rect S4x2x512 := Rect.unit (s := S4x2x512) ![2, 0, 0] S1x2x512.size inb_S4x2x512_S1x2x512_2_0_0
abbrev r3 : Rect S4x2x512 := Rect.unit (s := S4x2x512) ![3, 0, 0] S1x2x512.size inb_S4x2x512_S1x2x512_3_0_0

theorem slot0_set : (slot0 : Memref sig .tc .vmem S2x512 .f32).view.set = r0.set := by
  simp only [Memref.view_squeeze, Memref.view_slice, Memref.view_whole, View.set_reshape, View.set_slice_whole]
theorem slot1_set : (slot1 : Memref sig .tc .vmem S2x512 .f32).view.set = r1.set := by
  simp only [Memref.view_squeeze, Memref.view_slice, Memref.view_whole, View.set_reshape, View.set_slice_whole]
theorem slot2_set : (slot2 : Memref sig .tc .vmem S2x512 .f32).view.set = r2.set := by
  simp only [Memref.view_squeeze, Memref.view_slice, Memref.view_whole, View.set_reshape, View.set_slice_whole]
theorem slot3_set : (slot3 : Memref sig .tc .vmem S2x512 .f32).view.set = r3.set := by
  simp only [Memref.view_squeeze, Memref.view_slice, Memref.view_whole, View.set_reshape, View.set_slice_whole]

/-- An element lies in the slot at row `j` exactly when its first coordinate is `j`. -/
theorem mem_row (j : ℕ) (inb : ∀ a, (![j, 0, 0] : Fin 3 → Nat) a + S1x2x512.size a ≤ S4x2x512.size a) (i : S4x2x512.Idx) :
    i ∈ (Rect.unit (s := S4x2x512) ![j, 0, 0] S1x2x512.size inb).set ↔ (i 0).val = j := by
  rw [Rect.mem_set_unit]
  have h1 : (i 1).val < 2 := (i 1).isLt
  have h2 : (i 2).val < 512 := (i 2).isLt
  constructor
  · intro h
    have h0 : j ≤ (i 0).val ∧ (i 0).val < j + 1 := h 0
    omega
  · intro h a
    match a with
    | ⟨0, _⟩ => exact (show j ≤ (i 0).val ∧ (i 0).val < j + 1 by omega)
    | ⟨1, _⟩ => exact (show 0 ≤ (i 1).val ∧ (i 1).val < 0 + 2 by omega)
    | ⟨2, _⟩ => exact (show 0 ≤ (i 2).val ∧ (i 2).val < 0 + 512 by omega)

theorem cover (i : S4x2x512.Idx) : i ∈ r0.set ∨ i ∈ r1.set ∨ i ∈ r2.set ∨ i ∈ r3.set := by
  have h0 : (i 0).val < 4 := (i 0).isLt
  rw [mem_row, mem_row, mem_row, mem_row]; omega

theorem disj01 : Disjoint r0.set r1.set := Rect.unit_disjoint 0 (.inl (by decide))
theorem disj02 : Disjoint r0.set r2.set := Rect.unit_disjoint 0 (.inl (by decide))
theorem disj03 : Disjoint r0.set r3.set := Rect.unit_disjoint 0 (.inl (by decide))
theorem disj12 : Disjoint r1.set r2.set := Rect.unit_disjoint 0 (.inl (by decide))
theorem disj13 : Disjoint r1.set r3.set := Rect.unit_disjoint 0 (.inl (by decide))
theorem disj23 : Disjoint r2.set r3.set := Rect.unit_disjoint 0 (.inl (by decide))

theorem union_rows : r0.set ∪ r1.set ∪ r2.set ∪ r3.set = (Finset.univ : Finset S4x2x512.Idx) := by
  ext i
  simp only [Finset.mem_union, Finset.mem_univ, iff_true]
  rcases cover i with h | h | h | h
  · exact .inl (.inl (.inl h))
  · exact .inl (.inl (.inr h))
  · exact .inl (.inr h)
  · exact .inr h

/-! ## Holding a slot -/

/-- Share `q` of slot 0 of device `c`'s buffer at contents `f` (the slot's elements only). -/
abbrev pts0 (c : Dev nD) (q : PosShare TreeShare) (f : Buf (Elt F) ((cM : Memref sig .tc .vmem S4x2x512 .f32).view.loc (c : Thread nD τ))) : sProp 𝕄 :=
  (slot0 : Memref sig .tc .vmem S2x512 .f32).view.loc (c : Thread nD τ) ↦[(slot0 : Memref sig .tc .vmem S2x512 .f32).view.set]{q} f
/-- The same of slot `k + 1`. -/
abbrev ptsR : Fin 3 → (c : Dev nD) → PosShare TreeShare → Buf (Elt F) ((cM : Memref sig .tc .vmem S4x2x512 .f32).view.loc (c : Thread nD τ)) → sProp 𝕄 := fun
  | 0 => fun c q f => (slot1 : Memref sig .tc .vmem S2x512 .f32).view.loc (c : Thread nD τ) ↦[(slot1 : Memref sig .tc .vmem S2x512 .f32).view.set]{q} f
  | 1 => fun c q f => (slot2 : Memref sig .tc .vmem S2x512 .f32).view.loc (c : Thread nD τ) ↦[(slot2 : Memref sig .tc .vmem S2x512 .f32).view.set]{q} f
  | 2 => fun c q f => (slot3 : Memref sig .tc .vmem S2x512 .f32).view.loc (c : Thread nD τ) ↦[(slot3 : Memref sig .tc .vmem S2x512 .f32).view.set]{q} f

/-- The share of slot 0 lent to copy `k + 1`; the device keeps `fullShare.left.left`. -/
abbrev shr : Fin 3 → PosShare TreeShare := fun | 0 => fullShare.left.right | 1 => fullShare.right.left | 2 => fullShare.right.right

/-! ## The schedule -/

/-- What device `c + d + 1`'s signal hands `c`: slot `d + 1` of that device's buffer and that its receive cell `d` stands at round 0. -/
def barPay (c : Dev nD) : Fin 3 → sProp 𝕄 := fun
  | 0 => iprop((∃ f, ptsR 0 (pr c 1) fullShare f) ∗ reached ER (recvCell (pr c 1) 0) 0)
  | 1 => iprop((∃ f, ptsR 1 (pr c 2) fullShare f) ∗ reached ER (recvCell (pr c 2) 1) 0)
  | 2 => iprop((∃ f, ptsR 2 (pr c 3) fullShare f) ∗ reached ER (recvCell (pr c 3) 2) 0)
/-- What the copy into slot `k + 1` of device `c` hands it: the slot at its final contents. -/
def recvPay (c : Dev nD) (k : Fin 3) : sProp 𝕄 := ptsR k c fullShare (comm m ρ c)
/-- What copy `k + 1` of device `c` hands back once its source is read: the share of slot 0 it was lent. -/
def sendPay (c : Dev nD) (k : Fin 3) : sProp 𝕄 := pts0 c (shr k) (comm m ρ c)

abbrev IsBar (g : GSem nD τ sig) : Prop := g.1.2 = .tc ∧ g.2 = .reg barS
abbrev IsXfer (g : GSem nD τ sig) : Prop := g.1.2 = .tc ∧ ∃ k : Fin 3, g.2 = .dma (sendS k) ∨ g.2 = .dma (recvS k)

/-- One round: a barrier cell has three duties of one unit (one per other device); a send or receive cell one duty of a
    copy's credit. -/
def sched : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if g.2 = .dma (recvS 0) then recvPay m ρ g.1.1 0
    else if g.2 = .dma (recvS 1) then recvPay m ρ g.1.1 1
    else if g.2 = .dma (recvS 2) then recvPay m ρ g.1.1 2
    else if g.2 = .dma (sendS 0) then sendPay m ρ g.1.1 0
    else if g.2 = .dma (sendS 1) then sendPay m ρ g.1.1 1
    else if g.2 = .dma (sendS 2) then sendPay m ρ g.1.1 2
    else iprop(emp)
  amount_pos g _ _ _ := by
    by_cases h : g.2 = .reg barS
    · rw [if_pos h]; exact Nat.one_pos
    · rw [if_neg h]; exact N_pos

instance sched_payload_storable (g : GSem nD τ sig) (r : ℕ) (d : Fin 3) :
    BI.Storable (upEmb : UEmb _ 𝕄) ((sched (F := F) m ρ).payload g r d) := by
  show BI.Storable upEmb (if g.2 = .reg barS then barPay g.1.1 d
    else if g.2 = .dma (recvS 0) then recvPay m ρ g.1.1 0
    else if g.2 = .dma (recvS 1) then recvPay m ρ g.1.1 1
    else if g.2 = .dma (recvS 2) then recvPay m ρ g.1.1 2
    else if g.2 = .dma (sendS 0) then sendPay m ρ g.1.1 0
    else if g.2 = .dma (sendS 1) then sendPay m ρ g.1.1 1
    else if g.2 = .dma (sendS 2) then sendPay m ρ g.1.1 2
    else iprop(emp))
  unfold barPay recvPay sendPay
  (repeat' split) <;> infer_instance

section Sched
variable (c : Dev nD)

theorem send_ne_bar (k : Fin 3) : (SemLoc.dma (sendS k) : SemLoc sig) ≠ .reg barS := fun h => by cases h
theorem recv_ne_bar (k : Fin 3) : (SemLoc.dma (recvS k) : SemLoc sig) ≠ .reg barS := fun h => by cases h
theorem send_ne_recv : ∀ k k' : Fin 3, (SemLoc.dma (sendS k) : SemLoc sig) ≠ .dma (recvS k') := by decide
theorem recv_ne_send : ∀ k k' : Fin 3, (SemLoc.dma (recvS k) : SemLoc sig) ≠ .dma (sendS k') := by decide
theorem send_inj : ∀ k k' : Fin 3, (SemLoc.dma (sendS k) : SemLoc sig) = .dma (sendS k') → k = k' := by decide
theorem recv_inj : ∀ k k' : Fin 3, (SemLoc.dma (recvS k) : SemLoc sig) = .dma (recvS k') → k = k' := by decide
theorem not_bar_send (k : Fin 3) : ¬ IsBar (sendCell c k) := fun h => send_ne_bar k h.2
theorem not_bar_recv (k : Fin 3) : ¬ IsBar (recvCell c k) := fun h => recv_ne_bar k h.2

theorem duties_bar : (sched (F := F) m ρ).duties (barCell c) 0 = Finset.univ := by dsimp only [sched]; exact if_pos ⟨rfl, rfl, rfl⟩
theorem duties_send (k : Fin 3) : (sched (F := F) m ρ).duties (sendCell c k) 0 = {0} := by
  dsimp only [sched]; rw [if_neg (fun h => not_bar_send c k h.2)]; exact if_pos ⟨rfl, rfl, k, .inl rfl⟩
theorem duties_recv (k : Fin 3) : (sched (F := F) m ρ).duties (recvCell c k) 0 = {0} := by
  dsimp only [sched]; rw [if_neg (fun h => not_bar_recv c k h.2)]; exact if_pos ⟨rfl, rfl, k, .inr rfl⟩
theorem duties_later (g : GSem nD τ sig) : ∀ r, 1 ≤ r → (sched (F := F) m ρ).duties g r = ∅ :=
  fun r hr => by dsimp only [sched]; rw [if_neg fun h => by omega, if_neg fun h => by omega]

theorem amount_bar (d : Fin 3) : (sched (F := F) m ρ).amount (barCell c) 0 d = 1 := by dsimp only [sched]; exact if_pos rfl
theorem amount_send (k d : Fin 3) : (sched (F := F) m ρ).amount (sendCell c k) 0 d = N := by dsimp only [sched]; exact if_neg (send_ne_bar k)
theorem amount_recv (k d : Fin 3) : (sched (F := F) m ρ).amount (recvCell c k) 0 d = N := by dsimp only [sched]; exact if_neg (recv_ne_bar k)

theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send (k : Fin 3) : (sched (F := F) m ρ).expect (sendCell c k) 0 = N := by
  unfold Schedule.expect Schedule.amountOf; rw [duties_send, Finset.sum_singleton, amount_send]
theorem expect_recv (k : Fin 3) : (sched (F := F) m ρ).expect (recvCell c k) 0 = N := by
  unfold Schedule.expect Schedule.amountOf; rw [duties_recv, Finset.sum_singleton, amount_recv]

theorem payload_bar (d : Fin 3) : (sched (F := F) m ρ).payload (barCell c) 0 d = barPay c d := by dsimp only [sched]; rw [if_pos rfl]
theorem payload_recv (k d : Fin 3) : (sched (F := F) m ρ).payload (recvCell c k) 0 d = recvPay m ρ c k := by
  dsimp only [sched]; rw [if_neg (recv_ne_bar k)]
  fin_cases k
  · rw [if_pos rfl]; rfl
  · rw [if_neg (fun h => absurd (recv_inj _ _ h) (by decide)), if_pos rfl]; rfl
  · rw [if_neg (fun h => absurd (recv_inj _ _ h) (by decide)), if_neg (fun h => absurd (recv_inj _ _ h) (by decide)), if_pos rfl]; rfl
theorem payload_send (k d : Fin 3) : (sched (F := F) m ρ).payload (sendCell c k) 0 d = sendPay m ρ c k := by
  dsimp only [sched]
  rw [if_neg (send_ne_bar k), if_neg (send_ne_recv k 0), if_neg (send_ne_recv k 1), if_neg (send_ne_recv k 2)]
  fin_cases k
  · rw [if_pos rfl]; rfl
  · rw [if_neg (fun h => absurd (send_inj _ _ h) (by decide)), if_pos rfl]; rfl
  · rw [if_neg (fun h => absurd (send_inj _ _ h) (by decide)), if_neg (fun h => absurd (send_inj _ _ h) (by decide)), if_pos rfl]; rfl

theorem bigSep_fin3 (Φ : Fin 3 → sProp 𝕄) : bigSep Finset.univ Φ = iprop(Φ 0 ∗ Φ 1 ∗ Φ 2) := bigSep_univ_eq_bigSepL [0, 1, 2] (by decide) (by decide) Φ

/-- The whole of the barrier cell's round: the three other devices' payloads. -/
theorem rest_bar : bigSep ((sched (F := F) m ρ).duties (barCell c) 0 \ ∅) (fun d => (sched (F := F) m ρ).payload (barCell c) 0 d)
    = iprop(barPay c 0 ∗ barPay c 1 ∗ barPay c 2) := by
  rw [Finset.sdiff_empty, duties_bar, bigSep_fin3, payload_bar, payload_bar, payload_bar]
theorem rest_send (k : Fin 3) : bigSep ((sched (F := F) m ρ).duties (sendCell c k) 0 \ ∅) (fun d => (sched (F := F) m ρ).payload (sendCell c k) 0 d) = sendPay m ρ c k := by
  rw [Finset.sdiff_empty, duties_send, bigSep_singleton, payload_send]
theorem rest_recv (k : Fin 3) : bigSep ((sched (F := F) m ρ).duties (recvCell c k) 0 \ ∅) (fun d => (sched (F := F) m ρ).payload (recvCell c k) 0 d) = recvPay m ρ c k := by
  rw [Finset.sdiff_empty, duties_recv, bigSep_singleton, payload_recv]

end Sched

/-! ## What each device owes at launch; the levels -/

/-- The three copies' credits on the destinations' receive cells, summed so that copy 1 peels the last summand first. -/
def Oc (c : Dev nD) : CellTallies nD τ sig Unit :=
  tallyAt (recvCell (pr c 3) 2) () N + tallyAt (recvCell (pr c 2) 1) () N + tallyAt (recvCell (pr c 1) 0) () N
/-- With the three barrier units, the first signal (to c + 1) peeling the last summand. -/
def O₂ (c : Dev nD) : CellTallies nD τ sig Unit := Oc c + tallyAt (barCell (pr c 3)) () 1
def O₁ (c : Dev nD) : CellTallies nD τ sig Unit := O₂ c + tallyAt (barCell (pr c 2)) () 1
def O₀ (c : Dev nD) : CellTallies nD τ sig Unit := O₁ c + tallyAt (barCell (pr c 1)) () 1

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else if (∃ k : Fin 3, g.2 = .dma (recvS k)) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_recv (c : Dev nD) (k : Fin 3) : lv (recvCell c k) () = 2 := by
  unfold lv; rw [if_neg (recv_ne_bar k), if_pos ⟨k, rfl⟩]

theorem Oc_pos {c : Dev nD} {g : GSem nD τ sig} {u : Unit} (h : 0 < Oc c g u) :
    g = recvCell (pr c 3) 2 ∨ g = recvCell (pr c 2) 1 ∨ g = recvCell (pr c 1) 0 := by
  unfold Oc at h
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

theorem O₀_pos {c : Dev nD} {g : GSem nD τ sig} {u : Unit} (h : 0 < O₀ c g u) :
    (∃ k : Fin 3, ∃ d : Dev nD, g = recvCell d k) ∨ (∃ d : Dev nD, g = barCell d) := by
  unfold O₀ O₁ O₂ at h
  rw [Pi.add_apply, Finsupp.add_apply, Pi.add_apply, Finsupp.add_apply, Pi.add_apply, Finsupp.add_apply, tallyAt_apply, tallyAt_apply, tallyAt_apply] at h
  by_cases h1 : g = barCell (pr c 1) ∧ u = ()
  · exact .inr ⟨_, h1.1⟩
  by_cases h2 : g = barCell (pr c 2) ∧ u = ()
  · exact .inr ⟨_, h2.1⟩
  by_cases h3 : g = barCell (pr c 3) ∧ u = ()
  · exact .inr ⟨_, h3.1⟩
  rw [if_neg h1, if_neg h2, if_neg h3] at h
  try simp only [Nat.add_zero] at h
  rcases Oc_pos h with rfl | rfl | rfl
  · exact .inl ⟨2, _, rfl⟩
  · exact .inl ⟨1, _, rfl⟩
  · exact .inl ⟨0, _, rfl⟩

/-- A wait on a staging semaphore (level 0) is below everything a device may still owe (levels 1 and 2). -/
theorem mayWait_stage (c : Dev nD) (q : DmaSem sig) (hq : ∀ k : Fin 3, SemLoc.dma q ≠ .dma (recvS k)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨k, d, rfl⟩ | ⟨d, rfl⟩ <;> exact Finset.mem_singleton_self _)
      (fun p hp => by
        rw [Finset.mem_singleton.mp hp]; dsimp only [lv]
        rw [if_neg (fun h => by cases h), if_neg (fun ⟨k, hk⟩ => hq k hk)])
      (fun g u hg => by
        rcases O₀_pos hg with ⟨k, d, rfl⟩ | ⟨d, rfl⟩
        · rw [lv_recv]; decide
        · rw [lv_bar]; decide)
  · rw [MayWait_zero]; iintro -; iempintro

/-- At its barrier wait a device owes the three copies' credits only: receive cells, above its barrier cell. -/
theorem mayWait_bar (c : Dev nD) :
    (levAts L lv : sProp 𝕄) ⊢ MayWait (c : Thread nD τ) (.reg barS) () (Oc c) :=
  MayOwe.of_cut (L := L) (lev := lv) 1 (fun p hp => by rw [Finset.mem_singleton.mp hp, L_tc]; exact Finset.mem_singleton_self _)
    (fun g u hg => by rcases Oc_pos hg with rfl | rfl | rfl <;> exact Finset.mem_singleton_self _)
    (fun p hp => by rw [Finset.mem_singleton.mp hp]; exact (lv_bar c).le)
    (fun g u hg => by rcases Oc_pos hg with rfl | rfl | rfl <;> (rw [lv_recv]; decide))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The seven cells of a device, as this proof indexes them: barrier; send 0, 1, 2; receive 0, 1, 2. -/
abbrev csem : Fin 7 → SemLoc sig := fun
  | 0 => .reg barS | 1 => .dma (sendS 0) | 2 => .dma (sendS 1) | 3 => .dma (sendS 2) | 4 => .dma (recvS 0) | 5 => .dma (recvS 1) | 6 => .dma (recvS 2)
abbrev kcell (ck : Dev nD × Fin 7) : GSem nD τ sig := ((ck.1 : Thread nD τ), csem ck.2)
/-- The index of send cell `k` and of receive cell `k`. -/
abbrev iS : Fin 3 → Fin 7 := fun | 0 => 1 | 1 => 2 | 2 => 3
abbrev iR : Fin 3 → Fin 7 := fun | 0 => 4 | 1 => 5 | 2 => 6
/-- The kernel's own (scoped) semaphores, as the launch indexes them: send 0, 1, 2, receive 0, 1, 2. -/
abbrev osem : Fin 6 → SemLoc sig := fun
  | 0 => .dma (sendS 0) | 1 => .dma (sendS 1) | 2 => .dma (sendS 2) | 3 => .dma (recvS 0) | 4 => .dma (recvS 1) | 5 => .dma (recvS 2)

/-- The invariants device `c`'s body opens, under the names `K` the launch allocated them at: its own seven, the three
    other devices' barrier cells (its signals), and receive cell `j - 1` of device `c + j` (its copy `j`). -/
def invs (K : Dev nD × Fin 7 → ℕ) (c : Dev nD) : sProp 𝕄 :=
  iprop(cellInv ER (sched m ρ) (K (c, 0)) (barCell c)
    ∗ cellInv ER (sched m ρ) (K (c, 1)) (sendCell c 0) ∗ cellInv ER (sched m ρ) (K (c, 2)) (sendCell c 1) ∗ cellInv ER (sched m ρ) (K (c, 3)) (sendCell c 2)
    ∗ cellInv ER (sched m ρ) (K (c, 4)) (recvCell c 0) ∗ cellInv ER (sched m ρ) (K (c, 5)) (recvCell c 1) ∗ cellInv ER (sched m ρ) (K (c, 6)) (recvCell c 2)
    ∗ cellInv ER (sched m ρ) (K (pr c 1, 0)) (barCell (pr c 1)) ∗ cellInv ER (sched m ρ) (K (pr c 2, 0)) (barCell (pr c 2)) ∗ cellInv ER (sched m ρ) (K (pr c 3, 0)) (barCell (pr c 3))
    ∗ cellInv ER (sched m ρ) (K (pr c 1, 4)) (recvCell (pr c 1) 0) ∗ cellInv ER (sched m ρ) (K (pr c 2, 5)) (recvCell (pr c 2) 1) ∗ cellInv ER (sched m ρ) (K (pr c 3, 6)) (recvCell (pr c 3) 2))

instance invs_persistent (K : Dev nD × Fin 7 → ℕ) (c : Dev nD) : BI.Persistent (invs m ρ K c) := by unfold invs; infer_instance

/-- Device `c`'s positions at round 0 of its seven cells. -/
def poss (c : Dev nD) : sProp 𝕄 :=
  iprop(atPos ER (barCell c) 0 ∅ 0
    ∗ atPos ER (sendCell c 0) 0 ∅ 0 ∗ atPos ER (sendCell c 1) 0 ∅ 0 ∗ atPos ER (sendCell c 2) 0 ∅ 0
    ∗ atPos ER (recvCell c 0) 0 ∅ 0 ∗ atPos ER (recvCell c 1) 0 ∅ 0 ∗ atPos ER (recvCell c 2) 0 ∅ 0)

/-- Round 0 reached, of the cells device `c` pays and of its own send and receive cells. -/
def reaches (c : Dev nD) : sProp 𝕄 :=
  iprop(reached ER (barCell (pr c 1)) 0 ∗ reached ER (barCell (pr c 2)) 0 ∗ reached ER (barCell (pr c 3)) 0
    ∗ reached ER (recvCell (pr c 1) 0) 0 ∗ reached ER (recvCell (pr c 2) 1) 0 ∗ reached ER (recvCell (pr c 3) 2) 0
    ∗ reached ER (sendCell c 0) 0 ∗ reached ER (sendCell c 1) 0 ∗ reached ER (sendCell c 2) 0
    ∗ reached ER (recvCell c 0) 0 ∗ reached ER (recvCell c 1) 0 ∗ reached ER (recvCell c 2) 0)

instance reaches_persistent (c : Dev nD) : BI.Persistent (reaches (F := F) c) := by unfold reaches; infer_instance

/-- The tokens of the duties device `c` pays: its signal to device `c + k` pays duty `3 - k` of that device's barrier cell;
    copy `j` pays the duty of receive cell `j - 1` of device `c + j` and of its own send cell `j - 1`. -/
def payToks (c : Dev nD) : sProp 𝕄 :=
  iprop(dutyTok ER (barCell (pr c 1)) 0 (2 : Fin 3) ∗ dutyTok ER (barCell (pr c 2)) 0 (1 : Fin 3) ∗ dutyTok ER (barCell (pr c 3)) 0 (0 : Fin 3)
    ∗ dutyTok ER (recvCell (pr c 1) 0) 0 (0 : Fin 3) ∗ dutyTok ER (recvCell (pr c 2) 1) 0 (0 : Fin 3) ∗ dutyTok ER (recvCell (pr c 3) 2) 0 (0 : Fin 3)
    ∗ dutyTok ER (sendCell c 0) 0 (0 : Fin 3) ∗ dutyTok ER (sendCell c 1) 0 (0 : Fin 3) ∗ dutyTok ER (sendCell c 2) 0 (0 : Fin 3))

/-- The exchange's ghost state device `c` starts from. -/
def ghost (K : Dev nD × Fin 7 → ℕ) (c : Dev nD) : sProp 𝕄 :=
  iprop(invs m ρ K c ∗ poss c ∗ reaches c ∗ payToks c)

/-- The credit device `c` is dealt at launch: its barrier's three units and its three receive cells' credits. -/
def creds0 (c : Dev nD) : sProp 𝕄 :=
  iprop(cred (tallyAt (barCell c) () 3) ∗ cred (tallyAt (recvCell c 0) () N) ∗ cred (tallyAt (recvCell c 1) () N) ∗ cred (tallyAt (recvCell c 2) () N))

/-- What device `c`'s body starts from: the ghost state at some names, its credit and the level facts. -/
def start (c : Dev nD) : sProp 𝕄 :=
  iprop((∃ K, ghost m ρ K c) ∗ creds0 c ∗ levAts L lv)

/-- Before the point: that, and the exchange buffer at some contents. -/
def Φ₀ (c : Dev nD) : sProp 𝕄 :=
  iprop(start m ρ c ∗ ∃ f, (((c : Thread nD τ).loc cc0_scratch0) ↦{fullShare} f))
/-- After the point: the exchange buffer at its final contents and the six own cells at zero, closed. -/
def Φ₁ (c : Dev nD) : sProp 𝕄 :=
  iprop((((c : Thread nD τ).loc cc0_scratch0) ↦{fullShare} comm m ρ c)
    ∗ semVal (sendCell c 0) 0 ∗ semVal (sendCell c 1) 0 ∗ semVal (sendCell c 2) 0
    ∗ semVal (recvCell c 0) 0 ∗ semVal (recvCell c 1) 0 ∗ semVal (recvCell c 2) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole staging buffer of device `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body of device `c` runs from, the ghost state's names `K` fixed. -/
def bodyPre (K : Dev nD × Fin 7 → ℕ) (c : Dev nD) : sProp 𝕄 :=
  iprop((ghost m ρ K c ∗ creds0 c ∗ levAts L lv ∗ ∃ f, (((c : Thread nD τ).loc cc0_scratch0) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it runs to. -/
def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

end Cert.KernelIdealProof

end
-- ==== Proof.KernelIdealLaunch.lean ====
/-
  The launch of the four devices: the exchange's ghost state funded and dealt (each device's own cells opened, the tokens of
  the duties a device pays handed to it from the cells' owners around the ring of devices), the credit each device is dealt
  at launch summed over the devices that owe it, and the region's run: every weakly fair execution terminates, faults
  nowhere, and each windowed array ends at what the write-backs leave.
-/
import proofs.«901067_g7700000000001068_dist_softmax_colshard_i_m512_n256_v7x_i4_f32_1_alg».proof.Proof.KernelIdealProto

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens minted on them -/

theorem ownSemFacts : Pipeline.OwnSemFacts cfg0.spec osem := by decide

theorem share_eq (c : Dev nD) (w : Fin cfg0.W) : (dats m ρ 0 c).share w = fullShare := by unfold Dat.share; split <;> rfl

theorem csem_inj : ∀ k k' : Fin 7, csem k = csem k' → k = k' := by decide

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_inj k k' h2]
/-- The twenty-eight cells of the exchange: seven per device. -/
def xCells : Finset (GSem nD τ sig) := Finset.univ.map ⟨kcell, kcell_injective⟩

/-- The nine duties minted on a device's own cells: which cell, -/
abbrev ti : Fin 9 → Fin 7 := fun | 0 => 0 | 1 => 0 | 2 => 0 | 3 => 1 | 4 => 2 | 5 => 3 | 6 => 4 | 7 => 5 | 8 => 6
/-- and which duty of it: the barrier's three, one each of the send and receive cells. -/
abbrev td : Fin 9 → Fin 3 := fun | 0 => 0 | 1 => 1 | 2 => 2 | 3 => 0 | 4 => 0 | 5 => 0 | 6 => 0 | 7 => 0 | 8 => 0
theorem titd_inj : ∀ j j' : Fin 9, ti j = ti j' → td j = td j' → j = j' := by decide

abbrev tokOf (cj : Dev nD × Fin 9) : GSem nD τ sig × ℕ × Fin 3 := (kcell (cj.1, ti cj.2), 0, td cj.2)
theorem tokOf_injective : Function.Injective (tokOf : Dev nD × Fin 9 → GSem nD τ sig × ℕ × Fin 3) := by
  rintro ⟨c, j⟩ ⟨c', j'⟩ h
  have h1 : ((c, ti j) : Dev nD × Fin 7) = (c', ti j') := kcell_injective (congrArg (fun x : GSem nD τ sig × ℕ × Fin 3 => x.1) h)
  have h2 : td j = td j' := congrArg (fun x : GSem nD τ sig × ℕ × Fin 3 => x.2.2) h
  have h3 : c = c' := congrArg Prod.fst h1
  have h4 : ti j = ti j' := congrArg Prod.snd h1
  subst h3
  rw [titd_inj j j' h4 h2]
def xToks : Finset (GSem nD τ sig × ℕ × Fin 3) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 :=
  iprop(dutyTok ER (barCell c) 0 (0 : Fin 3) ∗ dutyTok ER (barCell c) 0 (1 : Fin 3) ∗ dutyTok ER (barCell c) 0 (2 : Fin 3)
    ∗ dutyTok ER (sendCell c 0) 0 (0 : Fin 3) ∗ dutyTok ER (sendCell c 1) 0 (0 : Fin 3) ∗ dutyTok ER (sendCell c 2) 0 (0 : Fin 3)
    ∗ dutyTok ER (recvCell c 0) 0 (0 : Fin 3) ∗ dutyTok ER (recvCell c 1) 0 (0 : Fin 3) ∗ dutyTok ER (recvCell c 2) 0 (0 : Fin 3))

/-- What the launch element deals device `c`: its seven cells' round states, positions and reached-facts, its nine tokens. -/
def G (c : Dev nD) : sProp 𝕄 :=
  iprop((bigSep Finset.univ fun k : Fin 7 => roundState ER (sched m ρ) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_x : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 7 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin9]; rfl
  iintro HX
  imod (Rounds.fund ER (sched m ρ) xCells xToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero and the cells' invariants -/

/-- The three send and the three receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

/-- Each of a device's seven cells opened: its counter at zero and its round state at round 0 under an invariant. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The persistent records every device reads: each cell's invariant at its name, each cell's round 0 reached. -/
def records (K : Dev nD × Fin 7 → ℕ) : sProp 𝕄 :=
  iprop((bigSep Finset.univ fun ck : Dev nD × Fin 7 => cellInv ER (sched m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) :
    (bigSep Finset.univ fun ck : Dev nD × Fin 7 => (cellInv ER (sched m ρ) (K ck) (kcell ck) : sProp 𝕄)) ⊢ cellInv ER (sched m ρ) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device `c`: its seven positions, and the tokens of the duties it pays. -/
def linear (c : Dev nD) : sProp 𝕄 := iprop(poss c ∗ payToks c)

theorem ghost_intro (K : Dev nD × Fin 7 → ℕ) (c : Dev nD) : iprop(records m ρ K ∗ linear c) ⊢ G' m ρ c := by
  unfold records linear G' ghost invs reaches
  iintro ⟨⟨#HI, #HR⟩, Hpos, Htok⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (c, 5)); iexact HI
    isplitr; · iapply (inv_at m ρ K (c, 6)); iexact HI
    isplitr; · iapply (inv_at m ρ K (pr c 1, 0)); iexact HI
    isplitr; · iapply (inv_at m ρ K (pr c 2, 0)); iexact HI
    isplitr; · iapply (inv_at m ρ K (pr c 3, 0)); iexact HI
    isplitr; · iapply (inv_at m ρ K (pr c 1, 4)); iexact HI
    isplitr; · iapply (inv_at m ρ K (pr c 2, 5)); iexact HI
    iapply (inv_at m ρ K (pr c 3, 6)); iexact HI
  isplitl [Hpos]; · iexact Hpos
  isplitr
  · isplitr; · iapply (reached_at (F := F) (pr c 1, 0)); iexact HR
    isplitr; · iapply (reached_at (F := F) (pr c 2, 0)); iexact HR
    isplitr; · iapply (reached_at (F := F) (pr c 3, 0)); iexact HR
    isplitr; · iapply (reached_at (F := F) (pr c 1, 4)); iexact HR
    isplitr; · iapply (reached_at (F := F) (pr c 2, 5)); iexact HR
    isplitr; · iapply (reached_at (F := F) (pr c 3, 6)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    iapply (reached_at (F := F) (c, 6)); iexact HR
  iexact Htok

/-! ## The tokens dealt around the ring of devices -/

/-- A product over the devices, read off at every device `c + k` instead. -/
theorem reidx (k : ℕ) (Φ : Dev nD → sProp 𝕄) : bigSep Finset.univ Φ = bigSep Finset.univ fun c : Dev nD => Φ (pr c k) :=
  bigSep_univ_equiv (shift k) Φ

/-- Duty `3 - k` of a barrier cell goes to the device `k` places below its owner, the duty of receive cell `k - 1` likewise;
    the send cells' duties stay with their owner. -/
theorem toks_around : (bigSep Finset.univ fun c : Dev nD => (toks c : sProp 𝕄)) ⊢ bigSep Finset.univ fun c : Dev nD => payToks c := by
  unfold toks payToks
  simp only [bigSep_sep']
  rw [reidx 3 (fun c : Dev nD => (dutyTok ER (barCell c) 0 (0 : Fin 3) : sProp 𝕄)),
    reidx 2 (fun c : Dev nD => (dutyTok ER (barCell c) 0 (1 : Fin 3) : sProp 𝕄)),
    reidx 1 (fun c : Dev nD => (dutyTok ER (barCell c) 0 (2 : Fin 3) : sProp 𝕄)),
    reidx 1 (fun c : Dev nD => (dutyTok ER (recvCell c 0) 0 (0 : Fin 3) : sProp 𝕄)),
    reidx 2 (fun c : Dev nD => (dutyTok ER (recvCell c 1) 0 (0 : Fin 3) : sProp 𝕄)),
    reidx 3 (fun c : Dev nD => (dutyTok ER (recvCell c 2) 0 (0 : Fin 3) : sProp 𝕄))]
  iintro ⟨B0, B1, B2, S0, S1, S2, R0, R1, R2⟩
  isplitl [B2]; · iexact B2
  isplitl [B1]; · iexact B1
  isplitl [B0]; · iexact B0
  isplitl [R0]; · iexact R0
  isplitl [R1]; · iexact R1
  isplitl [R2]; · iexact R2
  isplitl [S0]; · iexact S0
  isplitl [S1]; · iexact S1
  iexact S2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every device's opened cells, positions and tokens regrouped: the names gathered into one function, the records shared,
    the tokens dealt around. -/
theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (sched m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear poss; rw [bigSep_fin7])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {k : Fin 3} : Iff (recvCell a k = recvCell b k) (a = b) :=
  ⟨fun h => Fin.ext (congrArg (fun g : GSem nD τ sig => g.1.1.val) h), fun h => h ▸ rfl⟩

/-- `c` is `k` above `d` exactly when `d` is `j` above `c`, for `k + j` a multiple of four. -/
theorem pr_swap {d c : Dev nD} (k j : ℕ) (h : (k + j) % 4 = 0) : Iff (c = pr d k) (d = pr c j) := by
  have hd : d.val < 4 := d.isLt
  have hc : c.val < 4 := c.isLt
  constructor
  · intro e
    have e' : c.val = (d.val + k) % 4 := congrArg Fin.val e
    exact Fin.ext (by rw [pr_val]; omega)
  · intro e
    have e' : d.val = (c.val + j) % 4 := congrArg Fin.val e
    exact Fin.ext (by rw [pr_val]; omega)

theorem Oc_bar (d c : Dev nD) : Oc d (barCell c) () = 0 :=
  Nat.eq_zero_of_not_pos fun h => by
    rcases Oc_pos h with h | h | h <;> exact recv_ne_bar _ (congrArg Prod.snd h).symm

theorem tally_bar (d c : Dev nD) (k j : ℕ) (h : (k + j) % 4 = 0) :
    (tallyAt (barCell (pr d k)) () 1 : CellTallies nD τ sig Unit) (barCell c) () = if d = pr c j then 1 else 0 := by
  rw [tallyAt_apply]
  by_cases e : d = pr c j
  · rw [if_pos e, if_pos ⟨congrArg (fun x : Dev nD => barCell x) ((pr_swap k j h).mpr e), rfl⟩]
  · rw [if_neg e, if_neg fun h' => e ((pr_swap k j h).mp (bar_eq_iff.mp h'.1))]

/-- What device `d` owes device `c`'s barrier cell: one unit if it is one, two or three places above `c`. -/
theorem owed_bar (d c : Dev nD) :
    O₀ d (barCell c) () = (if d = pr c 1 then 1 else 0) + (if d = pr c 2 then 1 else 0) + (if d = pr c 3 then 1 else 0) := by
  unfold O₀ O₁ O₂
  rw [Pi.add_apply, Finsupp.add_apply, Pi.add_apply, Finsupp.add_apply, Pi.add_apply, Finsupp.add_apply, Oc_bar, Nat.zero_add,
    tally_bar d c 3 1 rfl, tally_bar d c 2 2 rfl, tally_bar d c 1 3 rfl]

theorem tally_recv_same (d c : Dev nD) (k : Fin 3) (a j : ℕ) (h : (a + j) % 4 = 0) :
    (tallyAt (recvCell (pr d a) k) () N : CellTallies nD τ sig Unit) (recvCell c k) () = if d = pr c j then N else 0 := by
  rw [tallyAt_apply]
  by_cases e : d = pr c j
  · rw [if_pos e, if_pos ⟨congrArg (fun x : Dev nD => recvCell x k) ((pr_swap a j h).mpr e), rfl⟩]
  · rw [if_neg e, if_neg fun h' => e ((pr_swap a j h).mp (recv_eq_iff.mp h'.1))]
theorem tally_recv_ne (d c : Dev nD) (k k' : Fin 3) (a : ℕ) (hk : k ≠ k') :
    (tallyAt (recvCell (pr d a) k') () N : CellTallies nD τ sig Unit) (recvCell c k) () = 0 := by
  rw [tallyAt_ne_cell fun h' => hk (recv_inj _ _ (congrArg Prod.snd h')), Finsupp.zero_apply]

theorem owed_recv_aux (d c : Dev nD) (k : Fin 3) :
    O₀ d (recvCell c k) () = (tallyAt (recvCell (pr d 3) 2) () N : CellTallies nD τ sig Unit) (recvCell c k) ()
      + (tallyAt (recvCell (pr d 2) 1) () N : CellTallies nD τ sig Unit) (recvCell c k) ()
      + (tallyAt (recvCell (pr d 1) 0) () N : CellTallies nD τ sig Unit) (recvCell c k) () := by
  unfold O₀ O₁ O₂ Oc
  rw [Pi.add_apply, Finsupp.add_apply, Pi.add_apply, Finsupp.add_apply, Pi.add_apply, Finsupp.add_apply, Pi.add_apply, Finsupp.add_apply,
    Pi.add_apply, Finsupp.add_apply,
    tallyAt_ne_cell (g := barCell (pr d 1)) (fun h => recv_ne_bar k (congrArg Prod.snd h)),
    tallyAt_ne_cell (g := barCell (pr d 2)) (fun h => recv_ne_bar k (congrArg Prod.snd h)),
    tallyAt_ne_cell (g := barCell (pr d 3)) (fun h => recv_ne_bar k (congrArg Prod.snd h)), Finsupp.zero_apply, Nat.add_zero, Nat.add_zero, Nat.add_zero]

/-- What device `d` owes receive cell `k` of device `c`: a copy's credit if it is `k + 1` below `c`, that is `3 - k` above. -/
theorem owed_recv0 (d c : Dev nD) : O₀ d (recvCell c 0) () = if d = pr c 3 then N else 0 := by
  rw [owed_recv_aux, tally_recv_ne d c 0 2 3 (by decide), tally_recv_ne d c 0 1 2 (by decide), tally_recv_same d c 0 1 3 rfl, Nat.zero_add]
theorem owed_recv1 (d c : Dev nD) : O₀ d (recvCell c 1) () = if d = pr c 2 then N else 0 := by
  rw [owed_recv_aux, tally_recv_ne d c 1 2 3 (by decide), tally_recv_same d c 1 2 2 rfl, tally_recv_ne d c 1 0 1 (by decide), Nat.zero_add, Nat.add_zero]
theorem owed_recv2 (d c : Dev nD) : O₀ d (recvCell c 2) () = if d = pr c 1 then N else 0 := by
  rw [owed_recv_aux, tally_recv_same d c 2 3 1 rfl, tally_recv_ne d c 2 1 2 (by decide), tally_recv_ne d c 2 0 1 (by decide), Nat.add_zero]

/-- The three other devices owe a barrier cell one unit each. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (pr c 1) fun _ => 1, Finset.sum_ite_eq' Finset.univ (pr c 2) fun _ => 1, Finset.sum_ite_eq' Finset.univ (pr c 3) fun _ => 1,
    if_pos (Finset.mem_univ _), if_pos (Finset.mem_univ _), if_pos (Finset.mem_univ _)]

/-- One device owes a receive cell one copy's credit. -/
theorem launch_recv_of (c : Dev nD) (k : Fin 3) (j : ℕ) (h : ∀ d, O₀ d (recvCell c k) () = if d = pr c j then N else 0) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (pr c j) fun _ => N,
    if_pos (Finset.mem_univ _)]

theorem creds (c : Dev nD) : (Pipeline.launchCred O₀ c : sProp 𝕄) ⊢ creds0 c := by
  unfold Pipeline.launchCred creds0
  refine (bigSep_subset (t := ([SemLoc.reg barS, .dma (recvS 0), .dma (recvS 1), .dma (recvS 2)] : List (SemLoc sig)).toFinset) (Finset.subset_univ _)).trans ?_
  rw [bigSep_eq_bigSepL _ (by decide), ← launch_bar c, ← launch_recv_of c 0 3 (fun d => owed_recv0 d c), ← launch_recv_of c 1 2 (fun d => owed_recv1 d c),
    ← launch_recv_of c 2 1 (fun d => owed_recv2 d c)]
  exact BI.Entails.refl _

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Hr, H1, H2, H3, H4, H5, H6⟩
  isplitr; · iempintro
  isplitl [H1 H2 H3 H4 H5 H6]
  · isplitl [H1]; · iexact H1
    isplitl [H2]; · iexact H2
    isplitl [H3]; · iexact H3
    isplitl [H4]; · iexact H4
    isplitl [H5]; · iexact H5
    iexact H6
  iexists (comm m ρ c); iexact Hr

/-- A staging semaphore is no receive semaphore, so the pipeline's waits sit below everything a device may owe. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Each windowed array of device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, given each device's body obligation: every weakly fair execution of the four devices
    terminates, nothing faults, and every final state has each windowed array at `finalA`. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdealProof.run_main' depends on axioms: [propext, Classical.choice, Quot.sound] -/
#guard_msgs in #print axioms run_main

end Cert.KernelIdealProof

end
-- ==== Proof.KernelIdealFinal.lean ====
/-
  The final arrays read: the argument array is never written back, the result array is the one write-back of the point's
  result block over the whole array; so the run ends with each device's result at its block's value and its argument unchanged.
-/
import proofs.«901067_g7700000000001068_dist_softmax_colshard_i_m512_n256_v7x_i4_f32_1_alg».proof.Proof.KernelIdealLaunch
import Idealize.ShloMosaic.Lib.Pipeline.Value

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The input block the region finds is the argument buffer itself (the one block is the whole array). -/
theorem xstg_eq (c : Dev nD) : xstg m ρ c = m ((c.tc : Thread nD τ).loc main_arg0) := by
  have hz : (fun a => win0_0.index (0 : Fin 1) a * win0_0.size a) = fun _ => 0 := funext fun a => Nat.zero_mul _
  exact Memref.read_access_unit_zero (Elt F) main_arg0 hz _ _

/-- The argument array after the run holds what it held. -/
theorem finalA_x (c : Dev nD) : finalA m ρ c (0 : Fin 2) = (s₀ m ρ).mem (win0_0.arr.view.loc (c : Thread nD τ)) :=
  (dats m ρ 0 c).arrAt_in (0 : Fin 2) rfl _

/-- The result array after the run holds the device's result block. -/
theorem finalA_out (c : Dev nD) : finalA m ρ c (1 : Fin 2) = outAt m ρ c := by
  have hz : (fun a => win0_1.index t₀ a * win0_1.size a) = fun _ => 0 := funext fun a => Nat.zero_mul _
  refine (congrArg ((dats m ρ 0 c).arrAt (1 : Fin 2)) cfg0_N).trans ?_
  refine ((dats m ρ 0 c).arrAt_succ (1 : Fin 2) t₀).trans ?_
  rw [flush0_1 t₀, if_pos rfl]
  exact Memref.write_access_unit_zero_univ (Elt F) main_v1 hz _ _ _

/-- The run with its values named: each device's result buffer ends at its result block, its argument buffer unchanged. -/
theorem run_values (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)) :=
  (θ_run defs _ _).mono (fun r h c => ⟨(h c (1 : Fin 2)).trans (finalA_out m ρ c), (h c (0 : Fin 2)).trans (finalA_x m ρ c)⟩)
    (run_main m ρ hbody)

end Cert.KernelIdealProof

end
-- ==== Proof.KernelIdealSlots.lean ====
/-
  The exchange buffer by slots and by shares. The buffer's elements are the disjoint union of the four slots' (rows 0 to 3 of
  the first axis); slot 0's full share is four quarter-shares (one kept, one lent to each copy); the whole buffer can be read
  at the kept quarter once the other three slots lend a quarter each. And the contents: the statistics stored into slot 0
  are the final contents there; what copy k + 1 of device c lands in slot k + 1 of device c + k + 1 is that device's final
  contents there (its slot k + 1 holds the statistics of device c).
-/
import proofs.«901067_g7700000000001068_dist_softmax_colshard_i_m512_n256_v7x_i4_f32_1_alg».proof.Proof.KernelIdealProto
import Idealize.ShloMosaic.Lib.Pipeline.Value
import Idealize.ShloMosaic.Lib.ValueLayout

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The quarter of slot 0 (and, for the whole read, of every slot) the device keeps for itself. -/
abbrev q0 : PosShare TreeShare := fullShare.left.left

/-- What slots 1, 2, 3 keep back while a quarter of each is lent to the whole read. -/
def leftover (c : Dev nD) (f : Buf (Elt F) ((cM : Memref sig .tc .vmem S4x2x512 .f32).view.loc (c : Thread nD τ))) : sProp 𝕄 :=
  iprop(ptsR 0 c fullShare.left.right f ∗ ptsR 0 c fullShare.right f
    ∗ ptsR 1 c fullShare.left.right f ∗ ptsR 1 c fullShare.right f
    ∗ ptsR 2 c fullShare.left.right f ∗ ptsR 2 c fullShare.right f)

/-- In this model two-way entailment is equality. -/
private theorem eqOf {P Q : sProp 𝕄} (h : P ⊣⊢ Q) : P = Q := BI.equiv_iff.mp ⟨h.1, h.2⟩

/-- At any share the whole buffer is its four rows: the rows are pairwise disjoint and cover the index set. -/
private theorem whole_rows (c : Dev nD) (q : PosShare TreeShare) (f : Buf (Elt F) ((cM : Memref sig .tc .vmem S4x2x512 .f32).view.loc (c : Thread nD τ))) :
    ((((c : Thread nD τ).loc cc0_scratch0) ↦{q} f) : sProp 𝕄)
      = iprop(pts0 c q f ∗ ptsR 0 c q f ∗ ptsR 1 c q f ∗ ptsR 2 c q f) := by
  have hu : (Finset.univ : Finset (Idx ((c : Thread nD τ).loc cc0_scratch0))) = ((r0.set ∪ r1.set) ∪ r2.set) ∪ r3.set := union_rows.symm
  have h3 : Disjoint ((r0.set ∪ r1.set) ∪ r2.set) r3.set :=
    Finset.disjoint_union_left.mpr ⟨Finset.disjoint_union_left.mpr ⟨disj03, disj13⟩, disj23⟩
  have h2 : Disjoint (r0.set ∪ r1.set) r2.set := Finset.disjoint_union_left.mpr ⟨disj02, disj12⟩
  show pointsTo ((c : Thread nD τ).loc cc0_scratch0) Finset.univ q f
      = iprop(pointsTo ((c : Thread nD τ).loc cc0_scratch0) (slot0 : Memref sig .tc .vmem S2x512 .f32).view.set q f
        ∗ pointsTo ((c : Thread nD τ).loc cc0_scratch0) (slot1 : Memref sig .tc .vmem S2x512 .f32).view.set q f
        ∗ pointsTo ((c : Thread nD τ).loc cc0_scratch0) (slot2 : Memref sig .tc .vmem S2x512 .f32).view.set q f
        ∗ pointsTo ((c : Thread nD τ).loc cc0_scratch0) (slot3 : Memref sig .tc .vmem S2x512 .f32).view.set q f)
  rw [hu, slot0_set, slot1_set, slot2_set, slot3_set]
  rw [eqOf (pointsTo_union h3), eqOf (pointsTo_union h2), eqOf (pointsTo_union disj01), eqOf sep_assoc, eqOf sep_assoc]

theorem split_slots (c : Dev nD) (f : Buf (Elt F) ((cM : Memref sig .tc .vmem S4x2x512 .f32).view.loc (c : Thread nD τ))) :
    ((((c : Thread nD τ).loc cc0_scratch0) ↦{fullShare} f) : sProp 𝕄)
      ⊢ iprop(pts0 c fullShare f ∗ ptsR 0 c fullShare f ∗ ptsR 1 c fullShare f ∗ ptsR 2 c fullShare f) :=
  Entails.of_eq (whole_rows c fullShare f)

theorem join_slots (c : Dev nD) (f : Buf (Elt F) ((cM : Memref sig .tc .vmem S4x2x512 .f32).view.loc (c : Thread nD τ))) :
    iprop(pts0 c fullShare f ∗ ptsR 0 c fullShare f ∗ ptsR 1 c fullShare f ∗ ptsR 2 c fullShare f)
      ⊢ ((((c : Thread nD τ).loc cc0_scratch0) ↦{fullShare} f) : sProp 𝕄) :=
  Entails.of_eq (whole_rows c fullShare f).symm

/-- A full share is four quarters: each half of it halved again. -/
private theorem quarters {ℓ : Loc nD τ sig} (I : Finset (Idx ℓ)) (f : Buf (Elt F) ℓ) :
    ((ℓ ↦[I]{fullShare} f) : sProp 𝕄)
      = iprop((ℓ ↦[I]{q0} f) ∗ (ℓ ↦[I]{fullShare.left.right} f) ∗ (ℓ ↦[I]{fullShare.right.left} f) ∗ (ℓ ↦[I]{fullShare.right.right} f)) := by
  rw [eqOf (pointsTo_share (PosShare.mem_left_op_right fullShare)),
    eqOf (pointsTo_share (I := I) (f := f) (PosShare.mem_left_op_right fullShare.left)),
    eqOf (pointsTo_share (I := I) (f := f) (PosShare.mem_left_op_right fullShare.right)), eqOf sep_assoc]

/-- The same with the right half kept whole: a quarter, a quarter and a half. -/
private theorem thirds {ℓ : Loc nD τ sig} (I : Finset (Idx ℓ)) (f : Buf (Elt F) ℓ) :
    ((ℓ ↦[I]{fullShare} f) : sProp 𝕄)
      = iprop((ℓ ↦[I]{q0} f) ∗ (ℓ ↦[I]{fullShare.left.right} f) ∗ (ℓ ↦[I]{fullShare.right} f)) := by
  rw [eqOf (pointsTo_share (PosShare.mem_left_op_right fullShare)),
    eqOf (pointsTo_share (I := I) (f := f) (PosShare.mem_left_op_right fullShare.left)), eqOf sep_assoc]

theorem share_slot0 (c : Dev nD) (f : Buf (Elt F) ((cM : Memref sig .tc .vmem S4x2x512 .f32).view.loc (c : Thread nD τ))) :
    (pts0 c fullShare f : sProp 𝕄) ⊢ iprop(pts0 c q0 f ∗ pts0 c (shr 0) f ∗ pts0 c (shr 1) f ∗ pts0 c (shr 2) f) :=
  Entails.of_eq (quarters _ f)

theorem unshare_slot0 (c : Dev nD) (f : Buf (Elt F) ((cM : Memref sig .tc .vmem S4x2x512 .f32).view.loc (c : Thread nD τ))) :
    iprop(pts0 c q0 f ∗ pts0 c (shr 0) f ∗ pts0 c (shr 1) f ∗ pts0 c (shr 2) f) ⊢ (pts0 c fullShare f : sProp 𝕄) :=
  Entails.of_eq (quarters _ f).symm

theorem lend_whole (c : Dev nD) (f : Buf (Elt F) ((cM : Memref sig .tc .vmem S4x2x512 .f32).view.loc (c : Thread nD τ))) :
    iprop(pts0 c q0 f ∗ ptsR 0 c fullShare f ∗ ptsR 1 c fullShare f ∗ ptsR 2 c fullShare f)
      ⊢ iprop(((((c : Thread nD τ).loc cc0_scratch0) ↦{q0} f) : sProp 𝕄) ∗ leftover c f) := by
  have e0 : (ptsR 0 c fullShare f : sProp 𝕄) = iprop(ptsR 0 c q0 f ∗ ptsR 0 c fullShare.left.right f ∗ ptsR 0 c fullShare.right f) := thirds _ f
  have e1 : (ptsR 1 c fullShare f : sProp 𝕄) = iprop(ptsR 1 c q0 f ∗ ptsR 1 c fullShare.left.right f ∗ ptsR 1 c fullShare.right f) := thirds _ f
  have e2 : (ptsR 2 c fullShare f : sProp 𝕄) = iprop(ptsR 2 c q0 f ∗ ptsR 2 c fullShare.left.right f ∗ ptsR 2 c fullShare.right f) := thirds _ f
  rw [whole_rows c q0 f, e0, e1, e2]
  unfold leftover
  iintro ⟨A, ⟨B0, B1, B2⟩, ⟨C0, C1, C2⟩, D0, D1, D2⟩
  isplitl [A B0 C0 D0]
  · isplitl [A]; · iexact A
    isplitl [B0]; · iexact B0
    isplitl [C0]; · iexact C0
    iexact D0
  · isplitl [B1]; · iexact B1
    isplitl [B2]; · iexact B2
    isplitl [C1]; · iexact C1
    isplitl [C2]; · iexact C2
    isplitl [D1]; · iexact D1
    iexact D2

theorem unlend_whole (c : Dev nD) (f : Buf (Elt F) ((cM : Memref sig .tc .vmem S4x2x512 .f32).view.loc (c : Thread nD τ))) :
    iprop(((((c : Thread nD τ).loc cc0_scratch0) ↦{q0} f) : sProp 𝕄) ∗ leftover c f)
      ⊢ iprop(pts0 c q0 f ∗ ptsR 0 c fullShare f ∗ ptsR 1 c fullShare f ∗ ptsR 2 c fullShare f) := by
  have e0 : (ptsR 0 c fullShare f : sProp 𝕄) = iprop(ptsR 0 c q0 f ∗ ptsR 0 c fullShare.left.right f ∗ ptsR 0 c fullShare.right f) := thirds _ f
  have e1 : (ptsR 1 c fullShare f : sProp 𝕄) = iprop(ptsR 1 c q0 f ∗ ptsR 1 c fullShare.left.right f ∗ ptsR 1 c fullShare.right f) := thirds _ f
  have e2 : (ptsR 2 c fullShare f : sProp 𝕄) = iprop(ptsR 2 c q0 f ∗ ptsR 2 c fullShare.left.right f ∗ ptsR 2 c fullShare.right f) := thirds _ f
  rw [whole_rows c q0 f, e0, e1, e2]
  unfold leftover
  iintro ⟨⟨A, B0, C0, D0⟩, B1, B2, C1, C2, D1, D2⟩
  isplitl [A]; · iexact A
  isplitl [B0 B1 B2]
  · isplitl [B0]; · iexact B0
    isplitl [B1]; · iexact B1
    iexact B2
  isplitl [C0 C1 C2]
  · isplitl [C0]; · iexact C0
    isplitl [C1]; · iexact C1
    iexact C2
  · isplitl [D0]; · iexact D0
    isplitl [D1]; · iexact D1
    iexact D2

/-! ## Contents -/

theorem hz2 : (![0, 0] : Fin 2 → Nat) = fun _ => 0 := funext fun a => by fin_cases a <;> rfl
theorem hz3 : (![0, 0, 0] : Fin 3 → Nat) = fun _ => 0 := funext fun a => by fin_cases a <;> rfl

abbrev rX : Rect S512x256 := Rect.unit (s := S512x256) ![0, 0] S512x256.size inb_S512x256_S512x256_0_0
abbrev rW : Rect S4x2x512 := Rect.unit (s := S4x2x512) ![0, 0, 0] S4x2x512.size inb_S4x2x512_S4x2x512_0_0_0

/-- Reading a whole staging block reads its contents. -/
theorem read_x (f : (cc0_stg0_0 : Ref sig .tc).ty.Contents (Elt F)) :
    (xM : Memref sig .tc .vmem S512x256 .f32).view.readAt (Elt F) rX.toLoadRect f = f :=
  Memref.readAt_unit_zero (Elt F) cc0_stg0_0 hz2 _ f

/-- Storing a whole block into the result's staging buffer leaves the block. -/
theorem write_out (f w : (cc0_stg1_0 : Ref sig .tc).ty.Contents (Elt F)) :
    ((oM : Memref sig .tc .vmem S512x256 .f32).access rX : View sig .tc _ _ _).write (Elt F) f w Finset.univ = w :=
  Memref.write_access_unit_zero_univ (Elt F) cc0_stg1_0 hz2 _ f w

/-- Reading the whole exchange buffer reads its contents. -/
theorem read_comm (f : (cc0_scratch0 : Ref sig .tc).ty.Contents (Elt F)) :
    (cM : Memref sig .tc .vmem S4x2x512 .f32).view.readAt (Elt F) rW.toLoadRect f = f :=
  Memref.readAt_unit_zero (Elt F) cc0_scratch0 hz3 _ f

/-- Where row `K`'s squeezed slice puts its index `z`: at `(K, z 0, z 1)`. -/
private theorem slot_emb (K : ℕ) (hK : K < 4) (inb : ∀ a, (![K, 0, 0] : Fin 3 → Nat) a + S1x2x512.size a ≤ S4x2x512.size a)
    (z : S2x512.Idx) :
    ((((cM : Memref sig .tc .vmem S4x2x512 .f32).slice (Rect.unit (s := S4x2x512) ![K, 0, 0] S1x2x512.size inb) (fun _ => rfl)).squeeze S2x512
        squeezes_S1x2x512_S2x512).view.emb z : S4x2x512.Idx)
      = (ValueIdx.ix3 (⟨K, hK⟩ : Fin 4) (z 0 : Fin 2) (z 1 : Fin 512) : S4x2x512.Idx) := by
  have e : Shape.reshapeEquiv squeezes_S1x2x512_S2x512.numel_eq z = ValueIdx.ix3 (⟨0, Nat.one_pos⟩ : Fin 1) (z 0 : Fin 2) (z 1 : Fin 512) :=
    (congrArg (Shape.reshapeEquiv squeezes_S1x2x512_S2x512.numel_eq) (ValueIdx.eq_ix2 z)).trans
      (ValueIdx.reshapeEquiv_ix2_1ab squeezes_S1x2x512_S2x512.numel_eq (z 0 : Fin 2) (z 1 : Fin 512))
  show (Rect.unit (s := S4x2x512) ![K, 0, 0] S1x2x512.size inb).emb (Shape.reshapeEquiv squeezes_S1x2x512_S2x512.numel_eq z) = _
  rw [e]
  funext a
  match a with
  | ⟨0, _⟩ => exact Fin.ext (show K + 1 * 0 = K by omega)
  | ⟨1, _⟩ => exact Fin.ext (show 0 + 1 * (z 0).val = (z 0).val by omega)
  | ⟨2, _⟩ => exact Fin.ext (show 0 + 1 * (z 1).val = (z 1).val by omega)

/-- The statistics stored into slot 0 are the final contents there. -/
theorem stored_slot0 (c : Dev nD) (f0 : Buf (Elt F) ((cM : Memref sig .tc .vmem S4x2x512 .f32).view.loc (c : Thread nD τ))) :
    (pts0 c fullShare (((cM : Memref sig .tc .vmem S4x2x512 .f32).access r0 : View sig .tc _ _ _).write (Elt F) f0 (k0_pay3 (xstg m ρ c)) Finset.univ) : sProp 𝕄)
      = pts0 c fullShare (comm m ρ c) := by
  refine pointsTo_congr (fun i hi => ?_)
  rw [slot0_set] at hi
  have hi' : i ∈ ((cM : Memref sig .tc .vmem S4x2x512 .f32).access r0 : View sig .tc _ _ _).set := by
    rw [show ((cM : Memref sig .tc .vmem S4x2x512 .f32).access r0 : View sig .tc _ _ _).set = r0.set from View.set_slice_whole _ _]
    exact hi
  obtain ⟨y, rfl⟩ := View.exists_emb_of_mem_set _ hi'
  rw [View.write_emb_of_mem _ _ (Finset.mem_univ y)]
  have hy0 : (y 0).val < 1 := (y 0).isLt
  -- the element is (0, y 1, y 2), and y itself is (0, y 1, y 2) in the slice's own shape
  have he : (((cM : Memref sig .tc .vmem S4x2x512 .f32).access r0 : View sig .tc _ _ _).emb y : S4x2x512.Idx)
      = (ValueIdx.ix3 (⟨0, by decide⟩ : Fin 4) (y 1 : Fin 2) (y 2 : Fin 512) : S4x2x512.Idx) := by
    funext a
    match a with
    | ⟨0, _⟩ => exact Fin.ext (show 0 + 1 * (y 0).val = 0 by omega)
    | ⟨1, _⟩ => exact Fin.ext (show 0 + 1 * (y 1).val = (y 1).val by omega)
    | ⟨2, _⟩ => exact Fin.ext (show 0 + 1 * (y 2).val = (y 2).val by omega)
  have hy : (y : S1x2x512.Idx) = ValueIdx.ix3 (0 : Fin 1) (y 1 : Fin 2) (y 2 : Fin 512) := by
    funext a
    match a with
    | ⟨0, _⟩ => exact Fin.ext (show (y 0).val = 0 by omega)
    | ⟨1, _⟩ => rfl
    | ⟨2, _⟩ => rfl
  rw [he]
  show k0_pay3 (xstg m ρ c) y = k0_pay3 (xstg m ρ (pr c 4)) (ValueIdx.ix3 (0 : Fin 1) (y 1 : Fin 2) (y 2 : Fin 512))
  rw [pr_four]
  exact congrArg (k0_pay3 (xstg m ρ c)) hy

/-- What the copy into row `K` of device `c + K` writes there is that device's final contents there: both are the
    statistics of device `c`. -/
private theorem landed_row (K : ℕ) (hK : K < 4) (inb : ∀ a, (![K, 0, 0] : Fin 3 → Nat) a + S1x2x512.size a ≤ S4x2x512.size a)
    (c : Dev nD) (fd : (cc0_scratch0 : Ref sig .tc).ty.Contents (Elt F)) (i : S4x2x512.Idx)
    (hi : i ∈ (((cM : Memref sig .tc .vmem S4x2x512 .f32).slice (Rect.unit (s := S4x2x512) ![K, 0, 0] S1x2x512.size inb) (fun _ => rfl)).squeeze S2x512
        squeezes_S1x2x512_S2x512).view.set) :
    (((cM : Memref sig .tc .vmem S4x2x512 .f32).slice (Rect.unit (s := S4x2x512) ![K, 0, 0] S1x2x512.size inb) (fun _ => rfl)).squeeze S2x512
        squeezes_S1x2x512_S2x512).view.write (Elt F) fd ((slot0 : Memref sig .tc .vmem S2x512 .f32).view.read (Elt F) (comm m ρ c)) Finset.univ i
      = comm m ρ (pr c K) i := by
  obtain ⟨z, rfl⟩ := View.exists_emb_of_mem_set _ hi
  rw [View.write_emb_of_mem _ _ (Finset.mem_univ z)]
  have eK := slot_emb K hK inb z
  have e0 := slot_emb 0 (by decide) inb_S4x2x512_S1x2x512_0_0_0 z
  show comm m ρ c ((slot0 : Memref sig .tc .vmem S2x512 .f32).view.emb z)
    = comm m ρ (pr c K) ((((cM : Memref sig .tc .vmem S4x2x512 .f32).slice (Rect.unit (s := S4x2x512) ![K, 0, 0] S1x2x512.size inb) (fun _ => rfl)).squeeze S2x512
        squeezes_S1x2x512_S2x512).view.emb z)
  rw [eK, e0]
  show k0_pay3 (xstg m ρ (pr c 4)) (ValueIdx.ix3 (0 : Fin 1) (z 0 : Fin 2) (z 1 : Fin 512))
    = k0_pay3 (xstg m ρ (pr (pr c K) (4 - K))) (ValueIdx.ix3 (0 : Fin 1) (z 0 : Fin 2) (z 1 : Fin 512))
  have h4 : K + (4 - K) = 4 := by omega
  rw [pr_pr, h4]

/-- What copy 1 of device `c` lands in slot 1 of device `c + 1` is that device's final contents there; -/
theorem landed1 (c : Dev nD) (fd : Buf (Elt F) ((slot1 : Memref sig .tc .vmem S2x512 .f32).view.loc (pr c 1 : Thread nD τ))) :
    (((slot1 : Memref sig .tc .vmem S2x512 .f32).view.loc (pr c 1 : Thread nD τ)
        ↦[(slot1 : Memref sig .tc .vmem S2x512 .f32).view.set]{fullShare}
          ((slot1 : Memref sig .tc .vmem S2x512 .f32).view.write (Elt F) fd ((slot0 : Memref sig .tc .vmem S2x512 .f32).view.read (Elt F) (comm m ρ c)) Finset.univ)) : sProp 𝕄)
      = recvPay m ρ (pr c 1) 0 :=
  pointsTo_congr (fun i hi => landed_row m ρ 1 (by decide) inb_S4x2x512_S1x2x512_1_0_0 c fd i hi)

/-- copy 2, slot 2 of device `c + 2`; -/
theorem landed2 (c : Dev nD) (fd : Buf (Elt F) ((slot2 : Memref sig .tc .vmem S2x512 .f32).view.loc (pr c 2 : Thread nD τ))) :
    (((slot2 : Memref sig .tc .vmem S2x512 .f32).view.loc (pr c 2 : Thread nD τ)
        ↦[(slot2 : Memref sig .tc .vmem S2x512 .f32).view.set]{fullShare}
          ((slot2 : Memref sig .tc .vmem S2x512 .f32).view.write (Elt F) fd ((slot0 : Memref sig .tc .vmem S2x512 .f32).view.read (Elt F) (comm m ρ c)) Finset.univ)) : sProp 𝕄)
      = recvPay m ρ (pr c 2) 1 :=
  pointsTo_congr (fun i hi => landed_row m ρ 2 (by decide) inb_S4x2x512_S1x2x512_2_0_0 c fd i hi)

/-- copy 3, slot 3 of device `c + 3`. -/
theorem landed3 (c : Dev nD) (fd : Buf (Elt F) ((slot3 : Memref sig .tc .vmem S2x512 .f32).view.loc (pr c 3 : Thread nD τ))) :
    (((slot3 : Memref sig .tc .vmem S2x512 .f32).view.loc (pr c 3 : Thread nD τ)
        ↦[(slot3 : Memref sig .tc .vmem S2x512 .f32).view.set]{fullShare}
          ((slot3 : Memref sig .tc .vmem S2x512 .f32).view.write (Elt F) fd ((slot0 : Memref sig .tc .vmem S2x512 .f32).view.read (Elt F) (comm m ρ c)) Finset.univ)) : sProp 𝕄)
      = recvPay m ρ (pr c 3) 2 :=
  pointsTo_congr (fun i hi => landed_row m ρ 3 (by decide) inb_S4x2x512_S1x2x512_3_0_0 c fd i hi)

end Cert.KernelIdealProof

end
-- ==== Proof.KernelIdealBody.lean ====
/-
  One device's body, stepped from the protocol's invariant: the three barrier units paid with the three slots the other
  devices will write, the statistics stored, the barrier waited for the three slots to write, the three copies sent, the
  three landings awaited, the whole buffer read, the result stored, the lent shares of slot 0 taken back.
-/
import proofs.«901067_g7700000000001068_dist_softmax_colshard_i_m512_n256_v7x_i4_f32_1_alg».proof.Proof.KernelIdealProto
import proofs.«901067_g7700000000001068_dist_softmax_colshard_i_m512_n256_v7x_i4_f32_1_alg».proof.Proof.KernelIdealSlots

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 7 → ℕ)

/-- What the signal to device c + 1 hands over, seen from the payer: its own slot 3 and receive cell 2. -/
theorem barPay_to1 (c : Dev nD) : barPay (F := F) (pr c 1) 2 = iprop((∃ f, ptsR 2 c fullShare f) ∗ reached ER (recvCell c 2) 0) := by
  have h : pr (pr c 1) 3 = c := by rw [pr_pr, pr_four]
  show iprop((∃ f, ptsR 2 (pr (pr c 1) 3) fullShare f) ∗ reached ER (recvCell (pr (pr c 1) 3) 2) 0) = _
  rw [h]
theorem barPay_to2 (c : Dev nD) : barPay (F := F) (pr c 2) 1 = iprop((∃ f, ptsR 1 c fullShare f) ∗ reached ER (recvCell c 1) 0) := by
  have h : pr (pr c 2) 2 = c := by rw [pr_pr, pr_four]
  show iprop((∃ f, ptsR 1 (pr (pr c 2) 2) fullShare f) ∗ reached ER (recvCell (pr (pr c 2) 2) 1) 0) = _
  rw [h]
theorem barPay_to3 (c : Dev nD) : barPay (F := F) (pr c 3) 0 = iprop((∃ f, ptsR 0 c fullShare f) ∗ reached ER (recvCell c 0) 0) := by
  have h : pr (pr c 3) 1 = c := by rw [pr_pr, pr_four]
  show iprop((∃ f, ptsR 0 (pr (pr c 3) 1) fullShare f) ∗ reached ER (recvCell (pr (pr c 3) 1) 0) 0) = _
  rw [h]

/-- Copy 1: from slot 0 (the share lent to it) into slot 1 of device `n = c + 1` (substituted, not rewritten). -/
theorem wp_send1 (c n : Dev nD) (hn : n = pr c 1)
    {hsc : (slot1 : Memref sig (Dev.tc n : Thread nD τ).2.kind .vmem S2x512 .f32).view.ref.isScScratch = false}
    {hsrc : (slot0 : Memref sig .tc .vmem S2x512 .f32).view.WordExact} {hdst : (slot1 : Memref sig .tc .vmem S2x512 .f32).view.WordExact}
    {hsem : DmaTarget.Typed .vmem (.dma (recvS 0)) (.remote (Dev.tc n : Thread nD τ) (slot1 : Memref sig .tc .vmem S2x512 .f32) (.dma (sendS 0)) hsc)}
    {α : Type} {Q : α → sProp 𝕄} {k : PUnit → Prog (TpuEff nD τ sig (Elt F) Λ₀ .tc) α}
    (fn : Buf (Elt F) ((slot1 : Memref sig .tc .vmem S2x512 .f32).view.loc (pr c 1 : Thread nD τ)))
    (O₀' O : CellTallies nD τ sig Unit) (hO : O₀' = O + tallyAt (recvCell (pr c 1) 0) () N) (W : Waits sig Unit) :
    iprop(cellInv ER (sched m ρ) (K (c, 1)) (sendCell c 0) ∗ cellInv ER (sched m ρ) (K (pr c 1, 4)) (recvCell (pr c 1) 0)
        ∗ pts0 c (shr 0) (comm m ρ c) ∗ ptsR 0 (pr c 1) fullShare fn
        ∗ owes (c : Thread nD τ) O₀' W
        ∗ dutyTok ER (sendCell c 0) 0 (0 : Fin 3) ∗ reached ER (sendCell c 0) 0
        ∗ dutyTok ER (recvCell (pr c 1) 0) 0 (0 : Fin 3) ∗ reached ER (recvCell (pr c 1) 0) 0)
      ⊢ iprop(((cred (tallyAt (sendCell c 0) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot1 (.dma (sendS 0)) hsc) (.dma (recvS 0)) hsrc hdst hsem) k) Q) := by
  subst hn
  exact Rounds.wp_send_pointsTo 𝒱₀ ER (sched m ρ) (c : Thread nD τ) none (κ₁ := K (c, 1)) (κ₂ := K (pr c 1, 4))
    (r₁ := 0) (r₂ := 0) (d₁ := (0 : Fin 3)) (d₂ := (0 : Fin 3)) (fd := fn)
    (by rw [duties_send]; exact Finset.mem_singleton_self _) (by rw [duties_recv]; exact Finset.mem_singleton_self _)
    () () N rfl (amount_send m ρ c 0 0) (amount_recv m ρ (pr c 1) 0 0) O hO (W := W)
    (by rw [payload_send]; exact BI.Entails.refl _)
    (by rw [payload_recv]; exact Entails.of_eq (landed1 m ρ c fn))

/-- Copy 2: from slot 0 (the share lent to it) into slot 2 of device `n = c + 2` (substituted, not rewritten). -/
theorem wp_send2 (c n : Dev nD) (hn : n = pr c 2)
    {hsc : (slot2 : Memref sig (Dev.tc n : Thread nD τ).2.kind .vmem S2x512 .f32).view.ref.isScScratch = false}
    {hsrc : (slot0 : Memref sig .tc .vmem S2x512 .f32).view.WordExact} {hdst : (slot2 : Memref sig .tc .vmem S2x512 .f32).view.WordExact}
    {hsem : DmaTarget.Typed .vmem (.dma (recvS 1)) (.remote (Dev.tc n : Thread nD τ) (slot2 : Memref sig .tc .vmem S2x512 .f32) (.dma (sendS 1)) hsc)}
    {α : Type} {Q : α → sProp 𝕄} {k : PUnit → Prog (TpuEff nD τ sig (Elt F) Λ₀ .tc) α}
    (fn : Buf (Elt F) ((slot2 : Memref sig .tc .vmem S2x512 .f32).view.loc (pr c 2 : Thread nD τ)))
    (O₀' O : CellTallies nD τ sig Unit) (hO : O₀' = O + tallyAt (recvCell (pr c 2) 1) () N) (W : Waits sig Unit) :
    iprop(cellInv ER (sched m ρ) (K (c, 2)) (sendCell c 1) ∗ cellInv ER (sched m ρ) (K (pr c 2, 5)) (recvCell (pr c 2) 1)
        ∗ pts0 c (shr 1) (comm m ρ c) ∗ ptsR 1 (pr c 2) fullShare fn
        ∗ owes (c : Thread nD τ) O₀' W
        ∗ dutyTok ER (sendCell c 1) 0 (0 : Fin 3) ∗ reached ER (sendCell c 1) 0
        ∗ dutyTok ER (recvCell (pr c 2) 1) 0 (0 : Fin 3) ∗ reached ER (recvCell (pr c 2) 1) 0)
      ⊢ iprop(((cred (tallyAt (sendCell c 1) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot2 (.dma (sendS 1)) hsc) (.dma (recvS 1)) hsrc hdst hsem) k) Q) := by
  subst hn
  exact Rounds.wp_send_pointsTo 𝒱₀ ER (sched m ρ) (c : Thread nD τ) none (κ₁ := K (c, 2)) (κ₂ := K (pr c 2, 5))
    (r₁ := 0) (r₂ := 0) (d₁ := (0 : Fin 3)) (d₂ := (0 : Fin 3)) (fd := fn)
    (by rw [duties_send]; exact Finset.mem_singleton_self _) (by rw [duties_recv]; exact Finset.mem_singleton_self _)
    () () N rfl (amount_send m ρ c 1 0) (amount_recv m ρ (pr c 2) 1 0) O hO (W := W)
    (by rw [payload_send]; exact BI.Entails.refl _)
    (by rw [payload_recv]; exact Entails.of_eq (landed2 m ρ c fn))

/-- Copy 3: from slot 0 (the share lent to it) into slot 3 of device `n = c + 3` (substituted, not rewritten). -/
theorem wp_send3 (c n : Dev nD) (hn : n = pr c 3)
    {hsc : (slot3 : Memref sig (Dev.tc n : Thread nD τ).2.kind .vmem S2x512 .f32).view.ref.isScScratch = false}
    {hsrc : (slot0 : Memref sig .tc .vmem S2x512 .f32).view.WordExact} {hdst : (slot3 : Memref sig .tc .vmem S2x512 .f32).view.WordExact}
    {hsem : DmaTarget.Typed .vmem (.dma (recvS 2)) (.remote (Dev.tc n : Thread nD τ) (slot3 : Memref sig .tc .vmem S2x512 .f32) (.dma (sendS 2)) hsc)}
    {α : Type} {Q : α → sProp 𝕄} {k : PUnit → Prog (TpuEff nD τ sig (Elt F) Λ₀ .tc) α}
    (fn : Buf (Elt F) ((slot3 : Memref sig .tc .vmem S2x512 .f32).view.loc (pr c 3 : Thread nD τ)))
    (O₀' O : CellTallies nD τ sig Unit) (hO : O₀' = O + tallyAt (recvCell (pr c 3) 2) () N) (W : Waits sig Unit) :
    iprop(cellInv ER (sched m ρ) (K (c, 3)) (sendCell c 2) ∗ cellInv ER (sched m ρ) (K (pr c 3, 6)) (recvCell (pr c 3) 2)
        ∗ pts0 c (shr 2) (comm m ρ c) ∗ ptsR 2 (pr c 3) fullShare fn
        ∗ owes (c : Thread nD τ) O₀' W
        ∗ dutyTok ER (sendCell c 2) 0 (0 : Fin 3) ∗ reached ER (sendCell c 2) 0
        ∗ dutyTok ER (recvCell (pr c 3) 2) 0 (0 : Fin 3) ∗ reached ER (recvCell (pr c 3) 2) 0)
      ⊢ iprop(((cred (tallyAt (sendCell c 2) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot3 (.dma (sendS 2)) hsc) (.dma (recvS 2)) hsrc hdst hsem) k) Q) := by
  subst hn
  exact Rounds.wp_send_pointsTo 𝒱₀ ER (sched m ρ) (c : Thread nD τ) none (κ₁ := K (c, 3)) (κ₂ := K (pr c 3, 6))
    (r₁ := 0) (r₂ := 0) (d₁ := (0 : Fin 3)) (d₂ := (0 : Fin 3)) (fd := fn)
    (by rw [duties_send]; exact Finset.mem_singleton_self _) (by rw [duties_recv]; exact Finset.mem_singleton_self _)
    () () N rfl (amount_send m ρ c 2 0) (amount_recv m ρ (pr c 3) 2 0) O hO (W := W)
    (by rw [payload_send]; exact BI.Entails.refl _)
    (by rw [payload_recv]; exact Entails.of_eq (landed3 m ρ c fn))

set_option maxHeartbeats 3200000 in
set_option maxRecDepth 65536 in
/-- The body, one rule per effect in program order, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre ghost invs poss reaches payToks creds0
  iintro ⟨⟨⟨⟨⟨#HIb, #HIs0, #HIs1, #HIs2, #HIr0, #HIr1, #HIr2, #HIb1, #HIb2, #HIb3, #HIq1, #HIq2, #HIq3⟩,
        ⟨HaB, HaS0, HaS1, HaS2, HaR0, HaR1, HaR2⟩,
        ⟨#HrB1, #HrB2, #HrB3, #HrQ1, #HrQ2, #HrQ3, #HrS0, #HrS1, #HrS2, #HrR0, #HrR1, #HrR2⟩,
        ⟨HtB1, HtB2, HtB3, HtQ1, HtQ2, HtQ3, HtS0, HtS1, HtS2⟩⟩,
      ⟨HcB, HcR0, HcR1, HcR2⟩, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c, dev3_eq c]
  -- the buffer by slots: slots 1, 2, 3 go to the three other devices with the three signals
  ihave Hsl := (split_slots c f0) $$ Hscr
  icases Hsl with ⟨Hs0, Hs1, Hs2, Hs3⟩
  -- the signal to device c + 1: duty 2 of its barrier cell, with slot 3 and receive cell 2 at round 0
  unfold O₀
  iapply (Rounds.wp_signal 𝒱₀ ER (sched m ρ) (c : Thread nD τ) none (dst := (pr c 1 : Thread nD τ)) (κ := K (pr c 1, 0))
      (d := (2 : Fin 3)) (by rw [duties_bar]; exact Finset.mem_univ _) ((amount_bar m ρ (pr c 1) 2).trans (by decide)) () (O₁ c) rfl)
    $$ [HO HtB1 Hs3]
  · isplitr; · iexact HIb1
    isplitl [HO]; · iexact HO
    isplitl [HtB1]; · iexact HtB1
    isplitl [Hs3]
    · rw [payload_bar, barPay_to1]
      isplitl [Hs3]; · iexists f0; iexact Hs3
      iexact HrR2
    · iexact HrB1
  iintro HO
  -- to device c + 2: duty 1, slot 2, receive cell 1
  unfold O₁
  iapply (Rounds.wp_signal 𝒱₀ ER (sched m ρ) (c : Thread nD τ) none (dst := (pr c 2 : Thread nD τ)) (κ := K (pr c 2, 0))
      (d := (1 : Fin 3)) (by rw [duties_bar]; exact Finset.mem_univ _) ((amount_bar m ρ (pr c 2) 1).trans (by decide)) () (O₂ c) rfl)
    $$ [HO HtB2 Hs2]
  · isplitr; · iexact HIb2
    isplitl [HO]; · iexact HO
    isplitl [HtB2]; · iexact HtB2
    isplitl [Hs2]
    · rw [payload_bar, barPay_to2]
      isplitl [Hs2]; · iexists f0; iexact Hs2
      iexact HrR1
    · iexact HrB2
  iintro HO
  -- to device c + 3: duty 0, slot 1, receive cell 0
  unfold O₂
  iapply (Rounds.wp_signal 𝒱₀ ER (sched m ρ) (c : Thread nD τ) none (dst := (pr c 3 : Thread nD τ)) (κ := K (pr c 3, 0))
      (d := (0 : Fin 3)) (by rw [duties_bar]; exact Finset.mem_univ _) ((amount_bar m ρ (pr c 3) 0).trans (by decide)) () (Oc c) rfl)
    $$ [HO HtB3 Hs1]
  · isplitr; · iexact HIb3
    isplitl [HO]; · iexact HO
    isplitl [HtB3]; · iexact HtB3
    isplitl [Hs1]
    · rw [payload_bar, barPay_to3]
      isplitl [Hs1]; · iexists f0; iexact Hs1
      iexact HrR0
    · iexact HrB3
  iintro HO
  -- the input block read; slot 0 read (the value is not used) and the statistics stored there
  iapply (wp_load 𝒱₀ (c : Thread nD τ) none Set.univ (m := xM) (Finset.subset_univ _)) $$ Hx; iintro Hx
  rw [read_x]
  iapply (wp_load_rect 𝒱₀ (c : Thread nD τ) none Set.univ (m := cM) (r := r0)
      (by rw [slot0_set]; exact (View.set_slice_whole cc0_scratch0 r0).le)) $$ Hs0; iintro Hs0
  iapply (wp_store 𝒱₀ (c : Thread nD τ) none Set.univ (m := cM) (r := r0) (Mk := Finset.univ)
      (by rw [View.setOn_univ, slot0_set]; exact (View.set_slice_whole cc0_scratch0 r0).le)) $$ Hs0; iintro Hs0
  ihave Hs0 := (Entails.of_eq (stored_slot0 m ρ c f0)) $$ Hs0
  ihave Hsh := (share_slot0 c (comm m ρ c)) $$ Hs0
  icases Hsh with ⟨Hs0, Hl0, Hl1, Hl2⟩
  -- the wait for three units on the own barrier cell, owing the three copies' credits: the three slots to write come with it
  iapply (Rounds.wp_wait_rest_token 𝒱₀ ER (sched m ρ) (c : Thread nD τ) none (κ := K (c, 0))
      (wpE_semWait_eq 𝒱₀ (c : Thread nD τ) none Set.univ) (Set.mem_univ _) () (O := Oc c) (R := 0) (m := 0) (T := ∅)
      (by rw [expect_bar]; decide)) $$ [HcB HO HaB]
  · isplitr; · iexact HIb
    isplitl [HcB]; · iexact HcB
    isplitl [HO]; · iexact HO
    isplitr; · iapply (mayWait_bar c); iexact Hlev
    iexact HaB
  iintro ⟨HO, HaB, -, Hpay⟩
  ihave Hp := (Entails.of_eq (rest_bar m ρ c)) $$ Hpay
  unfold barPay
  icases Hp with ⟨⟨⟨%fn1, Hn1⟩, -⟩, ⟨⟨%fn2, Hn2⟩, -⟩, ⟨%fn3, Hn3⟩, -⟩
  -- the three copies
  unfold Oc
  iapply (wp_send1 m ρ K c _ (dev4_eq c) fn1 _ (tallyAt (recvCell (pr c 3) 2) () N + tallyAt (recvCell (pr c 2) 1) () N) rfl _) $$ [Hl0 Hn1 HO HtS0 HtQ1]
  · isplitr; · iexact HIs0
    isplitr; · iexact HIq1
    isplitl [Hl0]; · iexact Hl0
    isplitl [Hn1]; · iexact Hn1
    isplitl [HO]; · iexact HO
    isplitl [HtS0]; · iexact HtS0
    isplitr; · iexact HrS0
    isplitl [HtQ1]; · iexact HtQ1
    iexact HrQ1
  iintro ⟨HcS0, HO⟩
  iapply (wp_send2 m ρ K c _ (dev5_eq c) fn2 _ (tallyAt (recvCell (pr c 3) 2) () N) rfl _) $$ [Hl1 Hn2 HO HtS1 HtQ2]
  · isplitr; · iexact HIs1
    isplitr; · iexact HIq2
    isplitl [Hl1]; · iexact Hl1
    isplitl [Hn2]; · iexact Hn2
    isplitl [HO]; · iexact HO
    isplitl [HtS1]; · iexact HtS1
    isplitr; · iexact HrS1
    isplitl [HtQ2]; · iexact HtQ2
    iexact HrQ2
  iintro ⟨HcS1, HO⟩
  iapply (wp_send3 m ρ K c _ (dev6_eq c) fn3 _ 0 (by rw [zero_add]) _) $$ [Hl2 Hn3 HO HtS2 HtQ3]
  · isplitr; · iexact HIs2
    isplitr; · iexact HIq3
    isplitl [Hl2]; · iexact Hl2
    isplitl [Hn3]; · iexact Hn3
    isplitl [HO]; · iexact HO
    isplitl [HtS2]; · iexact HtS2
    isplitr; · iexact HrS2
    isplitl [HtQ3]; · iexact HtQ3
    iexact HrQ3
  iintro ⟨HcS2, HO⟩
  -- the wait on receive cell 0: slot 1 at its final contents
  iapply (Rounds.wp_wait_rest_token 𝒱₀ ER (sched m ρ) (c : Thread nD τ) none (κ := K (c, 4))
      (wpE_waitDma2_eq 𝒱₀ (c : Thread nD τ) none Set.univ) (Set.mem_univ _) () (O := 0) (R := 0) (m := 0) (T := ∅)
      (by rw [Nat.zero_add]; exact (expect_recv m ρ c 0).symm)) $$ [HcR0 HO HaR0]
  · isplitr; · iexact HIr0
    isplitl [HcR0]; · iexact HcR0
    isplitl [HO]; · iexact HO
    isplitr; · rw [MayWait_zero]; iempintro
    iexact HaR0
  iintro ⟨HO, HaR0, -, Hpay⟩
  ihave Hd1 := (Entails.of_eq (rest_recv m ρ c 0)) $$ Hpay
  unfold recvPay
  -- the wait on receive cell 1: slot 2 at its final contents
  iapply (Rounds.wp_wait_rest_token 𝒱₀ ER (sched m ρ) (c : Thread nD τ) none (κ := K (c, 5))
      (wpE_waitDma2_eq 𝒱₀ (c : Thread nD τ) none Set.univ) (Set.mem_univ _) () (O := 0) (R := 0) (m := 0) (T := ∅)
      (by rw [Nat.zero_add]; exact (expect_recv m ρ c 1).symm)) $$ [HcR1 HO HaR1]
  · isplitr; · iexact HIr1
    isplitl [HcR1]; · iexact HcR1
    isplitl [HO]; · iexact HO
    isplitr; · rw [MayWait_zero]; iempintro
    iexact HaR1
  iintro ⟨HO, HaR1, -, Hpay⟩
  ihave Hd2 := (Entails.of_eq (rest_recv m ρ c 1)) $$ Hpay
  unfold recvPay
  -- the wait on receive cell 2: slot 3 at its final contents
  iapply (Rounds.wp_wait_rest_token 𝒱₀ ER (sched m ρ) (c : Thread nD τ) none (κ := K (c, 6))
      (wpE_waitDma2_eq 𝒱₀ (c : Thread nD τ) none Set.univ) (Set.mem_univ _) () (O := 0) (R := 0) (m := 0) (T := ∅)
      (by rw [Nat.zero_add]; exact (expect_recv m ρ c 2).symm)) $$ [HcR2 HO HaR2]
  · isplitr; · iexact HIr2
    isplitl [HcR2]; · iexact HcR2
    isplitl [HO]; · iexact HO
    isplitr; · rw [MayWait_zero]; iempintro
    iexact HaR2
  iintro ⟨HO, HaR2, -, Hpay⟩
  ihave Hd3 := (Entails.of_eq (rest_recv m ρ c 2)) $$ Hpay
  unfold recvPay
  -- the whole buffer read at the kept quarter of every slot
  ihave Hw := (lend_whole c (comm m ρ c)) $$ [Hs0 Hd1 Hd2 Hd3]
  · isplitl [Hs0]; · iexact Hs0
    isplitl [Hd1]; · iexact Hd1
    isplitl [Hd2]; · iexact Hd2
    iexact Hd3
  icases Hw with ⟨Hw, Hlo⟩
  iapply (wp_load 𝒱₀ (c : Thread nD τ) none Set.univ (m := cM) (Finset.subset_univ _)) $$ Hw; iintro Hw
  rw [read_comm]
  ihave Hb := (unlend_whole c (comm m ρ c)) $$ [Hw Hlo]
  · isplitl [Hw]; · iexact Hw
    iexact Hlo
  icases Hb with ⟨Hs0, Hd1, Hd2, Hd3⟩
  -- the result block stored
  iapply (wp_load 𝒱₀ (c : Thread nD τ) none Set.univ (m := oM) (Finset.subset_univ _)) $$ Hout; iintro Hout
  iapply (wp_store 𝒱₀ (c : Thread nD τ) none Set.univ (m := oM) (r := rX) (Mk := Finset.univ) (Finset.subset_univ _)) $$ Hout; iintro Hout
  rw [write_out]
  -- the wait on send cell 0: the share of slot 0 lent to copy 1 comes back
  iapply (Rounds.wp_wait_rest_token 𝒱₀ ER (sched m ρ) (c : Thread nD τ) none (κ := K (c, 1))
      (wpE_waitDma2_eq 𝒱₀ (c : Thread nD τ) none Set.univ) (Set.mem_univ _) () (O := 0) (R := 0) (m := 0) (T := ∅)
      (by rw [Nat.zero_add]; exact (expect_send m ρ c 0).symm)) $$ [HcS0 HO HaS0]
  · isplitr; · iexact HIs0
    isplitl [HcS0]; · iexact HcS0
    isplitl [HO]; · iexact HO
    isplitr; · rw [MayWait_zero]; iempintro
    iexact HaS0
  iintro ⟨HO, HaS0, -, Hpay⟩
  ihave Hl0 := (Entails.of_eq (rest_send m ρ c 0)) $$ Hpay
  unfold sendPay
  -- the wait on send cell 1: the share of slot 0 lent to copy 2 comes back
  iapply (Rounds.wp_wait_rest_token 𝒱₀ ER (sched m ρ) (c : Thread nD τ) none (κ := K (c, 2))
      (wpE_waitDma2_eq 𝒱₀ (c : Thread nD τ) none Set.univ) (Set.mem_univ _) () (O := 0) (R := 0) (m := 0) (T := ∅)
      (by rw [Nat.zero_add]; exact (expect_send m ρ c 1).symm)) $$ [HcS1 HO HaS1]
  · isplitr; · iexact HIs1
    isplitl [HcS1]; · iexact HcS1
    isplitl [HO]; · iexact HO
    isplitr; · rw [MayWait_zero]; iempintro
    iexact HaS1
  iintro ⟨HO, HaS1, -, Hpay⟩
  ihave Hl1 := (Entails.of_eq (rest_send m ρ c 1)) $$ Hpay
  unfold sendPay
  -- the wait on send cell 2: the share of slot 0 lent to copy 3 comes back
  iapply (Rounds.wp_wait_rest_token 𝒱₀ ER (sched m ρ) (c : Thread nD τ) none (κ := K (c, 3))
      (wpE_waitDma2_eq 𝒱₀ (c : Thread nD τ) none Set.univ) (Set.mem_univ _) () (O := 0) (R := 0) (m := 0) (T := ∅)
      (by rw [Nat.zero_add]; exact (expect_send m ρ c 2).symm)) $$ [HcS2 HO HaS2]
  · isplitr; · iexact HIs2
    isplitl [HcS2]; · iexact HcS2
    isplitl [HO]; · iexact HO
    isplitr; · rw [MayWait_zero]; iempintro
    iexact HaS2
  iintro ⟨HO, HaS2, -, Hpay⟩
  ihave Hl2 := (Entails.of_eq (rest_send m ρ c 2)) $$ Hpay
  unfold sendPay
  -- slot 0 whole again, then the buffer
  ihave Hs0 := (unshare_slot0 c (comm m ρ c)) $$ [Hs0 Hl0 Hl1 Hl2]
  · isplitl [Hs0]; · iexact Hs0
    isplitl [Hl0]; · iexact Hl0
    isplitl [Hl1]; · iexact Hl1
    iexact Hl2
  ihave Hscr := (join_slots c (comm m ρ c)) $$ [Hs0 Hd1 Hd2 Hd3]
  · isplitl [Hs0]; · iexact Hs0
    isplitl [Hd1]; · iexact Hd1
    isplitl [Hd2]; · iexact Hd2
    iexact Hd3
  -- the six own cells close: their counters at zero are the device's again
  imod (Rounds.cell_close ER (sched m ρ) (Set.mem_univ (K (c, 1))) (fun h => h) (R := 0 + 1) (duties_later m ρ (sendCell c 0))) $$ [HaS0] with HzS0
  · isplitr; · iexact HIs0
    iexact HaS0
  imod (Rounds.cell_close ER (sched m ρ) (Set.mem_univ (K (c, 2))) (fun h => h) (R := 0 + 1) (duties_later m ρ (sendCell c 1))) $$ [HaS1] with HzS1
  · isplitr; · iexact HIs1
    iexact HaS1
  imod (Rounds.cell_close ER (sched m ρ) (Set.mem_univ (K (c, 3))) (fun h => h) (R := 0 + 1) (duties_later m ρ (sendCell c 2))) $$ [HaS2] with HzS2
  · isplitr; · iexact HIs2
    iexact HaS2
  imod (Rounds.cell_close ER (sched m ρ) (Set.mem_univ (K (c, 4))) (fun h => h) (R := 0 + 1) (duties_later m ρ (recvCell c 0))) $$ [HaR0] with HzR0
  · isplitr; · iexact HIr0
    iexact HaR0
  imod (Rounds.cell_close ER (sched m ρ) (Set.mem_univ (K (c, 5))) (fun h => h) (R := 0 + 1) (duties_later m ρ (recvCell c 1))) $$ [HaR1] with HzR1
  · isplitr; · iexact HIr1
    iexact HaR1
  imod (Rounds.cell_close ER (sched m ρ) (Set.mem_univ (K (c, 6))) (fun h => h) (R := 0 + 1) (duties_later m ρ (recvCell c 2))) $$ [HaR2] with HzR2
  · isplitr; · iexact HIr2
    iexact HaR2
  rw [wp_ret]; imodintro
  iapply Hk
  unfold bodyPost Φ₁ Dat.owesAt Pipeline.owesWithin
  rw [show (dats m ρ 0 c).owed t₀.succ = 0 from rfl]
  isplitl [Hscr HzS0 HzS1 HzS2 HzR0 HzR1 HzR2]
  · isplitl [Hscr]; · iexact Hscr
    isplitl [HzS0]; · iexact HzS0
    isplitl [HzS1]; · iexact HzS1
    isplitl [HzS2]; · iexact HzS2
    isplitl [HzR0]; · iexact HzR0
    isplitl [HzR1]; · iexact HzR1
    iexact HzR2
  isplitl [HO]
  · iexists _
    isplitr
    rotate_left
    · iexact HO
    · ipureintro; exact fun _ _ => Or.inl trivial
  isplitl [Hx]
  · iexists _; isplitr; · (ipureintro; rfl)
    iexact Hx
  iexists _; isplitr; · (ipureintro; rfl)
  iexact Hout

set_option maxRecDepth 4000 in
/-- The library's precondition of the body obligation at the one point, named. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

/-- info: 'Cert.KernelIdealProof.body_obligation' depends on axioms: [propext, Classical.choice, Quot.sound] -/
#guard_msgs in #print axioms body_obligation

end Body

end Cert.KernelIdealProof

end
-- ==== Proof.KernelSpec.lean ====
/-
  What each device's buffers hold, as pure terms of the four devices' input blocks.
  Device `c` puts its own row statistics (row maximum, row sum of exponentials) in slot 0 of its exchange buffer and copies
  them into slot `j` of device `c + j` (mod 4), j = 1, 2, 3; so slot `j` of device `c` ends holding the statistics of device
  `c + 4 - j` (mod 4). The result on device `c` is the body's last payload of its own block and of that whole buffer.
-/
import proofs.«901067_g7700000000001068_dist_softmax_colshard_i_m512_n256_v7x_i4_f32_1_alg».proof.Proof.Gen.Kernel.Skeleton
import Idealize.ShloMosaic.Lib.ValueIdx

noncomputable section

namespace Cert.KernelProof

open Cert.Kernel Cert.Kernel.Gen
open Idealize.ShloMosaic Idealize.ShloMosaic.ValueIdx

variable {F : FTy → Type} [FloatOps F]

/-- Device `c + k` modulo the four devices. -/
def pr (c : Dev nD) (k : ℕ) : Dev nD := ⟨(c.val + k) % 4, Nat.mod_lt _ (by decide)⟩

theorem pr_val (c : Dev nD) (k : ℕ) : (pr c k).val = (c.val + k) % 4 := rfl

/-- The exchange buffer of device `c` once every copy has landed: slot `j` holds the row statistics of device `c + 4 - j`. -/
def commOf (xs : Dev nD → Vec F S512x256 .f32) (c : Dev nD) : Vec F S4x2x512 .f32 :=
  fun i => k0_pay3 (xs (pr c (4 - (i 0).val))) (ix3 (0 : Fin 1) (i 1) (i 2))

/-- The result block of device `c`. -/
def outOf (xs : Dev nD → Vec F S512x256 .f32) (c : Dev nD) : FVec F S512x256 .f32 :=
  k0_pay1 (k0_pay2 (xs c)) (k0_pay4 (commOf xs c))

end Cert.KernelProof

end
-- ==== Proof.KernelProto.lean ====
/-
  The exchange protocol of the four devices, as rounds of duties on their semaphores.
  Device c signals the barrier semaphore of each of the three other devices one unit and waits for three units on its own:
  the unit from device c + j hands c slot j of that device's exchange buffer (c copies its statistics there) and the fact
  that the device's receive cell j - 1 stands at round 0. Copy j of device c reads slot 0 of its own buffer and writes slot j
  of device c + j, crediting that device's receive cell j - 1 (payload: the slot, now holding c's statistics) and c's own
  send cell j - 1 (payload: the share of slot 0 the copy was lent). One round per cell.
-/
import proofs.«901067_g7700000000001068_dist_softmax_colshard_i_m512_n256_v7x_i4_f32_1_alg».proof.Proof.KernelSpec
import proofs.«901067_g7700000000001068_dist_softmax_colshard_i_m512_n256_v7x_i4_f32_1_alg».proof.Proof.Gen.Kernel
import proofs.«901067_g7700000000001068_dist_softmax_colshard_i_m512_n256_v7x_i4_f32_1_alg».proof.Proof.Gen.Kernel.Skeleton
import proofs.«901067_g7700000000001068_dist_softmax_colshard_i_m512_n256_v7x_i4_f32_1_alg».proof.Proof.Gen.Kernel.Launch
import proofs.«901067_g7700000000001068_dist_softmax_colshard_i_m512_n256_v7x_i4_f32_1_alg».proof.Proof.Gen.Kernel.Points
import Idealize.ShloMosaic.Lib.Pipeline.Launch
import Idealize.ShloMosaic.Lib.Pipeline.Kit
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the exchange's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices a device addresses -/

theorem k0_dev1_eq : ∀ c : Dev nD, k0_dev1 c = (c.val + 1) % 4 := by decide +kernel
theorem k0_dev2_eq : ∀ c : Dev nD, k0_dev2 c = (c.val + 2) % 4 := by decide +kernel
theorem k0_dev3_eq : ∀ c : Dev nD, k0_dev3 c = (c.val + 3) % 4 := by decide +kernel
theorem k0_dev4_eq : ∀ c : Dev nD, k0_dev4 c = (c.val + 1) % 4 := by decide +kernel
theorem k0_dev5_eq : ∀ c : Dev nD, k0_dev5 c = (c.val + 2) % 4 := by decide +kernel
theorem k0_dev6_eq : ∀ c : Dev nD, k0_dev6 c = (c.val + 3) % 4 := by decide +kernel

/-- The three signals name devices c + 1, c + 2, c + 3; so do the three copies. -/
theorem dev1_eq (c : Dev nD) : (⟨k0_dev1 c, k0_dev1_lt c⟩ : Dev nD) = pr c 1 := Fin.ext (k0_dev1_eq c)
theorem dev2_eq (c : Dev nD) : (⟨k0_dev2 c, k0_dev2_lt c⟩ : Dev nD) = pr c 2 := Fin.ext (k0_dev2_eq c)
theorem dev3_eq (c : Dev nD) : (⟨k0_dev3 c, k0_dev3_lt c⟩ : Dev nD) = pr c 3 := Fin.ext (k0_dev3_eq c)
theorem dev4_eq (c : Dev nD) : (⟨k0_dev4 c, k0_dev4_lt c⟩ : Dev nD) = pr c 1 := Fin.ext (k0_dev4_eq c)
theorem dev5_eq (c : Dev nD) : (⟨k0_dev5 c, k0_dev5_lt c⟩ : Dev nD) = pr c 2 := Fin.ext (k0_dev5_eq c)
theorem dev6_eq (c : Dev nD) : (⟨k0_dev6 c, k0_dev6_lt c⟩ : Dev nD) = pr c 3 := Fin.ext (k0_dev6_eq c)

theorem pr_pr (c : Dev nD) (a b : ℕ) : pr (pr c a) b = pr c (a + b) := Fin.ext (by simp only [pr_val]; omega)
theorem pr_four (c : Dev nD) : pr c 4 = c := Fin.ext (by simp only [pr_val]; have h : c.val < 4 := c.isLt; omega)
theorem pr_zero (c : Dev nD) : pr c 0 = c := Fin.ext (by simp only [pr_val]; have h : c.val < 4 := c.isLt; omega)
theorem pr_inj (k : ℕ) : Function.Injective (fun c : Dev nD => pr c k) := fun a b h => by
  have h' : (a.val + k) % 4 = (b.val + k) % 4 := congrArg Fin.val h
  have ha : a.val < 4 := a.isLt
  have hb : b.val < 4 := b.isLt
  exact Fin.ext (by omega)

/-- Adding `k` to every device, a permutation of the devices (its inverse adds `4 - k % 4`). -/
def shift (k : ℕ) : Dev nD ≃ Dev nD where
  toFun c := pr c k
  invFun c := pr c (4 - k % 4)
  left_inv c := by
    show pr (pr c k) (4 - k % 4) = c
    rw [pr_pr]; exact Fin.ext (by simp only [pr_val]; have h : c.val < 4 := c.isLt; omega)
  right_inv c := by
    show pr (pr c (4 - k % 4)) k = c
    rw [pr_pr]; exact Fin.ext (by simp only [pr_val]; have h : c.val < 4 := c.isLt; omega)

/-! ## The memrefs and the cells -/

abbrev xM : Memref sig .tc .vmem S512x256 .f32 := Memref.whole cc0_stg0_0
abbrev oM : Memref sig .tc .vmem S512x256 .f32 := Memref.whole cc0_stg1_0
abbrev cM : Memref sig .tc .vmem S4x2x512 .f32 := Memref.whole cc0_scratch0

/-- Slot `j` of the exchange buffer, as the body names it for a copy: the [1,2,512] slice at row j, squeezed to [2,512]. -/
abbrev slot0 : Memref sig .tc .vmem S2x512 .f32 :=
  (cM.slice (Rect.unit (s := S4x2x512) ![0, 0, 0] S1x2x512.size inb_S4x2x512_S1x2x512_0_0_0) (fun _ => rfl)).squeeze S2x512 squeezes_S1x2x512_S2x512
abbrev slot1 : Memref sig .tc .vmem S2x512 .f32 :=
  (cM.slice (Rect.unit (s := S4x2x512) ![1, 0, 0] S1x2x512.size inb_S4x2x512_S1x2x512_1_0_0) (fun _ => rfl)).squeeze S2x512 squeezes_S1x2x512_S2x512
abbrev slot2 : Memref sig .tc .vmem S2x512 .f32 :=
  (cM.slice (Rect.unit (s := S4x2x512) ![2, 0, 0] S1x2x512.size inb_S4x2x512_S1x2x512_2_0_0) (fun _ => rfl)).squeeze S2x512 squeezes_S1x2x512_S2x512
abbrev slot3 : Memref sig .tc .vmem S2x512 .f32 :=
  (cM.slice (Rect.unit (s := S4x2x512) ![3, 0, 0] S1x2x512.size inb_S4x2x512_S1x2x512_3_0_0) (fun _ => rfl)).squeeze S2x512 squeezes_S1x2x512_S2x512
/-- Slots 1, 2, 3 by the copy's number less one. -/
abbrev slotR : Fin 3 → Memref sig .tc .vmem S2x512 .f32 := fun | 0 => slot1 | 1 => slot2 | 2 => slot3

/-- The barrier semaphore of collective id 0 (the runtime's, not scoped to the launch); the three send and the three
    receive DMA semaphores (scoped scratch), as the body names them. -/
abbrev barS : Sem sig := (SemArray.scalar (sig.barrier 0 rfl) : Sems sig S_).sem
abbrev sendS : Fin 3 → DmaSem sig := fun
  | 0 => ((cc0_scratch1.slice (Rect.unit (s := S3) ![0] S1.size inb_S3_S1_0)).squeeze S_ squeezes_S1_S_).sem
  | 1 => ((cc0_scratch1.slice (Rect.unit (s := S3) ![1] S1.size inb_S3_S1_1)).squeeze S_ squeezes_S1_S_).sem
  | 2 => ((cc0_scratch1.slice (Rect.unit (s := S3) ![2] S1.size inb_S3_S1_2)).squeeze S_ squeezes_S1_S_).sem
abbrev recvS : Fin 3 → DmaSem sig := fun
  | 0 => ((cc0_scratch2.slice (Rect.unit (s := S3) ![0] S1.size inb_S3_S1_0)).squeeze S_ squeezes_S1_S_).sem
  | 1 => ((cc0_scratch2.slice (Rect.unit (s := S3) ![1] S1.size inb_S3_S1_1)).squeeze S_ squeezes_S1_S_).sem
  | 2 => ((cc0_scratch2.slice (Rect.unit (s := S3) ![2] S1.size inb_S3_S1_2)).squeeze S_ squeezes_S1_S_).sem

theorem sendS_val : ∀ k : Fin 3, (sendS k).val = 2 + k.val := by decide
theorem recvS_val : ∀ k : Fin 3, (recvS k).val = 5 + k.val := by decide

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

/-- What one copy credits: the same for the three slots. -/
abbrev N : ℕ := (slot1 : Memref sig .tc .vmem S2x512 .f32).view.dmaCredit
theorem N_pos : 0 < N := View.dmaCredit_pos _ (by decide)

/-! ## Contents -/

/-- Device `c`'s input block as the region finds it. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s exchange buffer once every copy into it has landed. -/
def comm (c : Dev nD) : Buf (Elt F) ((cM : Memref sig .tc .vmem S4x2x512 .f32).view.loc (c : Thread nD τ)) := commOf (xstg m ρ) c

/-- Device `c`'s result block. -/
def outAt (c : Dev nD) : (cc0_stg1_0 : Ref sig .tc).ty.Contents (Elt F) := outOf (xstg m ρ) c

/-! ## The four slots as regions of the buffer -/

abbrev r0 : Rect S4x2x512 := Rect.unit (s := S4x2x512) ![0, 0, 0] S1x2x512.size inb_S4x2x512_S1x2x512_0_0_0
abbrev r1 : Rect S4x2x512 := Rect.unit (s := S4x2x512) ![1, 0, 0] S1x2x512.size inb_S4x2x512_S1x2x512_1_0_0
abbrev r2 : Rect S4x2x512 := Rect.unit (s := S4x2x512) ![2, 0, 0] S1x2x512.size inb_S4x2x512_S1x2x512_2_0_0
abbrev r3 : Rect S4x2x512 := Rect.unit (s := S4x2x512) ![3, 0, 0] S1x2x512.size inb_S4x2x512_S1x2x512_3_0_0

theorem slot0_set : (slot0 : Memref sig .tc .vmem S2x512 .f32).view.set = r0.set := by
  simp only [Memref.view_squeeze, Memref.view_slice, Memref.view_whole, View.set_reshape, View.set_slice_whole]
theorem slot1_set : (slot1 : Memref sig .tc .vmem S2x512 .f32).view.set = r1.set := by
  simp only [Memref.view_squeeze, Memref.view_slice, Memref.view_whole, View.set_reshape, View.set_slice_whole]
theorem slot2_set : (slot2 : Memref sig .tc .vmem S2x512 .f32).view.set = r2.set := by
  simp only [Memref.view_squeeze, Memref.view_slice, Memref.view_whole, View.set_reshape, View.set_slice_whole]
theorem slot3_set : (slot3 : Memref sig .tc .vmem S2x512 .f32).view.set = r3.set := by
  simp only [Memref.view_squeeze, Memref.view_slice, Memref.view_whole, View.set_reshape, View.set_slice_whole]

/-- An element lies in the slot at row `j` exactly when its first coordinate is `j`. -/
theorem mem_row (j : ℕ) (inb : ∀ a, (![j, 0, 0] : Fin 3 → Nat) a + S1x2x512.size a ≤ S4x2x512.size a) (i : S4x2x512.Idx) :
    i ∈ (Rect.unit (s := S4x2x512) ![j, 0, 0] S1x2x512.size inb).set ↔ (i 0).val = j := by
  rw [Rect.mem_set_unit]
  have h1 : (i 1).val < 2 := (i 1).isLt
  have h2 : (i 2).val < 512 := (i 2).isLt
  constructor
  · intro h
    have h0 : j ≤ (i 0).val ∧ (i 0).val < j + 1 := h 0
    omega
  · intro h a
    match a with
    | ⟨0, _⟩ => exact (show j ≤ (i 0).val ∧ (i 0).val < j + 1 by omega)
    | ⟨1, _⟩ => exact (show 0 ≤ (i 1).val ∧ (i 1).val < 0 + 2 by omega)
    | ⟨2, _⟩ => exact (show 0 ≤ (i 2).val ∧ (i 2).val < 0 + 512 by omega)

theorem cover (i : S4x2x512.Idx) : i ∈ r0.set ∨ i ∈ r1.set ∨ i ∈ r2.set ∨ i ∈ r3.set := by
  have h0 : (i 0).val < 4 := (i 0).isLt
  rw [mem_row, mem_row, mem_row, mem_row]; omega

theorem disj01 : Disjoint r0.set r1.set := Rect.unit_disjoint 0 (.inl (by decide))
theorem disj02 : Disjoint r0.set r2.set := Rect.unit_disjoint 0 (.inl (by decide))
theorem disj03 : Disjoint r0.set r3.set := Rect.unit_disjoint 0 (.inl (by decide))
theorem disj12 : Disjoint r1.set r2.set := Rect.unit_disjoint 0 (.inl (by decide))
theorem disj13 : Disjoint r1.set r3.set := Rect.unit_disjoint 0 (.inl (by decide))
theorem disj23 : Disjoint r2.set r3.set := Rect.unit_disjoint 0 (.inl (by decide))

theorem union_rows : r0.set ∪ r1.set ∪ r2.set ∪ r3.set = (Finset.univ : Finset S4x2x512.Idx) := by
  ext i
  simp only [Finset.mem_union, Finset.mem_univ, iff_true]
  rcases cover i with h | h | h | h
  · exact .inl (.inl (.inl h))
  · exact .inl (.inl (.inr h))
  · exact .inl (.inr h)
  · exact .inr h

/-! ## Holding a slot -/

/-- Share `q` of slot 0 of device `c`'s buffer at contents `f` (the slot's elements only). -/
abbrev pts0 (c : Dev nD) (q : PosShare TreeShare) (f : Buf (Elt F) ((cM : Memref sig .tc .vmem S4x2x512 .f32).view.loc (c : Thread nD τ))) : sProp 𝕄 :=
  (slot0 : Memref sig .tc .vmem S2x512 .f32).view.loc (c : Thread nD τ) ↦[(slot0 : Memref sig .tc .vmem S2x512 .f32).view.set]{q} f
/-- The same of slot `k + 1`. -/
abbrev ptsR : Fin 3 → (c : Dev nD) → PosShare TreeShare → Buf (Elt F) ((cM : Memref sig .tc .vmem S4x2x512 .f32).view.loc (c : Thread nD τ)) → sProp 𝕄 := fun
  | 0 => fun c q f => (slot1 : Memref sig .tc .vmem S2x512 .f32).view.loc (c : Thread nD τ) ↦[(slot1 : Memref sig .tc .vmem S2x512 .f32).view.set]{q} f
  | 1 => fun c q f => (slot2 : Memref sig .tc .vmem S2x512 .f32).view.loc (c : Thread nD τ) ↦[(slot2 : Memref sig .tc .vmem S2x512 .f32).view.set]{q} f
  | 2 => fun c q f => (slot3 : Memref sig .tc .vmem S2x512 .f32).view.loc (c : Thread nD τ) ↦[(slot3 : Memref sig .tc .vmem S2x512 .f32).view.set]{q} f

/-- The share of slot 0 lent to copy `k + 1`; the device keeps `fullShare.left.left`. -/
abbrev shr : Fin 3 → PosShare TreeShare := fun | 0 => fullShare.left.right | 1 => fullShare.right.left | 2 => fullShare.right.right

/-! ## The schedule -/

/-- What device `c + d + 1`'s signal hands `c`: slot `d + 1` of that device's buffer and that its receive cell `d` stands at round 0. -/
def barPay (c : Dev nD) : Fin 3 → sProp 𝕄 := fun
  | 0 => iprop((∃ f, ptsR 0 (pr c 1) fullShare f) ∗ reached ER (recvCell (pr c 1) 0) 0)
  | 1 => iprop((∃ f, ptsR 1 (pr c 2) fullShare f) ∗ reached ER (recvCell (pr c 2) 1) 0)
  | 2 => iprop((∃ f, ptsR 2 (pr c 3) fullShare f) ∗ reached ER (recvCell (pr c 3) 2) 0)
/-- What the copy into slot `k + 1` of device `c` hands it: the slot at its final contents. -/
def recvPay (c : Dev nD) (k : Fin 3) : sProp 𝕄 := ptsR k c fullShare (comm m ρ c)
/-- What copy `k + 1` of device `c` hands back once its source is read: the share of slot 0 it was lent. -/
def sendPay (c : Dev nD) (k : Fin 3) : sProp 𝕄 := pts0 c (shr k) (comm m ρ c)

abbrev IsBar (g : GSem nD τ sig) : Prop := g.1.2 = .tc ∧ g.2 = .reg barS
abbrev IsXfer (g : GSem nD τ sig) : Prop := g.1.2 = .tc ∧ ∃ k : Fin 3, g.2 = .dma (sendS k) ∨ g.2 = .dma (recvS k)

/-- One round: a barrier cell has three duties of one unit (one per other device); a send or receive cell one duty of a
    copy's credit. -/
def sched : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if g.2 = .dma (recvS 0) then recvPay m ρ g.1.1 0
    else if g.2 = .dma (recvS 1) then recvPay m ρ g.1.1 1
    else if g.2 = .dma (recvS 2) then recvPay m ρ g.1.1 2
    else if g.2 = .dma (sendS 0) then sendPay m ρ g.1.1 0
    else if g.2 = .dma (sendS 1) then sendPay m ρ g.1.1 1
    else if g.2 = .dma (sendS 2) then sendPay m ρ g.1.1 2
    else iprop(emp)
  amount_pos g _ _ _ := by
    by_cases h : g.2 = .reg barS
    · rw [if_pos h]; exact Nat.one_pos
    · rw [if_neg h]; exact N_pos

instance sched_payload_storable (g : GSem nD τ sig) (r : ℕ) (d : Fin 3) :
    BI.Storable (upEmb : UEmb _ 𝕄) ((sched (F := F) m ρ).payload g r d) := by
  show BI.Storable upEmb (if g.2 = .reg barS then barPay g.1.1 d
    else if g.2 = .dma (recvS 0) then recvPay m ρ g.1.1 0
    else if g.2 = .dma (recvS 1) then recvPay m ρ g.1.1 1
    else if g.2 = .dma (recvS 2) then recvPay m ρ g.1.1 2
    else if g.2 = .dma (sendS 0) then sendPay m ρ g.1.1 0
    else if g.2 = .dma (sendS 1) then sendPay m ρ g.1.1 1
    else if g.2 = .dma (sendS 2) then sendPay m ρ g.1.1 2
    else iprop(emp))
  unfold barPay recvPay sendPay
  (repeat' split) <;> infer_instance

section Sched
variable (c : Dev nD)

theorem send_ne_bar (k : Fin 3) : (SemLoc.dma (sendS k) : SemLoc sig) ≠ .reg barS := fun h => by cases h
theorem recv_ne_bar (k : Fin 3) : (SemLoc.dma (recvS k) : SemLoc sig) ≠ .reg barS := fun h => by cases h
theorem send_ne_recv : ∀ k k' : Fin 3, (SemLoc.dma (sendS k) : SemLoc sig) ≠ .dma (recvS k') := by decide
theorem recv_ne_send : ∀ k k' : Fin 3, (SemLoc.dma (recvS k) : SemLoc sig) ≠ .dma (sendS k') := by decide
theorem send_inj : ∀ k k' : Fin 3, (SemLoc.dma (sendS k) : SemLoc sig) = .dma (sendS k') → k = k' := by decide
theorem recv_inj : ∀ k k' : Fin 3, (SemLoc.dma (recvS k) : SemLoc sig) = .dma (recvS k') → k = k' := by decide
theorem not_bar_send (k : Fin 3) : ¬ IsBar (sendCell c k) := fun h => send_ne_bar k h.2
theorem not_bar_recv (k : Fin 3) : ¬ IsBar (recvCell c k) := fun h => recv_ne_bar k h.2

theorem duties_bar : (sched (F := F) m ρ).duties (barCell c) 0 = Finset.univ := by dsimp only [sched]; exact if_pos ⟨rfl, rfl, rfl⟩
theorem duties_send (k : Fin 3) : (sched (F := F) m ρ).duties (sendCell c k) 0 = {0} := by
  dsimp only [sched]; rw [if_neg (fun h => not_bar_send c k h.2)]; exact if_pos ⟨rfl, rfl, k, .inl rfl⟩
theorem duties_recv (k : Fin 3) : (sched (F := F) m ρ).duties (recvCell c k) 0 = {0} := by
  dsimp only [sched]; rw [if_neg (fun h => not_bar_recv c k h.2)]; exact if_pos ⟨rfl, rfl, k, .inr rfl⟩
theorem duties_later (g : GSem nD τ sig) : ∀ r, 1 ≤ r → (sched (F := F) m ρ).duties g r = ∅ :=
  fun r hr => by dsimp only [sched]; rw [if_neg fun h => by omega, if_neg fun h => by omega]

theorem amount_bar (d : Fin 3) : (sched (F := F) m ρ).amount (barCell c) 0 d = 1 := by dsimp only [sched]; exact if_pos rfl
theorem amount_send (k d : Fin 3) : (sched (F := F) m ρ).amount (sendCell c k) 0 d = N := by dsimp only [sched]; exact if_neg (send_ne_bar k)
theorem amount_recv (k d : Fin 3) : (sched (F := F) m ρ).amount (recvCell c k) 0 d = N := by dsimp only [sched]; exact if_neg (recv_ne_bar k)

theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send (k : Fin 3) : (sched (F := F) m ρ).expect (sendCell c k) 0 = N := by
  unfold Schedule.expect Schedule.amountOf; rw [duties_send, Finset.sum_singleton, amount_send]
theorem expect_recv (k : Fin 3) : (sched (F := F) m ρ).expect (recvCell c k) 0 = N := by
  unfold Schedule.expect Schedule.amountOf; rw [duties_recv, Finset.sum_singleton, amount_recv]

theorem payload_bar (d : Fin 3) : (sched (F := F) m ρ).payload (barCell c) 0 d = barPay c d := by dsimp only [sched]; rw [if_pos rfl]
theorem payload_recv (k d : Fin 3) : (sched (F := F) m ρ).payload (recvCell c k) 0 d = recvPay m ρ c k := by
  dsimp only [sched]; rw [if_neg (recv_ne_bar k)]
  fin_cases k
  · rw [if_pos rfl]; rfl
  · rw [if_neg (fun h => absurd (recv_inj _ _ h) (by decide)), if_pos rfl]; rfl
  · rw [if_neg (fun h => absurd (recv_inj _ _ h) (by decide)), if_neg (fun h => absurd (recv_inj _ _ h) (by decide)), if_pos rfl]; rfl
theorem payload_send (k d : Fin 3) : (sched (F := F) m ρ).payload (sendCell c k) 0 d = sendPay m ρ c k := by
  dsimp only [sched]
  rw [if_neg (send_ne_bar k), if_neg (send_ne_recv k 0), if_neg (send_ne_recv k 1), if_neg (send_ne_recv k 2)]
  fin_cases k
  · rw [if_pos rfl]; rfl
  · rw [if_neg (fun h => absurd (send_inj _ _ h) (by decide)), if_pos rfl]; rfl
  · rw [if_neg (fun h => absurd (send_inj _ _ h) (by decide)), if_neg (fun h => absurd (send_inj _ _ h) (by decide)), if_pos rfl]; rfl

theorem bigSep_fin3 (Φ : Fin 3 → sProp 𝕄) : bigSep Finset.univ Φ = iprop(Φ 0 ∗ Φ 1 ∗ Φ 2) := bigSep_univ_eq_bigSepL [0, 1, 2] (by decide) (by decide) Φ

/-- The whole of the barrier cell's round: the three other devices' payloads. -/
theorem rest_bar : bigSep ((sched (F := F) m ρ).duties (barCell c) 0 \ ∅) (fun d => (sched (F := F) m ρ).payload (barCell c) 0 d)
    = iprop(barPay c 0 ∗ barPay c 1 ∗ barPay c 2) := by
  rw [Finset.sdiff_empty, duties_bar, bigSep_fin3, payload_bar, payload_bar, payload_bar]
theorem rest_send (k : Fin 3) : bigSep ((sched (F := F) m ρ).duties (sendCell c k) 0 \ ∅) (fun d => (sched (F := F) m ρ).payload (sendCell c k) 0 d) = sendPay m ρ c k := by
  rw [Finset.sdiff_empty, duties_send, bigSep_singleton, payload_send]
theorem rest_recv (k : Fin 3) : bigSep ((sched (F := F) m ρ).duties (recvCell c k) 0 \ ∅) (fun d => (sched (F := F) m ρ).payload (recvCell c k) 0 d) = recvPay m ρ c k := by
  rw [Finset.sdiff_empty, duties_recv, bigSep_singleton, payload_recv]

end Sched

/-! ## What each device owes at launch; the levels -/

/-- The three copies' credits on the destinations' receive cells, summed so that copy 1 peels the last summand first. -/
def Oc (c : Dev nD) : CellTallies nD τ sig Unit :=
  tallyAt (recvCell (pr c 3) 2) () N + tallyAt (recvCell (pr c 2) 1) () N + tallyAt (recvCell (pr c 1) 0) () N
/-- With the three barrier units, the first signal (to c + 1) peeling the last summand. -/
def O₂ (c : Dev nD) : CellTallies nD τ sig Unit := Oc c + tallyAt (barCell (pr c 3)) () 1
def O₁ (c : Dev nD) : CellTallies nD τ sig Unit := O₂ c + tallyAt (barCell (pr c 2)) () 1
def O₀ (c : Dev nD) : CellTallies nD τ sig Unit := O₁ c + tallyAt (barCell (pr c 1)) () 1

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else if (∃ k : Fin 3, g.2 = .dma (recvS k)) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_recv (c : Dev nD) (k : Fin 3) : lv (recvCell c k) () = 2 := by
  unfold lv; rw [if_neg (recv_ne_bar k), if_pos ⟨k, rfl⟩]

theorem Oc_pos {c : Dev nD} {g : GSem nD τ sig} {u : Unit} (h : 0 < Oc c g u) :
    g = recvCell (pr c 3) 2 ∨ g = recvCell (pr c 2) 1 ∨ g = recvCell (pr c 1) 0 := by
  unfold Oc at h
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

theorem O₀_pos {c : Dev nD} {g : GSem nD τ sig} {u : Unit} (h : 0 < O₀ c g u) :
    (∃ k : Fin 3, ∃ d : Dev nD, g = recvCell d k) ∨ (∃ d : Dev nD, g = barCell d) := by
  unfold O₀ O₁ O₂ at h
  rw [Pi.add_apply, Finsupp.add_apply, Pi.add_apply, Finsupp.add_apply, Pi.add_apply, Finsupp.add_apply, tallyAt_apply, tallyAt_apply, tallyAt_apply] at h
  by_cases h1 : g = barCell (pr c 1) ∧ u = ()
  · exact .inr ⟨_, h1.1⟩
  by_cases h2 : g = barCell (pr c 2) ∧ u = ()
  · exact .inr ⟨_, h2.1⟩
  by_cases h3 : g = barCell (pr c 3) ∧ u = ()
  · exact .inr ⟨_, h3.1⟩
  rw [if_neg h1, if_neg h2, if_neg h3] at h
  try simp only [Nat.add_zero] at h
  rcases Oc_pos h with rfl | rfl | rfl
  · exact .inl ⟨2, _, rfl⟩
  · exact .inl ⟨1, _, rfl⟩
  · exact .inl ⟨0, _, rfl⟩

/-- A wait on a staging semaphore (level 0) is below everything a device may still owe (levels 1 and 2). -/
theorem mayWait_stage (c : Dev nD) (q : DmaSem sig) (hq : ∀ k : Fin 3, SemLoc.dma q ≠ .dma (recvS k)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨k, d, rfl⟩ | ⟨d, rfl⟩ <;> exact Finset.mem_singleton_self _)
      (fun p hp => by
        rw [Finset.mem_singleton.mp hp]; dsimp only [lv]
        rw [if_neg (fun h => by cases h), if_neg (fun ⟨k, hk⟩ => hq k hk)])
      (fun g u hg => by
        rcases O₀_pos hg with ⟨k, d, rfl⟩ | ⟨d, rfl⟩
        · rw [lv_recv]; decide
        · rw [lv_bar]; decide)
  · rw [MayWait_zero]; iintro -; iempintro

/-- At its barrier wait a device owes the three copies' credits only: receive cells, above its barrier cell. -/
theorem mayWait_bar (c : Dev nD) :
    (levAts L lv : sProp 𝕄) ⊢ MayWait (c : Thread nD τ) (.reg barS) () (Oc c) :=
  MayOwe.of_cut (L := L) (lev := lv) 1 (fun p hp => by rw [Finset.mem_singleton.mp hp, L_tc]; exact Finset.mem_singleton_self _)
    (fun g u hg => by rcases Oc_pos hg with rfl | rfl | rfl <;> exact Finset.mem_singleton_self _)
    (fun p hp => by rw [Finset.mem_singleton.mp hp]; exact (lv_bar c).le)
    (fun g u hg => by rcases Oc_pos hg with rfl | rfl | rfl <;> (rw [lv_recv]; decide))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The seven cells of a device, as this proof indexes them: barrier; send 0, 1, 2; receive 0, 1, 2. -/
abbrev csem : Fin 7 → SemLoc sig := fun
  | 0 => .reg barS | 1 => .dma (sendS 0) | 2 => .dma (sendS 1) | 3 => .dma (sendS 2) | 4 => .dma (recvS 0) | 5 => .dma (recvS 1) | 6 => .dma (recvS 2)
abbrev kcell (ck : Dev nD × Fin 7) : GSem nD τ sig := ((ck.1 : Thread nD τ), csem ck.2)
/-- The index of send cell `k` and of receive cell `k`. -/
abbrev iS : Fin 3 → Fin 7 := fun | 0 => 1 | 1 => 2 | 2 => 3
abbrev iR : Fin 3 → Fin 7 := fun | 0 => 4 | 1 => 5 | 2 => 6
/-- The kernel's own (scoped) semaphores, as the launch indexes them: send 0, 1, 2, receive 0, 1, 2. -/
abbrev osem : Fin 6 → SemLoc sig := fun
  | 0 => .dma (sendS 0) | 1 => .dma (sendS 1) | 2 => .dma (sendS 2) | 3 => .dma (recvS 0) | 4 => .dma (recvS 1) | 5 => .dma (recvS 2)

/-- The invariants device `c`'s body opens, under the names `K` the launch allocated them at: its own seven, the three
    other devices' barrier cells (its signals), and receive cell `j - 1` of device `c + j` (its copy `j`). -/
def invs (K : Dev nD × Fin 7 → ℕ) (c : Dev nD) : sProp 𝕄 :=
  iprop(cellInv ER (sched m ρ) (K (c, 0)) (barCell c)
    ∗ cellInv ER (sched m ρ) (K (c, 1)) (sendCell c 0) ∗ cellInv ER (sched m ρ) (K (c, 2)) (sendCell c 1) ∗ cellInv ER (sched m ρ) (K (c, 3)) (sendCell c 2)
    ∗ cellInv ER (sched m ρ) (K (c, 4)) (recvCell c 0) ∗ cellInv ER (sched m ρ) (K (c, 5)) (recvCell c 1) ∗ cellInv ER (sched m ρ) (K (c, 6)) (recvCell c 2)
    ∗ cellInv ER (sched m ρ) (K (pr c 1, 0)) (barCell (pr c 1)) ∗ cellInv ER (sched m ρ) (K (pr c 2, 0)) (barCell (pr c 2)) ∗ cellInv ER (sched m ρ) (K (pr c 3, 0)) (barCell (pr c 3))
    ∗ cellInv ER (sched m ρ) (K (pr c 1, 4)) (recvCell (pr c 1) 0) ∗ cellInv ER (sched m ρ) (K (pr c 2, 5)) (recvCell (pr c 2) 1) ∗ cellInv ER (sched m ρ) (K (pr c 3, 6)) (recvCell (pr c 3) 2))

instance invs_persistent (K : Dev nD × Fin 7 → ℕ) (c : Dev nD) : BI.Persistent (invs m ρ K c) := by unfold invs; infer_instance

/-- Device `c`'s positions at round 0 of its seven cells. -/
def poss (c : Dev nD) : sProp 𝕄 :=
  iprop(atPos ER (barCell c) 0 ∅ 0
    ∗ atPos ER (sendCell c 0) 0 ∅ 0 ∗ atPos ER (sendCell c 1) 0 ∅ 0 ∗ atPos ER (sendCell c 2) 0 ∅ 0
    ∗ atPos ER (recvCell c 0) 0 ∅ 0 ∗ atPos ER (recvCell c 1) 0 ∅ 0 ∗ atPos ER (recvCell c 2) 0 ∅ 0)

/-- Round 0 reached, of the cells device `c` pays and of its own send and receive cells. -/
def reaches (c : Dev nD) : sProp 𝕄 :=
  iprop(reached ER (barCell (pr c 1)) 0 ∗ reached ER (barCell (pr c 2)) 0 ∗ reached ER (barCell (pr c 3)) 0
    ∗ reached ER (recvCell (pr c 1) 0) 0 ∗ reached ER (recvCell (pr c 2) 1) 0 ∗ reached ER (recvCell (pr c 3) 2) 0
    ∗ reached ER (sendCell c 0) 0 ∗ reached ER (sendCell c 1) 0 ∗ reached ER (sendCell c 2) 0
    ∗ reached ER (recvCell c 0) 0 ∗ reached ER (recvCell c 1) 0 ∗ reached ER (recvCell c 2) 0)

instance reaches_persistent (c : Dev nD) : BI.Persistent (reaches (F := F) c) := by unfold reaches; infer_instance

/-- The tokens of the duties device `c` pays: its signal to device `c + k` pays duty `3 - k` of that device's barrier cell;
    copy `j` pays the duty of receive cell `j - 1` of device `c + j` and of its own send cell `j - 1`. -/
def payToks (c : Dev nD) : sProp 𝕄 :=
  iprop(dutyTok ER (barCell (pr c 1)) 0 (2 : Fin 3) ∗ dutyTok ER (barCell (pr c 2)) 0 (1 : Fin 3) ∗ dutyTok ER (barCell (pr c 3)) 0 (0 : Fin 3)
    ∗ dutyTok ER (recvCell (pr c 1) 0) 0 (0 : Fin 3) ∗ dutyTok ER (recvCell (pr c 2) 1) 0 (0 : Fin 3) ∗ dutyTok ER (recvCell (pr c 3) 2) 0 (0 : Fin 3)
    ∗ dutyTok ER (sendCell c 0) 0 (0 : Fin 3) ∗ dutyTok ER (sendCell c 1) 0 (0 : Fin 3) ∗ dutyTok ER (sendCell c 2) 0 (0 : Fin 3))

/-- The exchange's ghost state device `c` starts from. -/
def ghost (K : Dev nD × Fin 7 → ℕ) (c : Dev nD) : sProp 𝕄 :=
  iprop(invs m ρ K c ∗ poss c ∗ reaches c ∗ payToks c)

/-- The credit device `c` is dealt at launch: its barrier's three units and its three receive cells' credits. -/
def creds0 (c : Dev nD) : sProp 𝕄 :=
  iprop(cred (tallyAt (barCell c) () 3) ∗ cred (tallyAt (recvCell c 0) () N) ∗ cred (tallyAt (recvCell c 1) () N) ∗ cred (tallyAt (recvCell c 2) () N))

/-- What device `c`'s body starts from: the ghost state at some names, its credit and the level facts. -/
def start (c : Dev nD) : sProp 𝕄 :=
  iprop((∃ K, ghost m ρ K c) ∗ creds0 c ∗ levAts L lv)

/-- Before the point: that, and the exchange buffer at some contents. -/
def Φ₀ (c : Dev nD) : sProp 𝕄 :=
  iprop(start m ρ c ∗ ∃ f, (((c : Thread nD τ).loc cc0_scratch0) ↦{fullShare} f))
/-- After the point: the exchange buffer at its final contents and the six own cells at zero, closed. -/
def Φ₁ (c : Dev nD) : sProp 𝕄 :=
  iprop((((c : Thread nD τ).loc cc0_scratch0) ↦{fullShare} comm m ρ c)
    ∗ semVal (sendCell c 0) 0 ∗ semVal (sendCell c 1) 0 ∗ semVal (sendCell c 2) 0
    ∗ semVal (recvCell c 0) 0 ∗ semVal (recvCell c 1) 0 ∗ semVal (recvCell c 2) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole staging buffer of device `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body of device `c` runs from, the ghost state's names `K` fixed. -/
def bodyPre (K : Dev nD × Fin 7 → ℕ) (c : Dev nD) : sProp 𝕄 :=
  iprop((ghost m ρ K c ∗ creds0 c ∗ levAts L lv ∗ ∃ f, (((c : Thread nD τ).loc cc0_scratch0) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it runs to. -/
def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

end Cert.KernelProof

end
-- ==== Proof.KernelLaunch.lean ====
/-
  The launch of the four devices: the exchange's ghost state funded and dealt (each device's own cells opened, the tokens of
  the duties a device pays handed to it from the cells' owners around the ring of devices), the credit each device is dealt
  at launch summed over the devices that owe it, and the region's run: every weakly fair execution terminates, faults
  nowhere, and each windowed array ends at what the write-backs leave.
-/
import proofs.«901067_g7700000000001068_dist_softmax_colshard_i_m512_n256_v7x_i4_f32_1_alg».proof.Proof.KernelProto

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens minted on them -/

theorem ownSemFacts : Pipeline.OwnSemFacts cfg0.spec osem := by decide

theorem share_eq (c : Dev nD) (w : Fin cfg0.W) : (dats m ρ 0 c).share w = fullShare := by unfold Dat.share; split <;> rfl

theorem csem_inj : ∀ k k' : Fin 7, csem k = csem k' → k = k' := by decide

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_inj k k' h2]
/-- The twenty-eight cells of the exchange: seven per device. -/
def xCells : Finset (GSem nD τ sig) := Finset.univ.map ⟨kcell, kcell_injective⟩

/-- The nine duties minted on a device's own cells: which cell, -/
abbrev ti : Fin 9 → Fin 7 := fun | 0 => 0 | 1 => 0 | 2 => 0 | 3 => 1 | 4 => 2 | 5 => 3 | 6 => 4 | 7 => 5 | 8 => 6
/-- and which duty of it: the barrier's three, one each of the send and receive cells. -/
abbrev td : Fin 9 → Fin 3 := fun | 0 => 0 | 1 => 1 | 2 => 2 | 3 => 0 | 4 => 0 | 5 => 0 | 6 => 0 | 7 => 0 | 8 => 0
theorem titd_inj : ∀ j j' : Fin 9, ti j = ti j' → td j = td j' → j = j' := by decide

abbrev tokOf (cj : Dev nD × Fin 9) : GSem nD τ sig × ℕ × Fin 3 := (kcell (cj.1, ti cj.2), 0, td cj.2)
theorem tokOf_injective : Function.Injective (tokOf : Dev nD × Fin 9 → GSem nD τ sig × ℕ × Fin 3) := by
  rintro ⟨c, j⟩ ⟨c', j'⟩ h
  have h1 : ((c, ti j) : Dev nD × Fin 7) = (c', ti j') := kcell_injective (congrArg (fun x : GSem nD τ sig × ℕ × Fin 3 => x.1) h)
  have h2 : td j = td j' := congrArg (fun x : GSem nD τ sig × ℕ × Fin 3 => x.2.2) h
  have h3 : c = c' := congrArg Prod.fst h1
  have h4 : ti j = ti j' := congrArg Prod.snd h1
  subst h3
  rw [titd_inj j j' h4 h2]
def xToks : Finset (GSem nD τ sig × ℕ × Fin 3) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 :=
  iprop(dutyTok ER (barCell c) 0 (0 : Fin 3) ∗ dutyTok ER (barCell c) 0 (1 : Fin 3) ∗ dutyTok ER (barCell c) 0 (2 : Fin 3)
    ∗ dutyTok ER (sendCell c 0) 0 (0 : Fin 3) ∗ dutyTok ER (sendCell c 1) 0 (0 : Fin 3) ∗ dutyTok ER (sendCell c 2) 0 (0 : Fin 3)
    ∗ dutyTok ER (recvCell c 0) 0 (0 : Fin 3) ∗ dutyTok ER (recvCell c 1) 0 (0 : Fin 3) ∗ dutyTok ER (recvCell c 2) 0 (0 : Fin 3))

/-- What the launch element deals device `c`: its seven cells' round states, positions and reached-facts, its nine tokens. -/
def G (c : Dev nD) : sProp 𝕄 :=
  iprop((bigSep Finset.univ fun k : Fin 7 => roundState ER (sched m ρ) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_x : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 7 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin9]; rfl
  iintro HX
  imod (Rounds.fund ER (sched m ρ) xCells xToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero and the cells' invariants -/

/-- The three send and the three receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

/-- Each of a device's seven cells opened: its counter at zero and its round state at round 0 under an invariant. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The persistent records every device reads: each cell's invariant at its name, each cell's round 0 reached. -/
def records (K : Dev nD × Fin 7 → ℕ) : sProp 𝕄 :=
  iprop((bigSep Finset.univ fun ck : Dev nD × Fin 7 => cellInv ER (sched m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) :
    (bigSep Finset.univ fun ck : Dev nD × Fin 7 => (cellInv ER (sched m ρ) (K ck) (kcell ck) : sProp 𝕄)) ⊢ cellInv ER (sched m ρ) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device `c`: its seven positions, and the tokens of the duties it pays. -/
def linear (c : Dev nD) : sProp 𝕄 := iprop(poss c ∗ payToks c)

theorem ghost_intro (K : Dev nD × Fin 7 → ℕ) (c : Dev nD) : iprop(records m ρ K ∗ linear c) ⊢ G' m ρ c := by
  unfold records linear G' ghost invs reaches
  iintro ⟨⟨#HI, #HR⟩, Hpos, Htok⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (c, 5)); iexact HI
    isplitr; · iapply (inv_at m ρ K (c, 6)); iexact HI
    isplitr; · iapply (inv_at m ρ K (pr c 1, 0)); iexact HI
    isplitr; · iapply (inv_at m ρ K (pr c 2, 0)); iexact HI
    isplitr; · iapply (inv_at m ρ K (pr c 3, 0)); iexact HI
    isplitr; · iapply (inv_at m ρ K (pr c 1, 4)); iexact HI
    isplitr; · iapply (inv_at m ρ K (pr c 2, 5)); iexact HI
    iapply (inv_at m ρ K (pr c 3, 6)); iexact HI
  isplitl [Hpos]; · iexact Hpos
  isplitr
  · isplitr; · iapply (reached_at (F := F) (pr c 1, 0)); iexact HR
    isplitr; · iapply (reached_at (F := F) (pr c 2, 0)); iexact HR
    isplitr; · iapply (reached_at (F := F) (pr c 3, 0)); iexact HR
    isplitr; · iapply (reached_at (F := F) (pr c 1, 4)); iexact HR
    isplitr; · iapply (reached_at (F := F) (pr c 2, 5)); iexact HR
    isplitr; · iapply (reached_at (F := F) (pr c 3, 6)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    iapply (reached_at (F := F) (c, 6)); iexact HR
  iexact Htok

/-! ## The tokens dealt around the ring of devices -/

/-- A product over the devices, read off at every device `c + k` instead. -/
theorem reidx (k : ℕ) (Φ : Dev nD → sProp 𝕄) : bigSep Finset.univ Φ = bigSep Finset.univ fun c : Dev nD => Φ (pr c k) :=
  bigSep_univ_equiv (shift k) Φ

/-- Duty `3 - k` of a barrier cell goes to the device `k` places below its owner, the duty of receive cell `k - 1` likewise;
    the send cells' duties stay with their owner. -/
theorem toks_around : (bigSep Finset.univ fun c : Dev nD => (toks c : sProp 𝕄)) ⊢ bigSep Finset.univ fun c : Dev nD => payToks c := by
  unfold toks payToks
  simp only [bigSep_sep']
  rw [reidx 3 (fun c : Dev nD => (dutyTok ER (barCell c) 0 (0 : Fin 3) : sProp 𝕄)),
    reidx 2 (fun c : Dev nD => (dutyTok ER (barCell c) 0 (1 : Fin 3) : sProp 𝕄)),
    reidx 1 (fun c : Dev nD => (dutyTok ER (barCell c) 0 (2 : Fin 3) : sProp 𝕄)),
    reidx 1 (fun c : Dev nD => (dutyTok ER (recvCell c 0) 0 (0 : Fin 3) : sProp 𝕄)),
    reidx 2 (fun c : Dev nD => (dutyTok ER (recvCell c 1) 0 (0 : Fin 3) : sProp 𝕄)),
    reidx 3 (fun c : Dev nD => (dutyTok ER (recvCell c 2) 0 (0 : Fin 3) : sProp 𝕄))]
  iintro ⟨B0, B1, B2, S0, S1, S2, R0, R1, R2⟩
  isplitl [B2]; · iexact B2
  isplitl [B1]; · iexact B1
  isplitl [B0]; · iexact B0
  isplitl [R0]; · iexact R0
  isplitl [R1]; · iexact R1
  isplitl [R2]; · iexact R2
  isplitl [S0]; · iexact S0
  isplitl [S1]; · iexact S1
  iexact S2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every device's opened cells, positions and tokens regrouped: the names gathered into one function, the records shared,
    the tokens dealt around. -/
theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (sched m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear poss; rw [bigSep_fin7])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {k : Fin 3} : Iff (recvCell a k = recvCell b k) (a = b) :=
  ⟨fun h => Fin.ext (congrArg (fun g : GSem nD τ sig => g.1.1.val) h), fun h => h ▸ rfl⟩

/-- `c` is `k` above `d` exactly when `d` is `j` above `c`, for `k + j` a multiple of four. -/
theorem pr_swap {d c : Dev nD} (k j : ℕ) (h : (k + j) % 4 = 0) : Iff (c = pr d k) (d = pr c j) := by
  have hd : d.val < 4 := d.isLt
  have hc : c.val < 4 := c.isLt
  constructor
  · intro e
    have e' : c.val = (d.val + k) % 4 := congrArg Fin.val e
    exact Fin.ext (by rw [pr_val]; omega)
  · intro e
    have e' : d.val = (c.val + j) % 4 := congrArg Fin.val e
    exact Fin.ext (by rw [pr_val]; omega)

theorem Oc_bar (d c : Dev nD) : Oc d (barCell c) () = 0 :=
  Nat.eq_zero_of_not_pos fun h => by
    rcases Oc_pos h with h | h | h <;> exact recv_ne_bar _ (congrArg Prod.snd h).symm

theorem tally_bar (d c : Dev nD) (k j : ℕ) (h : (k + j) % 4 = 0) :
    (tallyAt (barCell (pr d k)) () 1 : CellTallies nD τ sig Unit) (barCell c) () = if d = pr c j then 1 else 0 := by
  rw [tallyAt_apply]
  by_cases e : d = pr c j
  · rw [if_pos e, if_pos ⟨congrArg (fun x : Dev nD => barCell x) ((pr_swap k j h).mpr e), rfl⟩]
  · rw [if_neg e, if_neg fun h' => e ((pr_swap k j h).mp (bar_eq_iff.mp h'.1))]

/-- What device `d` owes device `c`'s barrier cell: one unit if it is one, two or three places above `c`. -/
theorem owed_bar (d c : Dev nD) :
    O₀ d (barCell c) () = (if d = pr c 1 then 1 else 0) + (if d = pr c 2 then 1 else 0) + (if d = pr c 3 then 1 else 0) := by
  unfold O₀ O₁ O₂
  rw [Pi.add_apply, Finsupp.add_apply, Pi.add_apply, Finsupp.add_apply, Pi.add_apply, Finsupp.add_apply, Oc_bar, Nat.zero_add,
    tally_bar d c 3 1 rfl, tally_bar d c 2 2 rfl, tally_bar d c 1 3 rfl]

theorem tally_recv_same (d c : Dev nD) (k : Fin 3) (a j : ℕ) (h : (a + j) % 4 = 0) :
    (tallyAt (recvCell (pr d a) k) () N : CellTallies nD τ sig Unit) (recvCell c k) () = if d = pr c j then N else 0 := by
  rw [tallyAt_apply]
  by_cases e : d = pr c j
  · rw [if_pos e, if_pos ⟨congrArg (fun x : Dev nD => recvCell x k) ((pr_swap a j h).mpr e), rfl⟩]
  · rw [if_neg e, if_neg fun h' => e ((pr_swap a j h).mp (recv_eq_iff.mp h'.1))]
theorem tally_recv_ne (d c : Dev nD) (k k' : Fin 3) (a : ℕ) (hk : k ≠ k') :
    (tallyAt (recvCell (pr d a) k') () N : CellTallies nD τ sig Unit) (recvCell c k) () = 0 := by
  rw [tallyAt_ne_cell fun h' => hk (recv_inj _ _ (congrArg Prod.snd h')), Finsupp.zero_apply]

theorem owed_recv_aux (d c : Dev nD) (k : Fin 3) :
    O₀ d (recvCell c k) () = (tallyAt (recvCell (pr d 3) 2) () N : CellTallies nD τ sig Unit) (recvCell c k) ()
      + (tallyAt (recvCell (pr d 2) 1) () N : CellTallies nD τ sig Unit) (recvCell c k) ()
      + (tallyAt (recvCell (pr d 1) 0) () N : CellTallies nD τ sig Unit) (recvCell c k) () := by
  unfold O₀ O₁ O₂ Oc
  rw [Pi.add_apply, Finsupp.add_apply, Pi.add_apply, Finsupp.add_apply, Pi.add_apply, Finsupp.add_apply, Pi.add_apply, Finsupp.add_apply,
    Pi.add_apply, Finsupp.add_apply,
    tallyAt_ne_cell (g := barCell (pr d 1)) (fun h => recv_ne_bar k (congrArg Prod.snd h)),
    tallyAt_ne_cell (g := barCell (pr d 2)) (fun h => recv_ne_bar k (congrArg Prod.snd h)),
    tallyAt_ne_cell (g := barCell (pr d 3)) (fun h => recv_ne_bar k (congrArg Prod.snd h)), Finsupp.zero_apply, Nat.add_zero, Nat.add_zero, Nat.add_zero]

/-- What device `d` owes receive cell `k` of device `c`: a copy's credit if it is `k + 1` below `c`, that is `3 - k` above. -/
theorem owed_recv0 (d c : Dev nD) : O₀ d (recvCell c 0) () = if d = pr c 3 then N else 0 := by
  rw [owed_recv_aux, tally_recv_ne d c 0 2 3 (by decide), tally_recv_ne d c 0 1 2 (by decide), tally_recv_same d c 0 1 3 rfl, Nat.zero_add]
theorem owed_recv1 (d c : Dev nD) : O₀ d (recvCell c 1) () = if d = pr c 2 then N else 0 := by
  rw [owed_recv_aux, tally_recv_ne d c 1 2 3 (by decide), tally_recv_same d c 1 2 2 rfl, tally_recv_ne d c 1 0 1 (by decide), Nat.zero_add, Nat.add_zero]
theorem owed_recv2 (d c : Dev nD) : O₀ d (recvCell c 2) () = if d = pr c 1 then N else 0 := by
  rw [owed_recv_aux, tally_recv_same d c 2 3 1 rfl, tally_recv_ne d c 2 1 2 (by decide), tally_recv_ne d c 2 0 1 (by decide), Nat.add_zero]

/-- The three other devices owe a barrier cell one unit each. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (pr c 1) fun _ => 1, Finset.sum_ite_eq' Finset.univ (pr c 2) fun _ => 1, Finset.sum_ite_eq' Finset.univ (pr c 3) fun _ => 1,
    if_pos (Finset.mem_univ _), if_pos (Finset.mem_univ _), if_pos (Finset.mem_univ _)]

/-- One device owes a receive cell one copy's credit. -/
theorem launch_recv_of (c : Dev nD) (k : Fin 3) (j : ℕ) (h : ∀ d, O₀ d (recvCell c k) () = if d = pr c j then N else 0) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (pr c j) fun _ => N,
    if_pos (Finset.mem_univ _)]

theorem creds (c : Dev nD) : (Pipeline.launchCred O₀ c : sProp 𝕄) ⊢ creds0 c := by
  unfold Pipeline.launchCred creds0
  refine (bigSep_subset (t := ([SemLoc.reg barS, .dma (recvS 0), .dma (recvS 1), .dma (recvS 2)] : List (SemLoc sig)).toFinset) (Finset.subset_univ _)).trans ?_
  rw [bigSep_eq_bigSepL _ (by decide), ← launch_bar c, ← launch_recv_of c 0 3 (fun d => owed_recv0 d c), ← launch_recv_of c 1 2 (fun d => owed_recv1 d c),
    ← launch_recv_of c 2 1 (fun d => owed_recv2 d c)]
  exact BI.Entails.refl _

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Hr, H1, H2, H3, H4, H5, H6⟩
  isplitr; · iempintro
  isplitl [H1 H2 H3 H4 H5 H6]
  · isplitl [H1]; · iexact H1
    isplitl [H2]; · iexact H2
    isplitl [H3]; · iexact H3
    isplitl [H4]; · iexact H4
    isplitl [H5]; · iexact H5
    iexact H6
  iexists (comm m ρ c); iexact Hr

/-- A staging semaphore is no receive semaphore, so the pipeline's waits sit below everything a device may owe. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Each windowed array of device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, given each device's body obligation: every weakly fair execution of the four devices
    terminates, nothing faults, and every final state has each windowed array at `finalA`. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelProof.run_main' depends on axioms: [propext, Classical.choice, Quot.sound] -/
#guard_msgs in #print axioms run_main

end Cert.KernelProof

end
-- ==== Proof.KernelFinal.lean ====
/-
  The final arrays read: the argument array is never written back, the result array is the one write-back of the point's
  result block over the whole array; so the run ends with each device's result at its block's value and its argument unchanged.
-/
import proofs.«901067_g7700000000001068_dist_softmax_colshard_i_m512_n256_v7x_i4_f32_1_alg».proof.Proof.KernelLaunch
import Idealize.ShloMosaic.Lib.Pipeline.Value

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The input block the region finds is the argument buffer itself (the one block is the whole array). -/
theorem xstg_eq (c : Dev nD) : xstg m ρ c = m ((c.tc : Thread nD τ).loc main_arg0) := by
  have hz : (fun a => win0_0.index (0 : Fin 1) a * win0_0.size a) = fun _ => 0 := funext fun a => Nat.zero_mul _
  exact Memref.read_access_unit_zero (Elt F) main_arg0 hz _ _

/-- The argument array after the run holds what it held. -/
theorem finalA_x (c : Dev nD) : finalA m ρ c (0 : Fin 2) = (s₀ m ρ).mem (win0_0.arr.view.loc (c : Thread nD τ)) :=
  (dats m ρ 0 c).arrAt_in (0 : Fin 2) rfl _

/-- The result array after the run holds the device's result block. -/
theorem finalA_out (c : Dev nD) : finalA m ρ c (1 : Fin 2) = outAt m ρ c := by
  have hz : (fun a => win0_1.index t₀ a * win0_1.size a) = fun _ => 0 := funext fun a => Nat.zero_mul _
  refine (congrArg ((dats m ρ 0 c).arrAt (1 : Fin 2)) cfg0_N).trans ?_
  refine ((dats m ρ 0 c).arrAt_succ (1 : Fin 2) t₀).trans ?_
  rw [flush0_1 t₀, if_pos rfl]
  exact Memref.write_access_unit_zero_univ (Elt F) main_v1 hz _ _ _

/-- The run with its values named: each device's result buffer ends at its result block, its argument buffer unchanged. -/
theorem run_values (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)) :=
  (θ_run defs _ _).mono (fun r h c => ⟨(h c (1 : Fin 2)).trans (finalA_out m ρ c), (h c (0 : Fin 2)).trans (finalA_x m ρ c)⟩)
    (run_main m ρ hbody)

end Cert.KernelProof

end
-- ==== Proof.KernelSlots.lean ====
/-
  The exchange buffer by slots and by shares. The buffer's elements are the disjoint union of the four slots' (rows 0 to 3 of
  the first axis); slot 0's full share is four quarter-shares (one kept, one lent to each copy); the whole buffer can be read
  at the kept quarter once the other three slots lend a quarter each. And the contents: the statistics stored into slot 0
  are the final contents there; what copy k + 1 of device c lands in slot k + 1 of device c + k + 1 is that device's final
  contents there (its slot k + 1 holds the statistics of device c).
-/
import proofs.«901067_g7700000000001068_dist_softmax_colshard_i_m512_n256_v7x_i4_f32_1_alg».proof.Proof.KernelProto
import Idealize.ShloMosaic.Lib.Pipeline.Value
import Idealize.ShloMosaic.Lib.ValueLayout

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The quarter of slot 0 (and, for the whole read, of every slot) the device keeps for itself. -/
abbrev q0 : PosShare TreeShare := fullShare.left.left

/-- What slots 1, 2, 3 keep back while a quarter of each is lent to the whole read. -/
def leftover (c : Dev nD) (f : Buf (Elt F) ((cM : Memref sig .tc .vmem S4x2x512 .f32).view.loc (c : Thread nD τ))) : sProp 𝕄 :=
  iprop(ptsR 0 c fullShare.left.right f ∗ ptsR 0 c fullShare.right f
    ∗ ptsR 1 c fullShare.left.right f ∗ ptsR 1 c fullShare.right f
    ∗ ptsR 2 c fullShare.left.right f ∗ ptsR 2 c fullShare.right f)

/-- In this model two-way entailment is equality. -/
private theorem eqOf {P Q : sProp 𝕄} (h : P ⊣⊢ Q) : P = Q := BI.equiv_iff.mp ⟨h.1, h.2⟩

/-- At any share the whole buffer is its four rows: the rows are pairwise disjoint and cover the index set. -/
private theorem whole_rows (c : Dev nD) (q : PosShare TreeShare) (f : Buf (Elt F) ((cM : Memref sig .tc .vmem S4x2x512 .f32).view.loc (c : Thread nD τ))) :
    ((((c : Thread nD τ).loc cc0_scratch0) ↦{q} f) : sProp 𝕄)
      = iprop(pts0 c q f ∗ ptsR 0 c q f ∗ ptsR 1 c q f ∗ ptsR 2 c q f) := by
  have hu : (Finset.univ : Finset (Idx ((c : Thread nD τ).loc cc0_scratch0))) = ((r0.set ∪ r1.set) ∪ r2.set) ∪ r3.set := union_rows.symm
  have h3 : Disjoint ((r0.set ∪ r1.set) ∪ r2.set) r3.set :=
    Finset.disjoint_union_left.mpr ⟨Finset.disjoint_union_left.mpr ⟨disj03, disj13⟩, disj23⟩
  have h2 : Disjoint (r0.set ∪ r1.set) r2.set := Finset.disjoint_union_left.mpr ⟨disj02, disj12⟩
  show pointsTo ((c : Thread nD τ).loc cc0_scratch0) Finset.univ q f
      = iprop(pointsTo ((c : Thread nD τ).loc cc0_scratch0) (slot0 : Memref sig .tc .vmem S2x512 .f32).view.set q f
        ∗ pointsTo ((c : Thread nD τ).loc cc0_scratch0) (slot1 : Memref sig .tc .vmem S2x512 .f32).view.set q f
        ∗ pointsTo ((c : Thread nD τ).loc cc0_scratch0) (slot2 : Memref sig .tc .vmem S2x512 .f32).view.set q f
        ∗ pointsTo ((c : Thread nD τ).loc cc0_scratch0) (slot3 : Memref sig .tc .vmem S2x512 .f32).view.set q f)
  rw [hu, slot0_set, slot1_set, slot2_set, slot3_set]
  rw [eqOf (pointsTo_union h3), eqOf (pointsTo_union h2), eqOf (pointsTo_union disj01), eqOf sep_assoc, eqOf sep_assoc]

theorem split_slots (c : Dev nD) (f : Buf (Elt F) ((cM : Memref sig .tc .vmem S4x2x512 .f32).view.loc (c : Thread nD τ))) :
    ((((c : Thread nD τ).loc cc0_scratch0) ↦{fullShare} f) : sProp 𝕄)
      ⊢ iprop(pts0 c fullShare f ∗ ptsR 0 c fullShare f ∗ ptsR 1 c fullShare f ∗ ptsR 2 c fullShare f) :=
  Entails.of_eq (whole_rows c fullShare f)

theorem join_slots (c : Dev nD) (f : Buf (Elt F) ((cM : Memref sig .tc .vmem S4x2x512 .f32).view.loc (c : Thread nD τ))) :
    iprop(pts0 c fullShare f ∗ ptsR 0 c fullShare f ∗ ptsR 1 c fullShare f ∗ ptsR 2 c fullShare f)
      ⊢ ((((c : Thread nD τ).loc cc0_scratch0) ↦{fullShare} f) : sProp 𝕄) :=
  Entails.of_eq (whole_rows c fullShare f).symm

/-- A full share is four quarters: each half of it halved again. -/
private theorem quarters {ℓ : Loc nD τ sig} (I : Finset (Idx ℓ)) (f : Buf (Elt F) ℓ) :
    ((ℓ ↦[I]{fullShare} f) : sProp 𝕄)
      = iprop((ℓ ↦[I]{q0} f) ∗ (ℓ ↦[I]{fullShare.left.right} f) ∗ (ℓ ↦[I]{fullShare.right.left} f) ∗ (ℓ ↦[I]{fullShare.right.right} f)) := by
  rw [eqOf (pointsTo_share (PosShare.mem_left_op_right fullShare)),
    eqOf (pointsTo_share (I := I) (f := f) (PosShare.mem_left_op_right fullShare.left)),
    eqOf (pointsTo_share (I := I) (f := f) (PosShare.mem_left_op_right fullShare.right)), eqOf sep_assoc]

/-- The same with the right half kept whole: a quarter, a quarter and a half. -/
private theorem thirds {ℓ : Loc nD τ sig} (I : Finset (Idx ℓ)) (f : Buf (Elt F) ℓ) :
    ((ℓ ↦[I]{fullShare} f) : sProp 𝕄)
      = iprop((ℓ ↦[I]{q0} f) ∗ (ℓ ↦[I]{fullShare.left.right} f) ∗ (ℓ ↦[I]{fullShare.right} f)) := by
  rw [eqOf (pointsTo_share (PosShare.mem_left_op_right fullShare)),
    eqOf (pointsTo_share (I := I) (f := f) (PosShare.mem_left_op_right fullShare.left)), eqOf sep_assoc]

theorem share_slot0 (c : Dev nD) (f : Buf (Elt F) ((cM : Memref sig .tc .vmem S4x2x512 .f32).view.loc (c : Thread nD τ))) :
    (pts0 c fullShare f : sProp 𝕄) ⊢ iprop(pts0 c q0 f ∗ pts0 c (shr 0) f ∗ pts0 c (shr 1) f ∗ pts0 c (shr 2) f) :=
  Entails.of_eq (quarters _ f)

theorem unshare_slot0 (c : Dev nD) (f : Buf (Elt F) ((cM : Memref sig .tc .vmem S4x2x512 .f32).view.loc (c : Thread nD τ))) :
    iprop(pts0 c q0 f ∗ pts0 c (shr 0) f ∗ pts0 c (shr 1) f ∗ pts0 c (shr 2) f) ⊢ (pts0 c fullShare f : sProp 𝕄) :=
  Entails.of_eq (quarters _ f).symm

theorem lend_whole (c : Dev nD) (f : Buf (Elt F) ((cM : Memref sig .tc .vmem S4x2x512 .f32).view.loc (c : Thread nD τ))) :
    iprop(pts0 c q0 f ∗ ptsR 0 c fullShare f ∗ ptsR 1 c fullShare f ∗ ptsR 2 c fullShare f)
      ⊢ iprop(((((c : Thread nD τ).loc cc0_scratch0) ↦{q0} f) : sProp 𝕄) ∗ leftover c f) := by
  have e0 : (ptsR 0 c fullShare f : sProp 𝕄) = iprop(ptsR 0 c q0 f ∗ ptsR 0 c fullShare.left.right f ∗ ptsR 0 c fullShare.right f) := thirds _ f
  have e1 : (ptsR 1 c fullShare f : sProp 𝕄) = iprop(ptsR 1 c q0 f ∗ ptsR 1 c fullShare.left.right f ∗ ptsR 1 c fullShare.right f) := thirds _ f
  have e2 : (ptsR 2 c fullShare f : sProp 𝕄) = iprop(ptsR 2 c q0 f ∗ ptsR 2 c fullShare.left.right f ∗ ptsR 2 c fullShare.right f) := thirds _ f
  rw [whole_rows c q0 f, e0, e1, e2]
  unfold leftover
  iintro ⟨A, ⟨B0, B1, B2⟩, ⟨C0, C1, C2⟩, D0, D1, D2⟩
  isplitl [A B0 C0 D0]
  · isplitl [A]; · iexact A
    isplitl [B0]; · iexact B0
    isplitl [C0]; · iexact C0
    iexact D0
  · isplitl [B1]; · iexact B1
    isplitl [B2]; · iexact B2
    isplitl [C1]; · iexact C1
    isplitl [C2]; · iexact C2
    isplitl [D1]; · iexact D1
    iexact D2

theorem unlend_whole (c : Dev nD) (f : Buf (Elt F) ((cM : Memref sig .tc .vmem S4x2x512 .f32).view.loc (c : Thread nD τ))) :
    iprop(((((c : Thread nD τ).loc cc0_scratch0) ↦{q0} f) : sProp 𝕄) ∗ leftover c f)
      ⊢ iprop(pts0 c q0 f ∗ ptsR 0 c fullShare f ∗ ptsR 1 c fullShare f ∗ ptsR 2 c fullShare f) := by
  have e0 : (ptsR 0 c fullShare f : sProp 𝕄) = iprop(ptsR 0 c q0 f ∗ ptsR 0 c fullShare.left.right f ∗ ptsR 0 c fullShare.right f) := thirds _ f
  have e1 : (ptsR 1 c fullShare f : sProp 𝕄) = iprop(ptsR 1 c q0 f ∗ ptsR 1 c fullShare.left.right f ∗ ptsR 1 c fullShare.right f) := thirds _ f
  have e2 : (ptsR 2 c fullShare f : sProp 𝕄) = iprop(ptsR 2 c q0 f ∗ ptsR 2 c fullShare.left.right f ∗ ptsR 2 c fullShare.right f) := thirds _ f
  rw [whole_rows c q0 f, e0, e1, e2]
  unfold leftover
  iintro ⟨⟨A, B0, C0, D0⟩, B1, B2, C1, C2, D1, D2⟩
  isplitl [A]; · iexact A
  isplitl [B0 B1 B2]
  · isplitl [B0]; · iexact B0
    isplitl [B1]; · iexact B1
    iexact B2
  isplitl [C0 C1 C2]
  · isplitl [C0]; · iexact C0
    isplitl [C1]; · iexact C1
    iexact C2
  · isplitl [D0]; · iexact D0
    isplitl [D1]; · iexact D1
    iexact D2

/-! ## Contents -/

theorem hz2 : (![0, 0] : Fin 2 → Nat) = fun _ => 0 := funext fun a => by fin_cases a <;> rfl
theorem hz3 : (![0, 0, 0] : Fin 3 → Nat) = fun _ => 0 := funext fun a => by fin_cases a <;> rfl

abbrev rX : Rect S512x256 := Rect.unit (s := S512x256) ![0, 0] S512x256.size inb_S512x256_S512x256_0_0
abbrev rW : Rect S4x2x512 := Rect.unit (s := S4x2x512) ![0, 0, 0] S4x2x512.size inb_S4x2x512_S4x2x512_0_0_0

/-- Reading a whole staging block reads its contents. -/
theorem read_x (f : (cc0_stg0_0 : Ref sig .tc).ty.Contents (Elt F)) :
    (xM : Memref sig .tc .vmem S512x256 .f32).view.readAt (Elt F) rX.toLoadRect f = f :=
  Memref.readAt_unit_zero (Elt F) cc0_stg0_0 hz2 _ f

/-- Storing a whole block into the result's staging buffer leaves the block. -/
theorem write_out (f w : (cc0_stg1_0 : Ref sig .tc).ty.Contents (Elt F)) :
    ((oM : Memref sig .tc .vmem S512x256 .f32).access rX : View sig .tc _ _ _).write (Elt F) f w Finset.univ = w :=
  Memref.write_access_unit_zero_univ (Elt F) cc0_stg1_0 hz2 _ f w

/-- Reading the whole exchange buffer reads its contents. -/
theorem read_comm (f : (cc0_scratch0 : Ref sig .tc).ty.Contents (Elt F)) :
    (cM : Memref sig .tc .vmem S4x2x512 .f32).view.readAt (Elt F) rW.toLoadRect f = f :=
  Memref.readAt_unit_zero (Elt F) cc0_scratch0 hz3 _ f

/-- Where row `K`'s squeezed slice puts its index `z`: at `(K, z 0, z 1)`. -/
private theorem slot_emb (K : ℕ) (hK : K < 4) (inb : ∀ a, (![K, 0, 0] : Fin 3 → Nat) a + S1x2x512.size a ≤ S4x2x512.size a)
    (z : S2x512.Idx) :
    ((((cM : Memref sig .tc .vmem S4x2x512 .f32).slice (Rect.unit (s := S4x2x512) ![K, 0, 0] S1x2x512.size inb) (fun _ => rfl)).squeeze S2x512
        squeezes_S1x2x512_S2x512).view.emb z : S4x2x512.Idx)
      = (ValueIdx.ix3 (⟨K, hK⟩ : Fin 4) (z 0 : Fin 2) (z 1 : Fin 512) : S4x2x512.Idx) := by
  have e : Shape.reshapeEquiv squeezes_S1x2x512_S2x512.numel_eq z = ValueIdx.ix3 (⟨0, Nat.one_pos⟩ : Fin 1) (z 0 : Fin 2) (z 1 : Fin 512) :=
    (congrArg (Shape.reshapeEquiv squeezes_S1x2x512_S2x512.numel_eq) (ValueIdx.eq_ix2 z)).trans
      (ValueIdx.reshapeEquiv_ix2_1ab squeezes_S1x2x512_S2x512.numel_eq (z 0 : Fin 2) (z 1 : Fin 512))
  show (Rect.unit (s := S4x2x512) ![K, 0, 0] S1x2x512.size inb).emb (Shape.reshapeEquiv squeezes_S1x2x512_S2x512.numel_eq z) = _
  rw [e]
  funext a
  match a with
  | ⟨0, _⟩ => exact Fin.ext (show K + 1 * 0 = K by omega)
  | ⟨1, _⟩ => exact Fin.ext (show 0 + 1 * (z 0).val = (z 0).val by omega)
  | ⟨2, _⟩ => exact Fin.ext (show 0 + 1 * (z 1).val = (z 1).val by omega)

/-- The statistics stored into slot 0 are the final contents there. -/
theorem stored_slot0 (c : Dev nD) (f0 : Buf (Elt F) ((cM : Memref sig .tc .vmem S4x2x512 .f32).view.loc (c : Thread nD τ))) :
    (pts0 c fullShare (((cM : Memref sig .tc .vmem S4x2x512 .f32).access r0 : View sig .tc _ _ _).write (Elt F) f0 (k0_pay3 (xstg m ρ c)) Finset.univ) : sProp 𝕄)
      = pts0 c fullShare (comm m ρ c) := by
  refine pointsTo_congr (fun i hi => ?_)
  rw [slot0_set] at hi
  have hi' : i ∈ ((cM : Memref sig .tc .vmem S4x2x512 .f32).access r0 : View sig .tc _ _ _).set := by
    rw [show ((cM : Memref sig .tc .vmem S4x2x512 .f32).access r0 : View sig .tc _ _ _).set = r0.set from View.set_slice_whole _ _]
    exact hi
  obtain ⟨y, rfl⟩ := View.exists_emb_of_mem_set _ hi'
  rw [View.write_emb_of_mem _ _ (Finset.mem_univ y)]
  have hy0 : (y 0).val < 1 := (y 0).isLt
  -- the element is (0, y 1, y 2), and y itself is (0, y 1, y 2) in the slice's own shape
  have he : (((cM : Memref sig .tc .vmem S4x2x512 .f32).access r0 : View sig .tc _ _ _).emb y : S4x2x512.Idx)
      = (ValueIdx.ix3 (⟨0, by decide⟩ : Fin 4) (y 1 : Fin 2) (y 2 : Fin 512) : S4x2x512.Idx) := by
    funext a
    match a with
    | ⟨0, _⟩ => exact Fin.ext (show 0 + 1 * (y 0).val = 0 by omega)
    | ⟨1, _⟩ => exact Fin.ext (show 0 + 1 * (y 1).val = (y 1).val by omega)
    | ⟨2, _⟩ => exact Fin.ext (show 0 + 1 * (y 2).val = (y 2).val by omega)
  have hy : (y : S1x2x512.Idx) = ValueIdx.ix3 (0 : Fin 1) (y 1 : Fin 2) (y 2 : Fin 512) := by
    funext a
    match a with
    | ⟨0, _⟩ => exact Fin.ext (show (y 0).val = 0 by omega)
    | ⟨1, _⟩ => rfl
    | ⟨2, _⟩ => rfl
  rw [he]
  show k0_pay3 (xstg m ρ c) y = k0_pay3 (xstg m ρ (pr c 4)) (ValueIdx.ix3 (0 : Fin 1) (y 1 : Fin 2) (y 2 : Fin 512))
  rw [pr_four]
  exact congrArg (k0_pay3 (xstg m ρ c)) hy

/-- What the copy into row `K` of device `c + K` writes there is that device's final contents there: both are the
    statistics of device `c`. -/
private theorem landed_row (K : ℕ) (hK : K < 4) (inb : ∀ a, (![K, 0, 0] : Fin 3 → Nat) a + S1x2x512.size a ≤ S4x2x512.size a)
    (c : Dev nD) (fd : (cc0_scratch0 : Ref sig .tc).ty.Contents (Elt F)) (i : S4x2x512.Idx)
    (hi : i ∈ (((cM : Memref sig .tc .vmem S4x2x512 .f32).slice (Rect.unit (s := S4x2x512) ![K, 0, 0] S1x2x512.size inb) (fun _ => rfl)).squeeze S2x512
        squeezes_S1x2x512_S2x512).view.set) :
    (((cM : Memref sig .tc .vmem S4x2x512 .f32).slice (Rect.unit (s := S4x2x512) ![K, 0, 0] S1x2x512.size inb) (fun _ => rfl)).squeeze S2x512
        squeezes_S1x2x512_S2x512).view.write (Elt F) fd ((slot0 : Memref sig .tc .vmem S2x512 .f32).view.read (Elt F) (comm m ρ c)) Finset.univ i
      = comm m ρ (pr c K) i := by
  obtain ⟨z, rfl⟩ := View.exists_emb_of_mem_set _ hi
  rw [View.write_emb_of_mem _ _ (Finset.mem_univ z)]
  have eK := slot_emb K hK inb z
  have e0 := slot_emb 0 (by decide) inb_S4x2x512_S1x2x512_0_0_0 z
  show comm m ρ c ((slot0 : Memref sig .tc .vmem S2x512 .f32).view.emb z)
    = comm m ρ (pr c K) ((((cM : Memref sig .tc .vmem S4x2x512 .f32).slice (Rect.unit (s := S4x2x512) ![K, 0, 0] S1x2x512.size inb) (fun _ => rfl)).squeeze S2x512
        squeezes_S1x2x512_S2x512).view.emb z)
  rw [eK, e0]
  show k0_pay3 (xstg m ρ (pr c 4)) (ValueIdx.ix3 (0 : Fin 1) (z 0 : Fin 2) (z 1 : Fin 512))
    = k0_pay3 (xstg m ρ (pr (pr c K) (4 - K))) (ValueIdx.ix3 (0 : Fin 1) (z 0 : Fin 2) (z 1 : Fin 512))
  have h4 : K + (4 - K) = 4 := by omega
  rw [pr_pr, h4]

/-- What copy 1 of device `c` lands in slot 1 of device `c + 1` is that device's final contents there; -/
theorem landed1 (c : Dev nD) (fd : Buf (Elt F) ((slot1 : Memref sig .tc .vmem S2x512 .f32).view.loc (pr c 1 : Thread nD τ))) :
    (((slot1 : Memref sig .tc .vmem S2x512 .f32).view.loc (pr c 1 : Thread nD τ)
        ↦[(slot1 : Memref sig .tc .vmem S2x512 .f32).view.set]{fullShare}
          ((slot1 : Memref sig .tc .vmem S2x512 .f32).view.write (Elt F) fd ((slot0 : Memref sig .tc .vmem S2x512 .f32).view.read (Elt F) (comm m ρ c)) Finset.univ)) : sProp 𝕄)
      = recvPay m ρ (pr c 1) 0 :=
  pointsTo_congr (fun i hi => landed_row m ρ 1 (by decide) inb_S4x2x512_S1x2x512_1_0_0 c fd i hi)

/-- copy 2, slot 2 of device `c + 2`; -/
theorem landed2 (c : Dev nD) (fd : Buf (Elt F) ((slot2 : Memref sig .tc .vmem S2x512 .f32).view.loc (pr c 2 : Thread nD τ))) :
    (((slot2 : Memref sig .tc .vmem S2x512 .f32).view.loc (pr c 2 : Thread nD τ)
        ↦[(slot2 : Memref sig .tc .vmem S2x512 .f32).view.set]{fullShare}
          ((slot2 : Memref sig .tc .vmem S2x512 .f32).view.write (Elt F) fd ((slot0 : Memref sig .tc .vmem S2x512 .f32).view.read (Elt F) (comm m ρ c)) Finset.univ)) : sProp 𝕄)
      = recvPay m ρ (pr c 2) 1 :=
  pointsTo_congr (fun i hi => landed_row m ρ 2 (by decide) inb_S4x2x512_S1x2x512_2_0_0 c fd i hi)

/-- copy 3, slot 3 of device `c + 3`. -/
theorem landed3 (c : Dev nD) (fd : Buf (Elt F) ((slot3 : Memref sig .tc .vmem S2x512 .f32).view.loc (pr c 3 : Thread nD τ))) :
    (((slot3 : Memref sig .tc .vmem S2x512 .f32).view.loc (pr c 3 : Thread nD τ)
        ↦[(slot3 : Memref sig .tc .vmem S2x512 .f32).view.set]{fullShare}
          ((slot3 : Memref sig .tc .vmem S2x512 .f32).view.write (Elt F) fd ((slot0 : Memref sig .tc .vmem S2x512 .f32).view.read (Elt F) (comm m ρ c)) Finset.univ)) : sProp 𝕄)
      = recvPay m ρ (pr c 3) 2 :=
  pointsTo_congr (fun i hi => landed_row m ρ 3 (by decide) inb_S4x2x512_S1x2x512_3_0_0 c fd i hi)

end Cert.KernelProof

end
-- ==== Proof.KernelBody.lean ====
/-
  One device's body, stepped from the protocol's invariant: the three barrier units paid with the three slots the other
  devices will write, the statistics stored, the barrier waited for the three slots to write, the three copies sent, the
  three landings awaited, the whole buffer read, the result stored, the lent shares of slot 0 taken back.
-/
import proofs.«901067_g7700000000001068_dist_softmax_colshard_i_m512_n256_v7x_i4_f32_1_alg».proof.Proof.KernelProto
import proofs.«901067_g7700000000001068_dist_softmax_colshard_i_m512_n256_v7x_i4_f32_1_alg».proof.Proof.KernelSlots

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 7 → ℕ)

/-- What the signal to device c + 1 hands over, seen from the payer: its own slot 3 and receive cell 2. -/
theorem barPay_to1 (c : Dev nD) : barPay (F := F) (pr c 1) 2 = iprop((∃ f, ptsR 2 c fullShare f) ∗ reached ER (recvCell c 2) 0) := by
  have h : pr (pr c 1) 3 = c := by rw [pr_pr, pr_four]
  show iprop((∃ f, ptsR 2 (pr (pr c 1) 3) fullShare f) ∗ reached ER (recvCell (pr (pr c 1) 3) 2) 0) = _
  rw [h]
theorem barPay_to2 (c : Dev nD) : barPay (F := F) (pr c 2) 1 = iprop((∃ f, ptsR 1 c fullShare f) ∗ reached ER (recvCell c 1) 0) := by
  have h : pr (pr c 2) 2 = c := by rw [pr_pr, pr_four]
  show iprop((∃ f, ptsR 1 (pr (pr c 2) 2) fullShare f) ∗ reached ER (recvCell (pr (pr c 2) 2) 1) 0) = _
  rw [h]
theorem barPay_to3 (c : Dev nD) : barPay (F := F) (pr c 3) 0 = iprop((∃ f, ptsR 0 c fullShare f) ∗ reached ER (recvCell c 0) 0) := by
  have h : pr (pr c 3) 1 = c := by rw [pr_pr, pr_four]
  show iprop((∃ f, ptsR 0 (pr (pr c 3) 1) fullShare f) ∗ reached ER (recvCell (pr (pr c 3) 1) 0) 0) = _
  rw [h]

/-- Copy 1: from slot 0 (the share lent to it) into slot 1 of device `n = c + 1` (substituted, not rewritten). -/
theorem wp_send1 (c n : Dev nD) (hn : n = pr c 1)
    {hsc : (slot1 : Memref sig (Dev.tc n : Thread nD τ).2.kind .vmem S2x512 .f32).view.ref.isScScratch = false}
    {hsrc : (slot0 : Memref sig .tc .vmem S2x512 .f32).view.WordExact} {hdst : (slot1 : Memref sig .tc .vmem S2x512 .f32).view.WordExact}
    {hsem : DmaTarget.Typed .vmem (.dma (recvS 0)) (.remote (Dev.tc n : Thread nD τ) (slot1 : Memref sig .tc .vmem S2x512 .f32) (.dma (sendS 0)) hsc)}
    {α : Type} {Q : α → sProp 𝕄} {k : PUnit → Prog (TpuEff nD τ sig (Elt F) Λ₀ .tc) α}
    (fn : Buf (Elt F) ((slot1 : Memref sig .tc .vmem S2x512 .f32).view.loc (pr c 1 : Thread nD τ)))
    (O₀' O : CellTallies nD τ sig Unit) (hO : O₀' = O + tallyAt (recvCell (pr c 1) 0) () N) (W : Waits sig Unit) :
    iprop(cellInv ER (sched m ρ) (K (c, 1)) (sendCell c 0) ∗ cellInv ER (sched m ρ) (K (pr c 1, 4)) (recvCell (pr c 1) 0)
        ∗ pts0 c (shr 0) (comm m ρ c) ∗ ptsR 0 (pr c 1) fullShare fn
        ∗ owes (c : Thread nD τ) O₀' W
        ∗ dutyTok ER (sendCell c 0) 0 (0 : Fin 3) ∗ reached ER (sendCell c 0) 0
        ∗ dutyTok ER (recvCell (pr c 1) 0) 0 (0 : Fin 3) ∗ reached ER (recvCell (pr c 1) 0) 0)
      ⊢ iprop(((cred (tallyAt (sendCell c 0) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot1 (.dma (sendS 0)) hsc) (.dma (recvS 0)) hsrc hdst hsem) k) Q) := by
  subst hn
  exact Rounds.wp_send_pointsTo 𝒱₀ ER (sched m ρ) (c : Thread nD τ) none (κ₁ := K (c, 1)) (κ₂ := K (pr c 1, 4))
    (r₁ := 0) (r₂ := 0) (d₁ := (0 : Fin 3)) (d₂ := (0 : Fin 3)) (fd := fn)
    (by rw [duties_send]; exact Finset.mem_singleton_self _) (by rw [duties_recv]; exact Finset.mem_singleton_self _)
    () () N rfl (amount_send m ρ c 0 0) (amount_recv m ρ (pr c 1) 0 0) O hO (W := W)
    (by rw [payload_send]; exact BI.Entails.refl _)
    (by rw [payload_recv]; exact Entails.of_eq (landed1 m ρ c fn))

/-- Copy 2: from slot 0 (the share lent to it) into slot 2 of device `n = c + 2` (substituted, not rewritten). -/
theorem wp_send2 (c n : Dev nD) (hn : n = pr c 2)
    {hsc : (slot2 : Memref sig (Dev.tc n : Thread nD τ).2.kind .vmem S2x512 .f32).view.ref.isScScratch = false}
    {hsrc : (slot0 : Memref sig .tc .vmem S2x512 .f32).view.WordExact} {hdst : (slot2 : Memref sig .tc .vmem S2x512 .f32).view.WordExact}
    {hsem : DmaTarget.Typed .vmem (.dma (recvS 1)) (.remote (Dev.tc n : Thread nD τ) (slot2 : Memref sig .tc .vmem S2x512 .f32) (.dma (sendS 1)) hsc)}
    {α : Type} {Q : α → sProp 𝕄} {k : PUnit → Prog (TpuEff nD τ sig (Elt F) Λ₀ .tc) α}
    (fn : Buf (Elt F) ((slot2 : Memref sig .tc .vmem S2x512 .f32).view.loc (pr c 2 : Thread nD τ)))
    (O₀' O : CellTallies nD τ sig Unit) (hO : O₀' = O + tallyAt (recvCell (pr c 2) 1) () N) (W : Waits sig Unit) :
    iprop(cellInv ER (sched m ρ) (K (c, 2)) (sendCell c 1) ∗ cellInv ER (sched m ρ) (K (pr c 2, 5)) (recvCell (pr c 2) 1)
        ∗ pts0 c (shr 1) (comm m ρ c) ∗ ptsR 1 (pr c 2) fullShare fn
        ∗ owes (c : Thread nD τ) O₀' W
        ∗ dutyTok ER (sendCell c 1) 0 (0 : Fin 3) ∗ reached ER (sendCell c 1) 0
        ∗ dutyTok ER (recvCell (pr c 2) 1) 0 (0 : Fin 3) ∗ reached ER (recvCell (pr c 2) 1) 0)
      ⊢ iprop(((cred (tallyAt (sendCell c 1) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot2 (.dma (sendS 1)) hsc) (.dma (recvS 1)) hsrc hdst hsem) k) Q) := by
  subst hn
  exact Rounds.wp_send_pointsTo 𝒱₀ ER (sched m ρ) (c : Thread nD τ) none (κ₁ := K (c, 2)) (κ₂ := K (pr c 2, 5))
    (r₁ := 0) (r₂ := 0) (d₁ := (0 : Fin 3)) (d₂ := (0 : Fin 3)) (fd := fn)
    (by rw [duties_send]; exact Finset.mem_singleton_self _) (by rw [duties_recv]; exact Finset.mem_singleton_self _)
    () () N rfl (amount_send m ρ c 1 0) (amount_recv m ρ (pr c 2) 1 0) O hO (W := W)
    (by rw [payload_send]; exact BI.Entails.refl _)
    (by rw [payload_recv]; exact Entails.of_eq (landed2 m ρ c fn))

/-- Copy 3: from slot 0 (the share lent to it) into slot 3 of device `n = c + 3` (substituted, not rewritten). -/
theorem wp_send3 (c n : Dev nD) (hn : n = pr c 3)
    {hsc : (slot3 : Memref sig (Dev.tc n : Thread nD τ).2.kind .vmem S2x512 .f32).view.ref.isScScratch = false}
    {hsrc : (slot0 : Memref sig .tc .vmem S2x512 .f32).view.WordExact} {hdst : (slot3 : Memref sig .tc .vmem S2x512 .f32).view.WordExact}
    {hsem : DmaTarget.Typed .vmem (.dma (recvS 2)) (.remote (Dev.tc n : Thread nD τ) (slot3 : Memref sig .tc .vmem S2x512 .f32) (.dma (sendS 2)) hsc)}
    {α : Type} {Q : α → sProp 𝕄} {k : PUnit → Prog (TpuEff nD τ sig (Elt F) Λ₀ .tc) α}
    (fn : Buf (Elt F) ((slot3 : Memref sig .tc .vmem S2x512 .f32).view.loc (pr c 3 : Thread nD τ)))
    (O₀' O : CellTallies nD τ sig Unit) (hO : O₀' = O + tallyAt (recvCell (pr c 3) 2) () N) (W : Waits sig Unit) :
    iprop(cellInv ER (sched m ρ) (K (c, 3)) (sendCell c 2) ∗ cellInv ER (sched m ρ) (K (pr c 3, 6)) (recvCell (pr c 3) 2)
        ∗ pts0 c (shr 2) (comm m ρ c) ∗ ptsR 2 (pr c 3) fullShare fn
        ∗ owes (c : Thread nD τ) O₀' W
        ∗ dutyTok ER (sendCell c 2) 0 (0 : Fin 3) ∗ reached ER (sendCell c 2) 0
        ∗ dutyTok ER (recvCell (pr c 3) 2) 0 (0 : Fin 3) ∗ reached ER (recvCell (pr c 3) 2) 0)
      ⊢ iprop(((cred (tallyAt (sendCell c 2) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot3 (.dma (sendS 2)) hsc) (.dma (recvS 2)) hsrc hdst hsem) k) Q) := by
  subst hn
  exact Rounds.wp_send_pointsTo 𝒱₀ ER (sched m ρ) (c : Thread nD τ) none (κ₁ := K (c, 3)) (κ₂ := K (pr c 3, 6))
    (r₁ := 0) (r₂ := 0) (d₁ := (0 : Fin 3)) (d₂ := (0 : Fin 3)) (fd := fn)
    (by rw [duties_send]; exact Finset.mem_singleton_self _) (by rw [duties_recv]; exact Finset.mem_singleton_self _)
    () () N rfl (amount_send m ρ c 2 0) (amount_recv m ρ (pr c 3) 2 0) O hO (W := W)
    (by rw [payload_send]; exact BI.Entails.refl _)
    (by rw [payload_recv]; exact Entails.of_eq (landed3 m ρ c fn))

set_option maxHeartbeats 3200000 in
set_option maxRecDepth 65536 in
/-- The body, one rule per effect in program order, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre ghost invs poss reaches payToks creds0
  iintro ⟨⟨⟨⟨⟨#HIb, #HIs0, #HIs1, #HIs2, #HIr0, #HIr1, #HIr2, #HIb1, #HIb2, #HIb3, #HIq1, #HIq2, #HIq3⟩,
        ⟨HaB, HaS0, HaS1, HaS2, HaR0, HaR1, HaR2⟩,
        ⟨#HrB1, #HrB2, #HrB3, #HrQ1, #HrQ2, #HrQ3, #HrS0, #HrS1, #HrS2, #HrR0, #HrR1, #HrR2⟩,
        ⟨HtB1, HtB2, HtB3, HtQ1, HtQ2, HtQ3, HtS0, HtS1, HtS2⟩⟩,
      ⟨HcB, HcR0, HcR1, HcR2⟩, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c, dev3_eq c]
  -- the buffer by slots: slots 1, 2, 3 go to the three other devices with the three signals
  ihave Hsl := (split_slots c f0) $$ Hscr
  icases Hsl with ⟨Hs0, Hs1, Hs2, Hs3⟩
  -- the signal to device c + 1: duty 2 of its barrier cell, with slot 3 and receive cell 2 at round 0
  unfold O₀
  iapply (Rounds.wp_signal 𝒱₀ ER (sched m ρ) (c : Thread nD τ) none (dst := (pr c 1 : Thread nD τ)) (κ := K (pr c 1, 0))
      (d := (2 : Fin 3)) (by rw [duties_bar]; exact Finset.mem_univ _) ((amount_bar m ρ (pr c 1) 2).trans (by decide)) () (O₁ c) rfl)
    $$ [HO HtB1 Hs3]
  · isplitr; · iexact HIb1
    isplitl [HO]; · iexact HO
    isplitl [HtB1]; · iexact HtB1
    isplitl [Hs3]
    · rw [payload_bar, barPay_to1]
      isplitl [Hs3]; · iexists f0; iexact Hs3
      iexact HrR2
    · iexact HrB1
  iintro HO
  -- to device c + 2: duty 1, slot 2, receive cell 1
  unfold O₁
  iapply (Rounds.wp_signal 𝒱₀ ER (sched m ρ) (c : Thread nD τ) none (dst := (pr c 2 : Thread nD τ)) (κ := K (pr c 2, 0))
      (d := (1 : Fin 3)) (by rw [duties_bar]; exact Finset.mem_univ _) ((amount_bar m ρ (pr c 2) 1).trans (by decide)) () (O₂ c) rfl)
    $$ [HO HtB2 Hs2]
  · isplitr; · iexact HIb2
    isplitl [HO]; · iexact HO
    isplitl [HtB2]; · iexact HtB2
    isplitl [Hs2]
    · rw [payload_bar, barPay_to2]
      isplitl [Hs2]; · iexists f0; iexact Hs2
      iexact HrR1
    · iexact HrB2
  iintro HO
  -- to device c + 3: duty 0, slot 1, receive cell 0
  unfold O₂
  iapply (Rounds.wp_signal 𝒱₀ ER (sched m ρ) (c : Thread nD τ) none (dst := (pr c 3 : Thread nD τ)) (κ := K (pr c 3, 0))
      (d := (0 : Fin 3)) (by rw [duties_bar]; exact Finset.mem_univ _) ((amount_bar m ρ (pr c 3) 0).trans (by decide)) () (Oc c) rfl)
    $$ [HO HtB3 Hs1]
  · isplitr; · iexact HIb3
    isplitl [HO]; · iexact HO
    isplitl [HtB3]; · iexact HtB3
    isplitl [Hs1]
    · rw [payload_bar, barPay_to3]
      isplitl [Hs1]; · iexists f0; iexact Hs1
      iexact HrR0
    · iexact HrB3
  iintro HO
  -- the input block read; slot 0 read (the value is not used) and the statistics stored there
  iapply (wp_load 𝒱₀ (c : Thread nD τ) none Set.univ (m := xM) (Finset.subset_univ _)) $$ Hx; iintro Hx
  rw [read_x]
  iapply (wp_load_rect 𝒱₀ (c : Thread nD τ) none Set.univ (m := cM) (r := r0)
      (by rw [slot0_set]; exact (View.set_slice_whole cc0_scratch0 r0).le)) $$ Hs0; iintro Hs0
  iapply (wp_store 𝒱₀ (c : Thread nD τ) none Set.univ (m := cM) (r := r0) (Mk := Finset.univ)
      (by rw [View.setOn_univ, slot0_set]; exact (View.set_slice_whole cc0_scratch0 r0).le)) $$ Hs0; iintro Hs0
  ihave Hs0 := (Entails.of_eq (stored_slot0 m ρ c f0)) $$ Hs0
  ihave Hsh := (share_slot0 c (comm m ρ c)) $$ Hs0
  icases Hsh with ⟨Hs0, Hl0, Hl1, Hl2⟩
  -- the wait for three units on the own barrier cell, owing the three copies' credits: the three slots to write come with it
  iapply (Rounds.wp_wait_rest_token 𝒱₀ ER (sched m ρ) (c : Thread nD τ) none (κ := K (c, 0))
      (wpE_semWait_eq 𝒱₀ (c : Thread nD τ) none Set.univ) (Set.mem_univ _) () (O := Oc c) (R := 0) (m := 0) (T := ∅)
      (by rw [expect_bar]; decide)) $$ [HcB HO HaB]
  · isplitr; · iexact HIb
    isplitl [HcB]; · iexact HcB
    isplitl [HO]; · iexact HO
    isplitr; · iapply (mayWait_bar c); iexact Hlev
    iexact HaB
  iintro ⟨HO, HaB, -, Hpay⟩
  ihave Hp := (Entails.of_eq (rest_bar m ρ c)) $$ Hpay
  unfold barPay
  icases Hp with ⟨⟨⟨%fn1, Hn1⟩, -⟩, ⟨⟨%fn2, Hn2⟩, -⟩, ⟨%fn3, Hn3⟩, -⟩
  -- the three copies
  unfold Oc
  iapply (wp_send1 m ρ K c _ (dev4_eq c) fn1 _ (tallyAt (recvCell (pr c 3) 2) () N + tallyAt (recvCell (pr c 2) 1) () N) rfl _) $$ [Hl0 Hn1 HO HtS0 HtQ1]
  · isplitr; · iexact HIs0
    isplitr; · iexact HIq1
    isplitl [Hl0]; · iexact Hl0
    isplitl [Hn1]; · iexact Hn1
    isplitl [HO]; · iexact HO
    isplitl [HtS0]; · iexact HtS0
    isplitr; · iexact HrS0
    isplitl [HtQ1]; · iexact HtQ1
    iexact HrQ1
  iintro ⟨HcS0, HO⟩
  iapply (wp_send2 m ρ K c _ (dev5_eq c) fn2 _ (tallyAt (recvCell (pr c 3) 2) () N) rfl _) $$ [Hl1 Hn2 HO HtS1 HtQ2]
  · isplitr; · iexact HIs1
    isplitr; · iexact HIq2
    isplitl [Hl1]; · iexact Hl1
    isplitl [Hn2]; · iexact Hn2
    isplitl [HO]; · iexact HO
    isplitl [HtS1]; · iexact HtS1
    isplitr; · iexact HrS1
    isplitl [HtQ2]; · iexact HtQ2
    iexact HrQ2
  iintro ⟨HcS1, HO⟩
  iapply (wp_send3 m ρ K c _ (dev6_eq c) fn3 _ 0 (by rw [zero_add]) _) $$ [Hl2 Hn3 HO HtS2 HtQ3]
  · isplitr; · iexact HIs2
    isplitr; · iexact HIq3
    isplitl [Hl2]; · iexact Hl2
    isplitl [Hn3]; · iexact Hn3
    isplitl [HO]; · iexact HO
    isplitl [HtS2]; · iexact HtS2
    isplitr; · iexact HrS2
    isplitl [HtQ3]; · iexact HtQ3
    iexact HrQ3
  iintro ⟨HcS2, HO⟩
  -- the wait on receive cell 0: slot 1 at its final contents
  iapply (Rounds.wp_wait_rest_token 𝒱₀ ER (sched m ρ) (c : Thread nD τ) none (κ := K (c, 4))
      (wpE_waitDma2_eq 𝒱₀ (c : Thread nD τ) none Set.univ) (Set.mem_univ _) () (O := 0) (R := 0) (m := 0) (T := ∅)
      (by rw [Nat.zero_add]; exact (expect_recv m ρ c 0).symm)) $$ [HcR0 HO HaR0]
  · isplitr; · iexact HIr0
    isplitl [HcR0]; · iexact HcR0
    isplitl [HO]; · iexact HO
    isplitr; · rw [MayWait_zero]; iempintro
    iexact HaR0
  iintro ⟨HO, HaR0, -, Hpay⟩
  ihave Hd1 := (Entails.of_eq (rest_recv m ρ c 0)) $$ Hpay
  unfold recvPay
  -- the wait on receive cell 1: slot 2 at its final contents
  iapply (Rounds.wp_wait_rest_token 𝒱₀ ER (sched m ρ) (c : Thread nD τ) none (κ := K (c, 5))
      (wpE_waitDma2_eq 𝒱₀ (c : Thread nD τ) none Set.univ) (Set.mem_univ _) () (O := 0) (R := 0) (m := 0) (T := ∅)
      (by rw [Nat.zero_add]; exact (expect_recv m ρ c 1).symm)) $$ [HcR1 HO HaR1]
  · isplitr; · iexact HIr1
    isplitl [HcR1]; · iexact HcR1
    isplitl [HO]; · iexact HO
    isplitr; · rw [MayWait_zero]; iempintro
    iexact HaR1
  iintro ⟨HO, HaR1, -, Hpay⟩
  ihave Hd2 := (Entails.of_eq (rest_recv m ρ c 1)) $$ Hpay
  unfold recvPay
  -- the wait on receive cell 2: slot 3 at its final contents
  iapply (Rounds.wp_wait_rest_token 𝒱₀ ER (sched m ρ) (c : Thread nD τ) none (κ := K (c, 6))
      (wpE_waitDma2_eq 𝒱₀ (c : Thread nD τ) none Set.univ) (Set.mem_univ _) () (O := 0) (R := 0) (m := 0) (T := ∅)
      (by rw [Nat.zero_add]; exact (expect_recv m ρ c 2).symm)) $$ [HcR2 HO HaR2]
  · isplitr; · iexact HIr2
    isplitl [HcR2]; · iexact HcR2
    isplitl [HO]; · iexact HO
    isplitr; · rw [MayWait_zero]; iempintro
    iexact HaR2
  iintro ⟨HO, HaR2, -, Hpay⟩
  ihave Hd3 := (Entails.of_eq (rest_recv m ρ c 2)) $$ Hpay
  unfold recvPay
  -- the whole buffer read at the kept quarter of every slot
  ihave Hw := (lend_whole c (comm m ρ c)) $$ [Hs0 Hd1 Hd2 Hd3]
  · isplitl [Hs0]; · iexact Hs0
    isplitl [Hd1]; · iexact Hd1
    isplitl [Hd2]; · iexact Hd2
    iexact Hd3
  icases Hw with ⟨Hw, Hlo⟩
  iapply (wp_load 𝒱₀ (c : Thread nD τ) none Set.univ (m := cM) (Finset.subset_univ _)) $$ Hw; iintro Hw
  rw [read_comm]
  ihave Hb := (unlend_whole c (comm m ρ c)) $$ [Hw Hlo]
  · isplitl [Hw]; · iexact Hw
    iexact Hlo
  icases Hb with ⟨Hs0, Hd1, Hd2, Hd3⟩
  -- the result block stored
  iapply (wp_load 𝒱₀ (c : Thread nD τ) none Set.univ (m := oM) (Finset.subset_univ _)) $$ Hout; iintro Hout
  iapply (wp_store 𝒱₀ (c : Thread nD τ) none Set.univ (m := oM) (r := rX) (Mk := Finset.univ) (Finset.subset_univ _)) $$ Hout; iintro Hout
  rw [write_out]
  -- the wait on send cell 0: the share of slot 0 lent to copy 1 comes back
  iapply (Rounds.wp_wait_rest_token 𝒱₀ ER (sched m ρ) (c : Thread nD τ) none (κ := K (c, 1))
      (wpE_waitDma2_eq 𝒱₀ (c : Thread nD τ) none Set.univ) (Set.mem_univ _) () (O := 0) (R := 0) (m := 0) (T := ∅)
      (by rw [Nat.zero_add]; exact (expect_send m ρ c 0).symm)) $$ [HcS0 HO HaS0]
  · isplitr; · iexact HIs0
    isplitl [HcS0]; · iexact HcS0
    isplitl [HO]; · iexact HO
    isplitr; · rw [MayWait_zero]; iempintro
    iexact HaS0
  iintro ⟨HO, HaS0, -, Hpay⟩
  ihave Hl0 := (Entails.of_eq (rest_send m ρ c 0)) $$ Hpay
  unfold sendPay
  -- the wait on send cell 1: the share of slot 0 lent to copy 2 comes back
  iapply (Rounds.wp_wait_rest_token 𝒱₀ ER (sched m ρ) (c : Thread nD τ) none (κ := K (c, 2))
      (wpE_waitDma2_eq 𝒱₀ (c : Thread nD τ) none Set.univ) (Set.mem_univ _) () (O := 0) (R := 0) (m := 0) (T := ∅)
      (by rw [Nat.zero_add]; exact (expect_send m ρ c 1).symm)) $$ [HcS1 HO HaS1]
  · isplitr; · iexact HIs1
    isplitl [HcS1]; · iexact HcS1
    isplitl [HO]; · iexact HO
    isplitr; · rw [MayWait_zero]; iempintro
    iexact HaS1
  iintro ⟨HO, HaS1, -, Hpay⟩
  ihave Hl1 := (Entails.of_eq (rest_send m ρ c 1)) $$ Hpay
  unfold sendPay
  -- the wait on send cell 2: the share of slot 0 lent to copy 3 comes back
  iapply (Rounds.wp_wait_rest_token 𝒱₀ ER (sched m ρ) (c : Thread nD τ) none (κ := K (c, 3))
      (wpE_waitDma2_eq 𝒱₀ (c : Thread nD τ) none Set.univ) (Set.mem_univ _) () (O := 0) (R := 0) (m := 0) (T := ∅)
      (by rw [Nat.zero_add]; exact (expect_send m ρ c 2).symm)) $$ [HcS2 HO HaS2]
  · isplitr; · iexact HIs2
    isplitl [HcS2]; · iexact HcS2
    isplitl [HO]; · iexact HO
    isplitr; · rw [MayWait_zero]; iempintro
    iexact HaS2
  iintro ⟨HO, HaS2, -, Hpay⟩
  ihave Hl2 := (Entails.of_eq (rest_send m ρ c 2)) $$ Hpay
  unfold sendPay
  -- slot 0 whole again, then the buffer
  ihave Hs0 := (unshare_slot0 c (comm m ρ c)) $$ [Hs0 Hl0 Hl1 Hl2]
  · isplitl [Hs0]; · iexact Hs0
    isplitl [Hl0]; · iexact Hl0
    isplitl [Hl1]; · iexact Hl1
    iexact Hl2
  ihave Hscr := (join_slots c (comm m ρ c)) $$ [Hs0 Hd1 Hd2 Hd3]
  · isplitl [Hs0]; · iexact Hs0
    isplitl [Hd1]; · iexact Hd1
    isplitl [Hd2]; · iexact Hd2
    iexact Hd3
  -- the six own cells close: their counters at zero are the device's again
  imod (Rounds.cell_close ER (sched m ρ) (Set.mem_univ (K (c, 1))) (fun h => h) (R := 0 + 1) (duties_later m ρ (sendCell c 0))) $$ [HaS0] with HzS0
  · isplitr; · iexact HIs0
    iexact HaS0
  imod (Rounds.cell_close ER (sched m ρ) (Set.mem_univ (K (c, 2))) (fun h => h) (R := 0 + 1) (duties_later m ρ (sendCell c 1))) $$ [HaS1] with HzS1
  · isplitr; · iexact HIs1
    iexact HaS1
  imod (Rounds.cell_close ER (sched m ρ) (Set.mem_univ (K (c, 3))) (fun h => h) (R := 0 + 1) (duties_later m ρ (sendCell c 2))) $$ [HaS2] with HzS2
  · isplitr; · iexact HIs2
    iexact HaS2
  imod (Rounds.cell_close ER (sched m ρ) (Set.mem_univ (K (c, 4))) (fun h => h) (R := 0 + 1) (duties_later m ρ (recvCell c 0))) $$ [HaR0] with HzR0
  · isplitr; · iexact HIr0
    iexact HaR0
  imod (Rounds.cell_close ER (sched m ρ) (Set.mem_univ (K (c, 5))) (fun h => h) (R := 0 + 1) (duties_later m ρ (recvCell c 1))) $$ [HaR1] with HzR1
  · isplitr; · iexact HIr1
    iexact HaR1
  imod (Rounds.cell_close ER (sched m ρ) (Set.mem_univ (K (c, 6))) (fun h => h) (R := 0 + 1) (duties_later m ρ (recvCell c 2))) $$ [HaR2] with HzR2
  · isplitr; · iexact HIr2
    iexact HaR2
  rw [wp_ret]; imodintro
  iapply Hk
  unfold bodyPost Φ₁ Dat.owesAt Pipeline.owesWithin
  rw [show (dats m ρ 0 c).owed t₀.succ = 0 from rfl]
  isplitl [Hscr HzS0 HzS1 HzS2 HzR0 HzR1 HzR2]
  · isplitl [Hscr]; · iexact Hscr
    isplitl [HzS0]; · iexact HzS0
    isplitl [HzS1]; · iexact HzS1
    isplitl [HzS2]; · iexact HzS2
    isplitl [HzR0]; · iexact HzR0
    isplitl [HzR1]; · iexact HzR1
    iexact HzR2
  isplitl [HO]
  · iexists _
    isplitr
    rotate_left
    · iexact HO
    · ipureintro; exact fun _ _ => Or.inl trivial
  isplitl [Hx]
  · iexists _; isplitr; · (ipureintro; rfl)
    iexact Hx
  iexists _; isplitr; · (ipureintro; rfl)
  iexact Hout

set_option maxRecDepth 4000 in
/-- The library's precondition of the body obligation at the one point, named. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

/-- info: 'Cert.KernelProof.body_obligation' depends on axioms: [propext, Classical.choice, Quot.sound] -/
#guard_msgs in #print axioms body_obligation

end Body

end Cert.KernelProof

end
-- ==== Proof.SoftmaxSpec.lean ====
/-
  The row softmax over the reals, for a 512 x 1024 array: each entry's exponential against its row's maximum, divided by the
  row's sum of such exponentials. A row's column index splits as block * 256 + column inside the block (four blocks); the
  per-block maximum and the per-block sum of exponentials against it are the statistics the four devices exchange.
-/
import Mathlib.Analysis.SpecialFunctions.Exp
import Mathlib.Analysis.SpecialFunctions.Log.Basic
import Mathlib.Algebra.BigOperators.Fin
import Mathlib.Order.Fin.Basic
import Mathlib.Data.Finset.Lattice.Fold

noncomputable section

open scoped BigOperators

namespace Cert.SoftmaxSpec

/-- The largest entry of row `r`. -/
def rowMax (x : Fin 512 → Fin 1024 → ℝ) (r : Fin 512) : ℝ :=
  Finset.univ.sup' Finset.univ_nonempty (x r)

/-- The sum over row `r` of the exponentials of the entries less the row's maximum. -/
def rowSum (x : Fin 512 → Fin 1024 → ℝ) (r : Fin 512) : ℝ :=
  ∑ k : Fin 1024, Real.exp (x r k - rowMax x r)

/-- The softmax of row `r` at column `k`. -/
def softmax (x : Fin 512 → Fin 1024 → ℝ) (r : Fin 512) (k : Fin 1024) : ℝ :=
  Real.exp (x r k - rowMax x r) / rowSum x r

/-- Column `l` of column block `d` (four blocks of 256 columns). -/
def col (d : Fin 4) (l : Fin 256) : Fin 1024 := ⟨d.val * 256 + l.val, by omega⟩

theorem col_val (d : Fin 4) (l : Fin 256) : (col d l).val = d.val * 256 + l.val := rfl

/-- The largest entry of row `r` inside column block `d`. -/
def blockMax (x : Fin 512 → Fin 1024 → ℝ) (d : Fin 4) (r : Fin 512) : ℝ :=
  Finset.univ.sup' Finset.univ_nonempty (fun l : Fin 256 => x r (col d l))

/-- The sum over column block `d` of row `r` of the exponentials of the entries less the block's maximum. -/
def blockSum (x : Fin 512 → Fin 1024 → ℝ) (d : Fin 4) (r : Fin 512) : ℝ :=
  ∑ l : Fin 256, Real.exp (x r (col d l) - blockMax x d r)

/-- The largest of four numbers. -/
def max4 (M : Fin 4 → ℝ) : ℝ := Finset.univ.sup' Finset.univ_nonempty M

/-- Four partial sums of exponentials, each taken against its own maximum, brought to the common maximum and added. -/
def sum4 (M S : Fin 4 → ℝ) : ℝ := ∑ j : Fin 4, S j * Real.exp (M j - max4 M)

end Cert.SoftmaxSpec

end
-- ==== Proof.KernelIdealStats.lean ====
/-
  The statistics a device writes into slot 0 of its exchange buffer, read at an index over the extended reals:
  row r of plane 0 is the largest entry of row r of the device's block, row r of plane 1 the sum over that row of the
  exponentials of the entries less that maximum.
-/
import proofs.«901067_g7700000000001068_dist_softmax_colshard_i_m512_n256_v7x_i4_f32_1_alg».proof.Proof.KernelIdealSpec
import proofs.«901067_g7700000000001068_dist_softmax_colshard_i_m512_n256_v7x_i4_f32_1_alg».proof.Proof.SoftmaxSpec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdealValue

open Cert.KernelIdeal Cert.KernelIdeal.Gen Cert.KernelIdealProof Cert.SoftmaxSpec
open Idealize.ShloMosaic Idealize.ShloMosaic.ValueIdx

/-- Column block `d` of the real array `x`, as a device's input block over the extended reals. -/
def blk (x : Fin 512 → Fin 1024 → ℝ) (d : Dev nD) : Vec Ideal S512x256 .f32 :=
  fun i => ((x (i 0) (col d (i 1)) : ℝ) : EReal)

theorem blk_apply (x : Fin 512 → Fin 1024 → ℝ) (d : Dev nD) (r : Fin 512) (l : Fin 256) :
    blk x d (ix2 r l) = ((x r (col d l) : ℝ) : EReal) := rfl

/-- A vector cast to a one-column matrix reads, at `(i, u)`, the vector at `i`. -/
private theorem shapeCast_a_a1_apply {α : Type} {a : ℕ} (v : (⟨1, ![a]⟩ : Shape).Idx → α)
    (h : (⟨1, ![a]⟩ : Shape).ShapeCasts ⟨2, ![a, 1]⟩) (i : Fin a) (u : Fin 1) :
    shapeCast ⟨2, ![a, 1]⟩ v h (ix2 i u) = v (ix1 i) :=
  shapeCast_apply v h _ _ (by
    have hu : u.val = 0 := by omega
    rw [Shape.rowMajor_val_two, Shape.rowMajor_val_one]
    show i.val = i.val * 1 + u.val
    rw [hu, Nat.mul_one, Nat.add_zero])

/-- A one-column matrix broadcast over `b` columns reads, at `(p, c)`, the column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index a reduction along the columns reads for row `r` and column `k`. -/
private theorem lift_row (r : Fin 512) (k : Fin 256) :
    reduces_S512x256_S512.lift (ix1 r) k = ix2 r k := by
  funext c
  match c with
  | ⟨0, _⟩ => exact Fin.ext rfl
  | ⟨1, _⟩ => exact Fin.ext rfl

/-- The fold of `max` from the bottom element over real entries is the coercion of their supremum. -/
private theorem fold_max_coe {ι : Type} (s : Finset ι) (hs : s.Nonempty) (f : ι → ℝ) :
    s.fold max (⊥ : EReal) (fun k => ((f k : ℝ) : EReal)) = ((s.sup' hs f : ℝ) : EReal) := by
  have h1 : s.fold max (⊥ : EReal) (fun k => ((f k : ℝ) : EReal)) = s.sup (fun k => ((f k : ℝ) : EReal)) := rfl
  rw [h1, ← Finset.sup'_eq_sup hs]
  exact (Finset.comp_sup'_eq_sup'_comp hs (fun t : ℝ => (t : EReal))
    (fun a b => EReal.coe_strictMono.monotone.map_sup a b)).symm

/-- A finite sum of coerced reals is the coercion of the real sum. -/
private theorem sum_coe {ι : Type} (s : Finset ι) (f : ι → ℝ) :
    ∑ k ∈ s, ((f k : ℝ) : EReal) = ((∑ k ∈ s, f k : ℝ) : EReal) := by
  classical
  refine Finset.induction_on s (by simp) fun a t ha ih => ?_
  rw [Finset.sum_insert ha, Finset.sum_insert ha, ih, EReal.coe_add]

/-- The word of negative infinity is the bottom element. -/
private theorem ofBits_ninf : Ideal.ofBits .f32 0xFF800000#32 = (⊥ : EReal) := by
  simp [Ideal.ofBits, Ideal.ieee]

/-- The exponential of a difference of two arrays, read where both are real: the real exponential of the difference. -/
private theorem exp_sub_apply {s : Shape} (A B : FVec Ideal s .f32) (i : s.Idx) (a b : ℝ)
    (ha : A i = ((a : ℝ) : EReal)) (hb : B i = ((b : ℝ) : EReal)) :
    Idealize.ShloMosaic.exp (subf A B) i = ((Real.exp (a - b) : ℝ) : EReal) := by
  show Ideal.exp (A i - B i) = _
  rw [ha, hb, ← EReal.coe_sub, Ideal.exp_coe]

/-- A cast to the same shape leaves every entry of the block where it was. -/
private theorem pay2_eq (v : Vec Ideal S512x256 .f32) : k0_pay2 (F := Ideal) v = v :=
  shapeCast_self v _

/-- The block as the body first reads it: unchanged. -/
theorem pay2_apply (x : Fin 512 → Fin 1024 → ℝ) (d : Dev nD) (r : Fin 512) (l : Fin 256) :
    k0_pay2 (F := Ideal) (blk x d) (ix2 r l) = ((x r (col d l) : ℝ) : EReal) := by
  rw [pay2_eq]; rfl

/-- Row `r` of the stacked, transposed pair of columns, plane 0: the first column at `r`. -/
private theorem stats_read0 {α : Type} (c0 c1 : S512x1.Idx → α) (r : Fin 512) :
    shapeCast S1x2x512 (transpose S2x512 [1, 0] (concatenate S512x2 1 [⟨S512x1, c0⟩, ⟨S512x1, c1⟩]
      concatenates_S512x1_S512x1_S512x2_d1) transposes_S512x2_p1_0_S2x512) shapeCasts_S2x512_S1x2x512
        (ix3 (0 : Fin 1) (0 : Fin 2) r) = c0 (ix2 r (0 : Fin 1)) := by
  refine (shapeCast_ab_1ab_apply _ _ (0 : Fin 1) (0 : Fin 2) r).trans ?_
  refine (transpose_ix2_apply _ _ (0 : Fin 2) r).trans ?_
  refine concatenate_pair_apply_left (1 : Fin 2) c0 c1 _ (ix2 r (0 : Fin 2)) rfl (ix2 r (0 : Fin 1)) fun b => ?_
  match b with
  | ⟨0, _⟩ => rfl
  | ⟨1, _⟩ => rfl

/-- Row `r` of the stacked, transposed pair of columns, plane 1: the second column at `r`. -/
private theorem stats_read1 {α : Type} (c0 c1 : S512x1.Idx → α) (r : Fin 512) :
    shapeCast S1x2x512 (transpose S2x512 [1, 0] (concatenate S512x2 1 [⟨S512x1, c0⟩, ⟨S512x1, c1⟩]
      concatenates_S512x1_S512x1_S512x2_d1) transposes_S512x2_p1_0_S2x512) shapeCasts_S2x512_S1x2x512
        (ix3 (0 : Fin 1) (1 : Fin 2) r) = c1 (ix2 r (0 : Fin 1)) := by
  refine (shapeCast_ab_1ab_apply _ _ (0 : Fin 1) (1 : Fin 2) r).trans ?_
  refine (transpose_ix2_apply _ _ (1 : Fin 2) r).trans ?_
  refine concatenate_pair_apply_right (1 : Fin 2) c0 c1 _ (ix2 r (1 : Fin 2)) rfl rfl (ix2 r (0 : Fin 1))
    (fun b hb => ?_) rfl
  match b, hb with
  | ⟨0, _⟩, _ => rfl
  | ⟨1, _⟩, hb => exact absurd rfl hb

/-- The row maxima of the block: the largest of the 256 entries of row `r`. -/
private theorem rowmax_apply (x : Fin 512 → Fin 1024 → ℝ) (d : Dev nD) (r : Fin 512) :
    multiReduction (F := Ideal) .maximumf [1] S512 (k0_pay2 (blk x d)) 0xFF800000#32 reduces_S512x256_S512 (.inl rfl) rfl (ix1 r)
      = ((blockMax x d r : ℝ) : EReal) := by
  rw [pay2_eq]
  refine (Ideal.multiReduction_maximumf_single _ _ reduces_S512x256_S512 _ _ (ix1 r)).trans ?_
  show (Finset.univ : Finset (Fin 256)).fold max (Ideal.ofBits .f32 0xFF800000#32)
    (blk x d ∘ reduces_S512x256_S512.lift (ix1 r)) = _
  rw [ofBits_ninf]
  have hf : (blk x d ∘ reduces_S512x256_S512.lift (ix1 r)) = fun k : Fin 256 => ((x r (col d k) : ℝ) : EReal) := by
    funext k
    exact congrArg (blk x d) (lift_row r k)
  rw [hf]
  exact fold_max_coe _ _ _

/-- Plane 0 of the stored statistics: the block's row maxima. -/
theorem pay3_max (x : Fin 512 → Fin 1024 → ℝ) (d : Dev nD) (r : Fin 512) :
    k0_pay3 (F := Ideal) (blk x d) (ix3 (0 : Fin 1) (0 : Fin 2) r) = ((blockMax x d r : ℝ) : EReal) := by
  unfold k0_pay3
  refine (stats_read0 _ _ r).trans ?_
  refine (shapeCast_a_a1_apply _ _ r (0 : Fin 1)).trans ?_
  exact rowmax_apply x d r

/-- Plane 1 of the stored statistics: the block's row sums of exponentials against the row maxima. -/
theorem pay3_sum (x : Fin 512 → Fin 1024 → ℝ) (d : Dev nD) (r : Fin 512) :
    k0_pay3 (F := Ideal) (blk x d) (ix3 (0 : Fin 1) (1 : Fin 2) r) = ((blockSum x d r : ℝ) : EReal) := by
  unfold k0_pay3
  refine (stats_read1 _ _ r).trans ?_
  refine (shapeCast_a_a1_apply _ _ r (0 : Fin 1)).trans ?_
  refine (Ideal.multiReduction_add_single _ _ reduces_S512x256_S512 _ _ (ix1 r)).trans ?_
  show ∑ k : Fin 256, _ = _
  unfold blockSum
  rw [← sum_coe]
  refine Finset.sum_congr rfl fun k _ => ?_
  rw [lift_row]
  have hb : broadcastTo S512x256 (shapeCast S512x1 (multiReduction (F := Ideal) .maximumf [1] S512 (k0_pay2 (blk x d))
      0xFF800000#32 reduces_S512x256_S512 (.inl rfl) rfl) shapeCasts_S512_S512x1) broadcasts_S512x1_S512x256 (ix2 r k)
      = ((blockMax x d r : ℝ) : EReal) :=
    (broadcastTo_a1_ab_apply _ _ r k).trans ((shapeCast_a_a1_apply _ _ r (0 : Fin 1)).trans (rowmax_apply x d r))
  exact exp_sub_apply _ _ _ _ _ (pay2_apply x d r k) hb

end Cert.KernelIdealValue

end
-- ==== Proof.KernelIdealCombine.lean ====
/-
  The body's last two payloads read at an index over the extended reals, for an exchange buffer holding real statistics:
  the result at (r, l) is the exponential of the entry less (the largest of the four maxima plus the logarithm of the four
  sums brought to that maximum and added).
-/
import proofs.«901067_g7700000000001068_dist_softmax_colshard_i_m512_n256_v7x_i4_f32_1_alg».proof.Proof.KernelIdealSpec
import proofs.«901067_g7700000000001068_dist_softmax_colshard_i_m512_n256_v7x_i4_f32_1_alg».proof.Proof.SoftmaxSpec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdealValue

open Cert.KernelIdeal Cert.KernelIdeal.Gen Cert.KernelIdealProof Cert.SoftmaxSpec
open Idealize.ShloMosaic Idealize.ShloMosaic.ValueIdx

/-- The largest of finitely many real numbers, taken in the extended reals from the bottom element, is the coercion of
    their real supremum. -/
private theorem fold_max_coe {ι : Type} (s : Finset ι) (hs : s.Nonempty) (f : ι → ℝ) :
    s.fold max (⊥ : EReal) (fun k => ((f k : ℝ) : EReal)) = ((s.sup' hs f : ℝ) : EReal) := by
  induction hs using Finset.Nonempty.cons_induction with
  | singleton a => simp
  | cons a s ha hs ih =>
    rw [Finset.fold_cons, ih, Finset.sup'_cons hs]
    exact (EReal.coe_strictMono.monotone.map_max).symm

/-- Plane 0 of the exchange buffer, as a [4,512] array, at (j, r). -/
private theorem plane0_apply (st : Vec Ideal S4x2x512 .f32) (j : Fin 4) (r : Fin 512) :
    shapeCast S4x512 (extractStridedSlice S4x1x512 ![0, 0, 0] st slices_S4x2x512_o0_0_0_S4x1x512)
      shapeCasts_S4x1x512_S4x512 (ix2 j r) = st (ix3 j (0 : Fin 2) r) := by
  refine (shapeCast_apply _ _ (ix2 j r) (ix3 j (0 : Fin 1) r) ?_).trans ?_
  · rw [Shape.rowMajor_val_three, Shape.rowMajor_val_two]
    show (j.val * 1 + 0) * 512 + r.val = j.val * 512 + r.val
    omega
  · exact slice3_axis1_apply 0 st _ j (0 : Fin 1) r (0 : Fin 2) rfl

/-- Plane 1 of the exchange buffer, as a [4,512] array, at (j, r). -/
private theorem plane1_apply (st : Vec Ideal S4x2x512 .f32) (j : Fin 4) (r : Fin 512) :
    shapeCast S4x512 (extractStridedSlice S4x1x512 ![0, 1, 0] st slices_S4x2x512_o0_1_0_S4x1x512)
      shapeCasts_S4x1x512_S4x512 (ix2 j r) = st (ix3 j (1 : Fin 2) r) := by
  refine (shapeCast_apply _ _ (ix2 j r) (ix3 j (0 : Fin 1) r) ?_).trans ?_
  · rw [Shape.rowMajor_val_three, Shape.rowMajor_val_two]
    show (j.val * 1 + 0) * 512 + r.val = j.val * 512 + r.val
    omega
  · exact slice3_axis1_apply 1 st _ j (0 : Fin 1) r (1 : Fin 2) rfl

/-- The largest entry down a column of a [4,512] array of real numbers, from the bottom element. -/
private theorem gmax_apply (v : FVec Ideal S4x512 .f32) (m : Fin 4 → ℝ) (r : Fin 512)
    (hv : ∀ j : Fin 4, v (ix2 j r) = ((m j : ℝ) : EReal)) :
    multiReduction (F := Ideal) .maximumf [0] S512 v 0xFF800000#32 reduces_S4x512_S512 (.inl rfl) rfl (ix1 r)
      = ((max4 m : ℝ) : EReal) := by
  refine (Ideal.multiReduction_maximumf_single v 0xFF800000#32 reduces_S4x512_S512 (.inl rfl) rfl (ix1 r)).trans ?_
  have hb : FloatOps.ofBits (F := Ideal) .f32 0xFF800000#32 = (⊥ : EReal) := by simp [Ideal.ofBits, Ideal.ieee]
  have hl : ∀ k : Fin 4, reduces_S4x512_S512.lift (ix1 r) k = ix2 k r := fun k => by
    funext a; refine Fin.ext ?_
    match a with
    | ⟨0, _⟩ => rfl
    | ⟨1, _⟩ => rfl
  have hf : (v ∘ reduces_S4x512_S512.lift (ix1 r)) = fun k : Fin 4 => ((m k : ℝ) : EReal) := by
    funext k
    show v (reduces_S4x512_S512.lift (ix1 r) k) = _
    rw [hl k, hv k]
  rw [hb, hf]
  exact fold_max_coe Finset.univ Finset.univ_nonempty m

/-- The sum down a column of a [4,512] array of real numbers, from zero. -/
private theorem gsum_apply (w : FVec Ideal S4x512 .f32) (t : Fin 4 → ℝ) (r : Fin 512)
    (hw : ∀ j : Fin 4, w (ix2 j r) = ((t j : ℝ) : EReal)) :
    multiReduction (F := Ideal) .add [0] S512 w 0x00000000#32 reduces_S4x512_S512 (.inl rfl) rfl (ix1 r)
      = ((∑ j : Fin 4, t j : ℝ) : EReal) := by
  refine (Ideal.multiReduction_add_single w 0x00000000#32 reduces_S4x512_S512 (.inl rfl) rfl (ix1 r)).trans ?_
  have hl : ∀ k : Fin 4, reduces_S4x512_S512.lift (ix1 r) k = ix2 k r := fun k => by
    funext a; refine Fin.ext ?_
    match a with
    | ⟨0, _⟩ => rfl
    | ⟨1, _⟩ => rfl
  show ∑ k : Fin 4, w (reduces_S4x512_S512.lift (ix1 r) k) = _
  simp only [hl, hw, Fin.sum_univ_four, EReal.coe_add]

/-- A [512] row laid out as [1,512] and repeated down four rows reads, at (j, r), the row at r. -/
private theorem bmax_apply (g : FVec Ideal S512 .f32) (j : Fin 4) (r : Fin 512) :
    broadcastTo S4x512 (shapeCast S1x512 g shapeCasts_S512_S1x512) broadcasts_S1x512_S4x512 (ix2 j r) = g (ix1 r) :=
  (broadcastTo_1b_ab_apply _ _ j r).trans (shapeCast_a_1a_apply _ _ (0 : Fin 1) r)

/-- One term of the combined sum: a real sum times the exponential of a real maximum less the common maximum. -/
private theorem term_apply (p0 p1 : FVec Ideal S4x512 .f32) (g : FVec Ideal S512 .f32) (a b c : ℝ) (j : Fin 4) (r : Fin 512)
    (h0 : p0 (ix2 j r) = ((a : ℝ) : EReal)) (h1 : p1 (ix2 j r) = ((b : ℝ) : EReal)) (hg : g (ix1 r) = ((c : ℝ) : EReal)) :
    mulf p1 (exp (subf p0 (broadcastTo S4x512 (shapeCast S1x512 g shapeCasts_S512_S1x512) broadcasts_S1x512_S4x512))) (ix2 j r)
      = ((b * Real.exp (a - c) : ℝ) : EReal) := by
  show p1 (ix2 j r) * Ideal.exp (p0 (ix2 j r)
    - broadcastTo S4x512 (shapeCast S1x512 g shapeCasts_S512_S1x512) broadcasts_S1x512_S4x512 (ix2 j r)) = _
  rw [bmax_apply, h0, h1, hg, ← EReal.coe_sub, Ideal.exp_coe, ← EReal.coe_mul]

/-- The combination of four real maxima and four real sums, broadcast along the lanes: at (r, l), the largest maximum plus
    the logarithm of the sums brought to it and added. -/
private theorem combine_apply (p0 p1 : FVec Ideal S4x512 .f32) (m t : Fin 4 → ℝ) (r : Fin 512) (l : Fin 256)
    (h0 : ∀ j : Fin 4, p0 (ix2 j r) = ((m j : ℝ) : EReal)) (h1 : ∀ j : Fin 4, p1 (ix2 j r) = ((t j : ℝ) : EReal))
    (hpos : 0 < sum4 m t) :
    broadcastTo S512x256 (transpose S512x1 [1, 0]
      (addf (shapeCast S1x512 (multiReduction (F := Ideal) .maximumf [0] S512 p0 0xFF800000#32 reduces_S4x512_S512 (.inl rfl) rfl) shapeCasts_S512_S1x512)
        (log (shapeCast S1x512 (multiReduction (F := Ideal) .add [0] S512
          (mulf p1 (exp (subf p0 (broadcastTo S4x512 (shapeCast S1x512 (multiReduction (F := Ideal) .maximumf [0] S512 p0 0xFF800000#32 reduces_S4x512_S512 (.inl rfl) rfl) shapeCasts_S512_S1x512) broadcasts_S1x512_S4x512))))
          0x00000000#32 reduces_S4x512_S512 (.inl rfl) rfl) shapeCasts_S512_S1x512)))
      transposes_S1x512_p1_0_S512x1) broadcasts_S512x1_S512x256 (ix2 r l)
      = ((max4 m + Real.log (sum4 m t) : ℝ) : EReal) := by
  have hg := gmax_apply p0 m r h0
  have hs := gsum_apply _ (fun j => t j * Real.exp (m j - max4 m)) r
    (fun j => term_apply p0 p1 _ (m j) (t j) (max4 m) j r (h0 j) (h1 j) hg)
  refine (broadcastTo_apply _ _ (ix2 r l) (ix2 r (0 : Fin 1)) ?_).trans ?_
  · intro a
    match a with
    | ⟨0, _⟩ => rfl
    | ⟨1, _⟩ => rfl
  refine (transpose_ix2_apply _ _ r (0 : Fin 1)).trans ?_
  refine (addf_apply _ _ _).trans ?_
  rw [EReal.coe_add]
  refine congrArg₂ (· + ·) ?_ ?_
  · exact (shapeCast_a_1a_apply _ _ (0 : Fin 1) r).trans hg
  · show Ideal.log (shapeCast S1x512 _ shapeCasts_S512_S1x512 (ix2 (0 : Fin 1) r)) = _
    rw [shapeCast_a_1a_apply, hs]
    show Ideal.log ((sum4 m t : ℝ) : EReal) = _
    rw [Ideal.log_coe, if_neg (not_le.2 hpos)]

theorem pay41_apply (xb : FVec Ideal S512x256 .f32) (st : Vec Ideal S4x2x512 .f32)
    (M S : Fin 4 → Fin 512 → ℝ) (xr : Fin 512 → Fin 256 → ℝ)
    (hM : ∀ (j : Fin 4) (r : Fin 512), st (ix3 j (0 : Fin 2) r) = ((M j r : ℝ) : EReal))
    (hS : ∀ (j : Fin 4) (r : Fin 512), st (ix3 j (1 : Fin 2) r) = ((S j r : ℝ) : EReal))
    (hpos : ∀ r : Fin 512, 0 < sum4 (fun j => M j r) (fun j => S j r))
    (hx : ∀ (r : Fin 512) (l : Fin 256), xb (ix2 r l) = ((xr r l : ℝ) : EReal))
    (r : Fin 512) (l : Fin 256) :
    k0_pay1 (F := Ideal) xb (k0_pay4 (F := Ideal) st) (ix2 r l)
      = ((Real.exp (xr r l - (max4 (fun j => M j r) + Real.log (sum4 (fun j => M j r) (fun j => S j r)))) : ℝ) : EReal) := by
  have h4 : k0_pay4 (F := Ideal) st (ix2 r l)
      = ((max4 (fun j => M j r) + Real.log (sum4 (fun j => M j r) (fun j => S j r)) : ℝ) : EReal) :=
    combine_apply _ _ (fun j => M j r) (fun j => S j r) r l
      (fun j => (plane0_apply st j r).trans (hM j r)) (fun j => (plane1_apply st j r).trans (hS j r)) (hpos r)
  show Ideal.exp (xb (ix2 r l) - k0_pay4 (F := Ideal) st (ix2 r l)) = _
  rw [h4, hx, ← EReal.coe_sub, Ideal.exp_coe]

end Cert.KernelIdealValue

end
-- ==== Proof.KernelIdealValue.lean ====
/-
  Each device's result block is its column block of the row softmax of the whole array: the largest of the four block maxima
  is the row's maximum, the four block sums brought to it add up to the row's sum, and exp (a - log s) = exp a / s for s > 0.
-/
import proofs.«901067_g7700000000001068_dist_softmax_colshard_i_m512_n256_v7x_i4_f32_1_alg».proof.Proof.KernelIdealSpec
import proofs.«901067_g7700000000001068_dist_softmax_colshard_i_m512_n256_v7x_i4_f32_1_alg».proof.Proof.SoftmaxSpec
import Idealize.ShloMosaic.PureOps.Ideal.Laws
import Idealize.ShloMosaic.Lib.ValueIdx
import Idealize.ShloMosaic.Lib.ValueLayout
import Idealize.ShloMosaic.Lib.Pipeline.Value
import proofs.«901067_g7700000000001068_dist_softmax_colshard_i_m512_n256_v7x_i4_f32_1_alg».proof.Proof.KernelIdealStats
import proofs.«901067_g7700000000001068_dist_softmax_colshard_i_m512_n256_v7x_i4_f32_1_alg».proof.Proof.KernelIdealCombine

noncomputable section

open scoped BigOperators

namespace Cert.KernelIdealValue

open Cert.KernelIdeal Cert.KernelIdeal.Gen Cert.KernelIdealProof Cert.SoftmaxSpec
open Idealize.ShloMosaic Idealize.ShloMosaic.ValueIdx

/-- Every column of the row is a column of exactly one block: the column index splits as block * 256 + offset. -/
private theorem col_bijective : Function.Bijective (fun p : Fin 4 × Fin 256 => col p.1 p.2) := by
  rw [Fintype.bijective_iff_injective_and_card]
  refine ⟨?_, by simp⟩
  rintro ⟨d, l⟩ ⟨d', l'⟩ h
  have hv : d.val * 256 + l.val = d'.val * 256 + l'.val := congrArg Fin.val h
  have hl := l.isLt
  have hl' := l'.isLt
  have hd : d.val = d'.val := by omega
  have hl2 : l.val = l'.val := by omega
  exact Prod.ext (Fin.ext hd) (Fin.ext hl2)

private theorem col_surjective (k : Fin 1024) : ∃ (d : Fin 4) (l : Fin 256), col d l = k := by
  obtain ⟨⟨d, l⟩, h⟩ := col_bijective.surjective k
  exact ⟨d, l, h⟩

/-- A sum over the 1024 columns is the sum over the four blocks of the sums over each block's 256 columns. -/
private theorem sum_col (f : Fin 1024 → ℝ) : ∑ k : Fin 1024, f k = ∑ d : Fin 4, ∑ l : Fin 256, f (col d l) := by
  rw [← Function.Bijective.sum_comp col_bijective f, Fintype.sum_prod_type]

/-- The largest of the block maxima, the blocks taken in any order that reaches every block, is the row's maximum. -/
private theorem max4_blockMax (x : Fin 512 → Fin 1024 → ℝ) (σ : Fin 4 → Fin 4) (hσ : Function.Surjective σ) (r : Fin 512) :
    max4 (fun j => blockMax x (σ j) r) = rowMax x r := by
  unfold max4 blockMax rowMax
  apply le_antisymm
  · apply Finset.sup'_le
    intro j _
    apply Finset.sup'_le
    intro l _
    exact Finset.le_sup' (x r) (Finset.mem_univ (col (σ j) l))
  · apply Finset.sup'_le
    intro k _
    obtain ⟨d, l, rfl⟩ := col_surjective k
    obtain ⟨j, rfl⟩ := hσ d
    exact le_trans
      (Finset.le_sup' (fun l : Fin 256 => x r (col (σ j) l)) (Finset.mem_univ l))
      (Finset.le_sup' (fun j : Fin 4 => Finset.univ.sup' Finset.univ_nonempty (fun l : Fin 256 => x r (col (σ j) l)))
        (Finset.mem_univ j))

/-- A block's sum of exponentials, brought from the block's maximum to any other level `m`. -/
private theorem blockSum_mul_exp (x : Fin 512 → Fin 1024 → ℝ) (d : Fin 4) (r : Fin 512) (m : ℝ) :
    blockSum x d r * Real.exp (blockMax x d r - m) = ∑ l : Fin 256, Real.exp (x r (col d l) - m) := by
  unfold blockSum
  rw [Finset.sum_mul]
  refine Finset.sum_congr rfl (fun l _ => ?_)
  rw [← Real.exp_add, sub_add_sub_cancel]

/-- The four block sums, each brought to the row's maximum, add up to the row's sum. -/
private theorem sum4_blockSum (x : Fin 512 → Fin 1024 → ℝ) (σ : Fin 4 → Fin 4) (hσ : Function.Bijective σ) (r : Fin 512) :
    sum4 (fun j => blockMax x (σ j) r) (fun j => blockSum x (σ j) r) = rowSum x r := by
  unfold sum4
  rw [max4_blockMax x σ hσ.surjective r]
  simp only [blockSum_mul_exp]
  rw [Function.Bijective.sum_comp hσ (fun d : Fin 4 => ∑ l : Fin 256, Real.exp (x r (col d l) - rowMax x r))]
  unfold rowSum
  exact (sum_col (fun k => Real.exp (x r k - rowMax x r))).symm

/-- A block's sum of exponentials against its own maximum is positive. -/
private theorem blockSum_pos (x : Fin 512 → Fin 1024 → ℝ) (d : Fin 4) (r : Fin 512) : 0 < blockSum x d r := by
  unfold blockSum
  exact Finset.sum_pos (fun l _ => Real.exp_pos _) Finset.univ_nonempty

/-- The slot order on device `c`: slot `j` holds the statistics of device `c + 4 - j` (mod 4); this reaches every device once. -/
private theorem slot_bijective (c : Dev nD) : Function.Bijective (fun j : Fin 4 => pr c (4 - j.val)) := by
  rw [Fintype.bijective_iff_injective_and_card]
  refine ⟨?_, rfl⟩
  intro j j' h
  have hv : (c.val + (4 - j.val)) % 4 = (c.val + (4 - j'.val)) % 4 := congrArg Fin.val h
  have hj := j.isLt
  have hj' := j'.isLt
  exact Fin.ext (by omega)

/-- The real algebra: with the four blocks taken in any order `σ` (a permutation of the blocks), the exponential of an
    entry less (largest block maximum + log of the block sums brought to it) is the row softmax. -/
theorem combine_eq_softmax (x : Fin 512 → Fin 1024 → ℝ) (σ : Fin 4 → Fin 4) (hσ : Function.Bijective σ) (r : Fin 512) (k : Fin 1024) :
    Real.exp (x r k - (max4 (fun j => blockMax x (σ j) r) + Real.log (sum4 (fun j => blockMax x (σ j) r) (fun j => blockSum x (σ j) r))))
      = softmax x r k := by
  have hs : 0 < rowSum x r := by
    unfold rowSum
    exact Finset.sum_pos (fun k _ => Real.exp_pos _) Finset.univ_nonempty
  rw [max4_blockMax x σ hσ.surjective r, sum4_blockSum x σ hσ r]
  unfold softmax
  rw [← sub_sub, Real.exp_sub, Real.exp_log hs]

theorem sum4_pos (x : Fin 512 → Fin 1024 → ℝ) (σ : Fin 4 → Fin 4) (r : Fin 512) :
    0 < sum4 (fun j => blockMax x (σ j) r) (fun j => blockSum x (σ j) r) := by
  unfold sum4
  exact Finset.sum_pos (fun j _ => mul_pos (blockSum_pos x (σ j) r) (Real.exp_pos _)) Finset.univ_nonempty

/-- The result block of device `c`, entry by entry. -/
theorem outOf_softmax (x : Fin 512 → Fin 1024 → ℝ) (c : Dev nD) (r : Fin 512) (l : Fin 256) :
    outOf (F := Ideal) (blk x) c (ix2 r l) = ((softmax x r (col c l) : ℝ) : EReal) := by
  unfold outOf
  refine (pay41_apply (k0_pay2 (F := Ideal) (blk x c)) (commOf (F := Ideal) (blk x) c)
    (fun j r => blockMax x (pr c (4 - j.val)) r) (fun j r => blockSum x (pr c (4 - j.val)) r)
    (fun r l => x r (col c l))
    (fun j r => pay3_max x (pr c (4 - j.val)) r)
    (fun j r => pay3_sum x (pr c (4 - j.val)) r)
    (fun r => sum4_pos x (fun j => pr c (4 - j.val)) r)
    (fun r l => pay2_apply x c r l) r l).trans ?_
  exact congrArg (fun t : ℝ => (t : EReal))
    (combine_eq_softmax x (fun j => pr c (4 - j.val)) (slot_bijective c) r (col c l))

end Cert.KernelIdealValue

end
-- ==== Proof.ReferenceValue.lean ====
/-
  The reference's run over the extended reals: from an argument array holding real numbers its result array ends holding
  the row softmax, and its argument array ends unchanged.
-/
import proofs.«901067_g7700000000001068_dist_softmax_colshard_i_m512_n256_v7x_i4_f32_1_alg».proof.Defs
import proofs.«901067_g7700000000001068_dist_softmax_colshard_i_m512_n256_v7x_i4_f32_1_alg».proof.Proof.Gen.ReferenceIdeal
import proofs.«901067_g7700000000001068_dist_softmax_colshard_i_m512_n256_v7x_i4_f32_1_alg».proof.Proof.Gen.ReferenceIdeal.Run
import proofs.«901067_g7700000000001068_dist_softmax_colshard_i_m512_n256_v7x_i4_f32_1_alg».proof.Proof.Gen.ReferenceIdeal.Read
import proofs.«901067_g7700000000001068_dist_softmax_colshard_i_m512_n256_v7x_i4_f32_1_alg».proof.Proof.Gen.Pre_finite_inputs_ReferenceIdeal
import proofs.«901067_g7700000000001068_dist_softmax_colshard_i_m512_n256_v7x_i4_f32_1_alg».proof.Proof.SoftmaxSpec
import Idealize.ShloMosaic.PureOps.Ideal.Laws
import Idealize.ShloMosaic.Lib.ValueIdx
import Idealize.ShloMosaic.Lib.ValueLayout
import Idealize.ShloMosaic.Lib.StableHlo.Run

noncomputable section

open scoped BigOperators

namespace Cert.ReferenceValue

open Cert.ReferenceIdeal Cert.SoftmaxSpec
open Idealize.ShloMosaic Idealize.ShloMosaic.TcCoe Idealize.ShloMosaic.ValueIdx Idealize.SL.Sem

/-- The reference runs to the end, faults nowhere and leaves its argument array as it was. -/
theorem frame_ri : Cert.frame_ReferenceIdeal :=
  fun m ρ _ => (θ_run Cert.ReferenceIdeal.defs _ _).mono (fun _ h c => (h c).2)
    (Cert.ReferenceIdeal.Value.run (F := Ideal) m ρ)

/-! ### Finite sums and maxima of real numbers inside the extended reals -/

/-- The inclusion of the reals into the extended reals commutes with a finite sum. -/
private theorem coe_sum {ι : Type} (s : Finset ι) (f : ι → ℝ) :
    ((∑ k ∈ s, f k : ℝ) : EReal) = ∑ k ∈ s, ((f k : ℝ) : EReal) := by
  induction s using Finset.cons_induction with
  | empty => simp
  | cons a s ha ih => rw [Finset.sum_cons, Finset.sum_cons, EReal.coe_add, ih]

/-- The running maximum, started at `-∞`, of finitely many (at least one) real numbers taken in the extended reals
    is the inclusion of their greatest. -/
private theorem fold_max_coe {ι : Type} (s : Finset ι) (hs : s.Nonempty) (f : ι → ℝ) :
    s.fold (FloatOps.maximumf (F := Ideal) (φ := .f32)) (⊥ : EReal) (fun k => ((f k : ℝ) : EReal))
      = ((s.sup' hs f : ℝ) : EReal) := by
  induction hs using Finset.Nonempty.cons_induction with
  | singleton a =>
    rw [Finset.fold_singleton, Finset.sup'_singleton]
    exact max_eq_left bot_le
  | cons a s ha hs ih =>
    rw [Finset.fold_cons, ih, Finset.sup'_cons]
    exact (EReal.coe_strictMono.monotone.map_max).symm

/-- The word `0xFF800000` denotes `-∞`. -/
private theorem word_neg_inf : FloatOps.ofBits (F := Ideal) .f32 0xFF800000#32 = (⊥ : EReal) := by
  show Ideal.ofBits .f32 0xFF800000#32 = ⊥
  simp [Ideal.ofBits, Ideal.ieee]

/-- The word `0x00000000` denotes zero. -/
private theorem word_zero : FloatOps.ofBits (F := Ideal) .f32 0x00000000#32 = (0 : EReal) := by
  show Ideal.ofBits .f32 0x00000000#32 = 0
  simp [Ideal.ofBits, Ideal.ieee]

/-- A row's sum of exponentials is positive. -/
private theorem rowSum_pos (x : Fin 512 → Fin 1024 → ℝ) (r : Fin 512) : 0 < rowSum x r :=
  Finset.sum_pos (fun k _ => Real.exp_pos _) Finset.univ_nonempty

/-! ### The reference's stages at an array of real numbers, read at an index -/

/-- The argument array holding the real matrix `x`. -/
private abbrev X (x : Fin 512 → Fin 1024 → ℝ) : (⟨S512x1024, .f32⟩ : BufTy).Contents (Elt Ideal) :=
  fun i => ((x (i 0) (i 1) : ℝ) : EReal)

/-- The maximum over axis 1 from `-∞`: at row `j` the row's greatest entry. -/
private theorem v0_apply (x : Fin 512 → Fin 1024 → ℝ) (j : S512.Idx) :
    Read.val_main_v0 (F := Ideal) (X x) j = ((rowMax x (j 0) : ℝ) : EReal) := by
  unfold Read.val_main_v0
  refine (Host.reduce_eq_fold_single (α := EReal) (s := S512x1024) (t := S512) (a := (1 : Fin 2)) (u := S_)
    (FloatOps.maximumf (F := Ideal) (φ := .f32)) (X x) (Read.val_main_cst (F := Ideal))
    Gen.reducesTo_S512x1024_S512_d1 (by decide) Gen.h_S_ j).trans ?_
  rw [Read.val_main_cst_apply, word_neg_inf]
  exact fold_max_coe Finset.univ Finset.univ_nonempty (x (j 0))

/-- The row maximum broadcast back over the columns. -/
private theorem v2_apply (x : Fin 512 → Fin 1024 → ℝ) (i : S512x1024.Idx) :
    Read.val_main_v2 (F := Ideal) (X x) i = ((rowMax x (i 0) : ℝ) : EReal) := by
  rw [Read.val_main_v2_apply, Read.val_main_v1_apply, v0_apply]
  rfl

/-- The exponential of an entry less its row's maximum. -/
private theorem v4_apply (x : Fin 512 → Fin 1024 → ℝ) (i : S512x1024.Idx) :
    Read.val_main_v4 (F := Ideal) (X x) i = ((Real.exp (x (i 0) (i 1) - rowMax x (i 0)) : ℝ) : EReal) := by
  rw [Read.val_main_v4_apply, Read.val_main_v3_apply, v2_apply, Ideal.hostUnary_exp_def, Ideal.subf_def,
    ← EReal.coe_sub, Ideal.exp_coe]

/-- The sum over axis 1 from zero: at row `j` the row's sum of exponentials. -/
private theorem v5_apply (x : Fin 512 → Fin 1024 → ℝ) (j : S512.Idx) :
    Read.val_main_v5 (F := Ideal) (X x) j = ((rowSum x (j 0) : ℝ) : EReal) := by
  rw [Read.val_main_v5_apply, Read.val_main_cst_0_apply, word_zero, zero_add,
    Finset.sum_congr rfl (fun k _ => v4_apply x (Read.idx_main_v5 j k))]
  exact (coe_sum Finset.univ (fun k : Fin 1024 => Real.exp (x (j 0) k - rowMax x (j 0)))).symm

/-- The row sum broadcast back over the columns. -/
private theorem v7_apply (x : Fin 512 → Fin 1024 → ℝ) (i : S512x1024.Idx) :
    Read.val_main_v7 (F := Ideal) (X x) i = ((rowSum x (i 0) : ℝ) : EReal) := by
  rw [Read.val_main_v7_apply, Read.val_main_v6_apply, v5_apply]
  rfl

/-- The quotient: the row softmax. The divisor is a positive real, so the division stays among the reals. -/
private theorem v8_apply (x : Fin 512 → Fin 1024 → ℝ) (i : S512x1024.Idx) :
    Read.val_main_v8 (F := Ideal) (X x) i = ((softmax x (i 0) (i 1) : ℝ) : EReal) := by
  rw [Read.val_main_v8_apply, v4_apply, v7_apply, Ideal.hostDivf_def, Ideal.div_coe (ne_of_gt (rowSum_pos x (i 0))),
    ← EReal.coe_mul, mul_one_div]
  rfl

/-- From an argument array of real numbers `x` the reference's result array ends at the row softmax of `x`. -/
theorem ref_run_softmax (m' : (ℓ : Loc Cert.ReferenceIdeal.nD Cert.ReferenceIdeal.τ Cert.ReferenceIdeal.sig) → Buf (Elt Ideal) ℓ)
    (g' : Dev Cert.ReferenceIdeal.nD → PrngReg) (x : Fin 512 → Fin 1024 → ℝ)
    (hx : m' (((0 : Dev Cert.ReferenceIdeal.nD).tc : Thread Cert.ReferenceIdeal.nD Cert.ReferenceIdeal.τ).loc Cert.ReferenceIdeal.main_arg0)
            = fun i => ((x (i 0) (i 1) : ℝ) : EReal)) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v8)
          = (fun i => ((softmax x (i 0) (i 1) : ℝ) : EReal))
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) := by
  refine (θ_run _ _ _).mono (fun r h => ⟨(h 0).1.trans ?_, (h 0).2⟩) (Cert.ReferenceIdeal.Value.run (F := Ideal) m' g')
  rw [Read.val_main_v8_eq, hx]
  exact funext fun i => v8_apply x i

end Cert.ReferenceValue

end
-- ==== Proof.FiniteInputs.lean ====
/-
  The precondition read: a block on which "every entry's absolute value is below +inf" evaluates to all ones holds real
  numbers only; and an array all four of whose column blocks hold real numbers is an array of real numbers.
-/
import proofs.«901067_g7700000000001068_dist_softmax_colshard_i_m512_n256_v7x_i4_f32_1_alg».proof.Defs
import proofs.«901067_g7700000000001068_dist_softmax_colshard_i_m512_n256_v7x_i4_f32_1_alg».proof.Proof.Gen.Pre_finite_inputs_Kernel
import proofs.«901067_g7700000000001068_dist_softmax_colshard_i_m512_n256_v7x_i4_f32_1_alg».proof.Proof.SoftmaxSpec
import Idealize.ShloMosaic.Lib.ReduceAll
import Idealize.ShloMosaic.Lib.ValueIdx
import Idealize.ShloMosaic.Lib.Layout

noncomputable section

namespace Cert.FiniteInputs

open Cert.SoftmaxSpec
open Idealize.ShloMosaic Idealize.ShloMosaic.ValueIdx

private instance scalarIdxSubsingleton : Subsingleton Cert.Pre_finite_inputs_Kernel.S_.Idx :=
  ⟨fun a b => funext fun d => d.elim0⟩

/-- An extended real whose absolute value is below `⊤` is a real number: `⊥` and `⊤` have absolute value `⊤`. -/
private theorem real_of_abs_lt_top (x : EReal) (h : max x (-x) < ⊤) : ∃ r : ℝ, x = ((r : ℝ) : EReal) := by
  induction x using EReal.rec with
  | bot => simp at h
  | coe r => exact ⟨r, rfl⟩
  | top => simp at h

/-- The bit pattern of `+inf` denotes `⊤`. -/
private theorem ofBits_inf : Ideal.ofBits .f32 0x7F800000#32 = ⊤ := by simp [Ideal.ofBits, Ideal.ieee]

/-- The `[512, 1024]` array is four `[512, 256]` blocks side by side along the columns. -/
private theorem tiles : Layout.Tiles ⟨2, ![512, 256]⟩ ⟨2, ![512, 1024]⟩ 1 4 := by decide

/-- A block the precondition holds of has only real entries. -/
theorem real_of_pre (v : FVec Ideal Cert.Pre_finite_inputs_Kernel.S512x256 .f32)
    (h : Cert.Pre_finite_inputs_Kernel.fn (F := Ideal) v = fun _ => 1#1) :
    ∀ i, ∃ r : ℝ, v i = ((r : ℝ) : EReal) := by
  intro i
  -- the one bit of the result is the conjunction over all entries of the bit "|v i| < +inf"
  have h0 := congrFun h ValueIdx.ix0
  dsimp only [Cert.Pre_finite_inputs_Kernel.fn] at h0
  have hi := Host.reduce_andi_all _ _ _ _ _ h0 i
  -- at entry `i` that bit compares `max (v i) (-(v i))` with the value of the pattern of `+inf`
  have hc : Ideal.cmp .olt (max (v i : EReal) (-(v i : EReal))) (Ideal.ofBits .f32 0x7F800000#32) = 1#1 := hi
  rw [ofBits_inf] at hc
  refine real_of_abs_lt_top (v i) ?_
  by_contra hn
  simp [Ideal.cmp, hn] at hc

/-- An array whose four column blocks hold real numbers only is an array of real numbers. -/
theorem whole_real (X : (⟨2, ![512, 1024]⟩ : Shape).Idx → EReal)
    (h : ∀ (c : Fin 4) (i : (⟨2, ![512, 256]⟩ : Shape).Idx), ∃ r : ℝ, (Layout.block ⟨2, ![512, 256]⟩ ⟨2, ![512, 1024]⟩ 1 4 c X) i = ((r : ℝ) : EReal)) :
    ∃ x : Fin 512 → Fin 1024 → ℝ, X = fun i => ((x (i 0) (i 1) : ℝ) : EReal) := by
  choose f hf using h
  -- column `k` of the whole array is column `k % 256` of block `k / 256`
  refine ⟨fun r k => f ⟨k.val / 256, by omega⟩ (ix2 r (⟨k.val % 256, Nat.mod_lt _ (by norm_num)⟩ : Fin 256)), ?_⟩
  funext i
  have hk : (i 1).val < 1024 := (i 1).isLt
  have e := hf ⟨(i 1).val / 256, by omega⟩ (ix2 (i 0) (⟨(i 1).val % 256, Nat.mod_lt _ (by norm_num)⟩ : Fin 256))
  rw [Layout.block_apply] at e
  refine Eq.trans (congrArg X (funext fun b => Fin.ext ?_)) e
  match b with
  | ⟨0, _⟩ => rfl
  | ⟨1, _⟩ =>
    show (i 1).val = (i 1).val / 256 * 256 + (i 1).val % 256
    omega

/-- Column block `c` of an array of real numbers, entry by entry. -/
theorem block_real (x : Fin 512 → Fin 1024 → ℝ) (c : Fin 4) :
    Layout.block ⟨2, ![512, 256]⟩ ⟨2, ![512, 1024]⟩ 1 4 c (fun i : (⟨2, ![512, 1024]⟩ : Shape).Idx => ((x (i 0) (i 1) : ℝ) : EReal))
      = fun i : (⟨2, ![512, 256]⟩ : Shape).Idx => ((x (i 0) (col c (i 1)) : ℝ) : EReal) := by
  funext i
  rw [Layout.block_apply]
  -- the row is the block's row; the column is `c * 256` further along
  have e0 : (Layout.Tiles.idx tiles c i 0 : Fin 512) = i 0 := Fin.ext rfl
  have e1 : (Layout.Tiles.idx tiles c i 1 : Fin 1024) = col c (i 1) := Fin.ext rfl
  show ((x (Layout.Tiles.idx tiles c i 0) (Layout.Tiles.idx tiles c i 1) : ℝ) : EReal) = _
  rw [e0, e1]

end Cert.FiniteInputs

end
-- ==== Proof.Claims.lean ====
/-
  The five claims. The frames of the two kernel programs are their runs with the values dropped; the reference's is its run.
  For the equivalence: the precondition makes every device's block real, so the whole array is an array of real numbers x;
  each device's result block is then its column block of the row softmax of x, which is what the reference's result holds.
-/
import proofs.«901067_g7700000000001068_dist_softmax_colshard_i_m512_n256_v7x_i4_f32_1_alg».proof.Defs
import proofs.«901067_g7700000000001068_dist_softmax_colshard_i_m512_n256_v7x_i4_f32_1_alg».proof.Proof.KernelIdealFinal
import proofs.«901067_g7700000000001068_dist_softmax_colshard_i_m512_n256_v7x_i4_f32_1_alg».proof.Proof.KernelIdealBody
import proofs.«901067_g7700000000001068_dist_softmax_colshard_i_m512_n256_v7x_i4_f32_1_alg».proof.Proof.KernelFinal
import proofs.«901067_g7700000000001068_dist_softmax_colshard_i_m512_n256_v7x_i4_f32_1_alg».proof.Proof.KernelBody
import proofs.«901067_g7700000000001068_dist_softmax_colshard_i_m512_n256_v7x_i4_f32_1_alg».proof.Proof.KernelIdealValue
import proofs.«901067_g7700000000001068_dist_softmax_colshard_i_m512_n256_v7x_i4_f32_1_alg».proof.Proof.ReferenceValue
import proofs.«901067_g7700000000001068_dist_softmax_colshard_i_m512_n256_v7x_i4_f32_1_alg».proof.Proof.FiniteInputs
import proofs.«901067_g7700000000001068_dist_softmax_colshard_i_m512_n256_v7x_i4_f32_1_alg».proof.Proof.Gen.Kernel
import proofs.«901067_g7700000000001068_dist_softmax_colshard_i_m512_n256_v7x_i4_f32_1_alg».proof.Proof.Gen.KernelIdeal
import proofs.«901067_g7700000000001068_dist_softmax_colshard_i_m512_n256_v7x_i4_f32_1_alg».proof.Proof.Gen.ReferenceIdeal
import proofs.«901067_g7700000000001068_dist_softmax_colshard_i_m512_n256_v7x_i4_f32_1_alg».proof.Proof.Gen.Pre_finite_inputs_Kernel
import proofs.«901067_g7700000000001068_dist_softmax_colshard_i_m512_n256_v7x_i4_f32_1_alg».proof.Proof.Gen.Pre_finite_inputs_ReferenceIdeal

noncomputable section

namespace Cert.Proof.Claims

open Idealize.ShloMosaic Idealize.ShloMosaic.TcCoe Idealize.ShloMosaic.ValueIdx Idealize.SL.Sem
open Cert.SoftmaxSpec

theorem frame_k : Cert.frame_Kernel := fun m ρ _ =>
  (θ_run (Cert.Kernel.defs (F := Bits)) _ _).mono (fun _ h c => (h c).2)
    (Cert.KernelProof.run_values (F := Bits) m ρ (Cert.KernelProof.body_obligation m ρ))

theorem frame_ki : Cert.frame_KernelIdeal := fun m ρ _ =>
  (θ_run (Cert.KernelIdeal.defs (F := Ideal)) _ _).mono (fun _ h c => (h c).2)
    (Cert.KernelIdealProof.run_values (F := Ideal) m ρ (Cert.KernelIdealProof.body_obligation m ρ))

theorem frame_ri : Cert.frame_ReferenceIdeal := Cert.ReferenceValue.frame_ri

theorem preserves : Cert.preserves_Kernel_KernelIdeal := trivial

theorem algebraic : Cert.algebraic_KernelIdeal_ReferenceIdeal := by
  intro m ρ m' ρ' hpre hagree
  -- every block is real, hence the whole array
  have hblk : ∀ (c : Fin 4) (i : (⟨2, ![512, 256]⟩ : Shape).Idx), ∃ r : ℝ,
      (Layout.block ⟨2, ![512, 256]⟩ ⟨2, ![512, 1024]⟩ 1 4 c
        (m' (((0 : Dev Cert.ReferenceIdeal.nD).tc : Thread Cert.ReferenceIdeal.nD Cert.ReferenceIdeal.τ).loc Cert.ReferenceIdeal.main_arg0))) i = ((r : ℝ) : EReal) := by
    intro c i
    have h := Cert.FiniteInputs.real_of_pre _ (hpre c) i
    rw [hagree c] at h
    exact h
  obtain ⟨x, hx⟩ := Cert.FiniteInputs.whole_real _ hblk
  refine ⟨fun i => ((softmax x (i 0) (i 1) : ℝ) : EReal), ?_, ?_⟩
  · refine (θ_run (Cert.KernelIdeal.defs (F := Ideal)) _ _).mono (fun r h c => ⟨(h c).1.trans ?_, (h c).2⟩)
      (Cert.KernelIdealProof.run_values (F := Ideal) m ρ (Cert.KernelIdealProof.body_obligation m ρ))
    -- device c's result block, entry by entry
    have hxs : Cert.KernelIdealProof.xstg m ρ = Cert.KernelIdealValue.blk x := by
      funext d
      rw [Cert.KernelIdealProof.xstg_eq, hagree d, hx, Cert.FiniteInputs.block_real]
      rfl
    show Cert.KernelIdealProof.outOf (Cert.KernelIdealProof.xstg m ρ) c = _
    rw [hxs]
    funext i
    obtain ⟨a, b, rfl⟩ : ∃ (a : Fin 512) (b : Fin 256), i = ix2 a b := ⟨i 0, i 1, eq_ix2 i⟩
    rw [Cert.KernelIdealValue.outOf_softmax]
    exact (congrFun (Cert.FiniteInputs.block_real (fun r k => softmax x r k) c) (ix2 a b)).symm
  · exact Cert.ReferenceValue.ref_run_softmax m' ρ' x hx

end Cert.Proof.Claims

end
-- ==== Proof.lean ====
/-
  The certificate's claim: a four-device row softmax whose devices exchange per-block row statistics (row maximum, row sum of
  exponentials against it) by remote copies behind a barrier handshake, against the one-device softmax over the whole
  array. Over the extended reals, for finite inputs, each device's result is its column block of the reference's result
  (Proof/Claims.lean); both kernel programs and the reference run to the end, fault nowhere and leave their arguments unchanged.
-/
import proofs.«901067_g7700000000001068_dist_softmax_colshard_i_m512_n256_v7x_i4_f32_1_alg».proof.Defs
import proofs.«901067_g7700000000001068_dist_softmax_colshard_i_m512_n256_v7x_i4_f32_1_alg».proof.Proof.Claims
import proofs.«901067_g7700000000001068_dist_softmax_colshard_i_m512_n256_v7x_i4_f32_1_alg».proof.Proof.Gen.Kernel
import proofs.«901067_g7700000000001068_dist_softmax_colshard_i_m512_n256_v7x_i4_f32_1_alg».proof.Proof.Gen.KernelIdeal
import proofs.«901067_g7700000000001068_dist_softmax_colshard_i_m512_n256_v7x_i4_f32_1_alg».proof.Proof.Gen.ReferenceIdeal
import proofs.«901067_g7700000000001068_dist_softmax_colshard_i_m512_n256_v7x_i4_f32_1_alg».proof.Proof.Gen.Pre_finite_inputs_Kernel
import proofs.«901067_g7700000000001068_dist_softmax_colshard_i_m512_n256_v7x_i4_f32_1_alg».proof.Proof.Gen.Pre_finite_inputs_ReferenceIdeal
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    Claims.frame_k, Claims.frame_ki, Claims.frame_ri, Claims.preserves, Claims.algebraic⟩

end Cert.Proof

end
